-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S1x4x16 : Shape := ⟨3, ![1, 4, 16]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S1x4x16 : S_.BroadcastsInDim S1x4x16 (![] : Fin 0 → Fin S1x4x16.rank)
  reducesTo_S1x4x16_S_d0_1_2 : S1x4x16.ReducesTo [0, 1, 2] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg4 : IVec S1600000 32) (main_arg5 : IVec S1600000 32) (main_v13 : IVec S_ 1) (main_v16 : IVec S1x4x16 1) : IVec S_ 1 :=
  let main_c_5 : IVec S_ 1 := constantI S_ 1 1#1
  let main_v17 : IVec S_ 1 := (fun x v => Host.reduce IntOp.andi x v reducesTo_S1x4x16_S_d0_1_2 h_S_) main_v16 main_c_5
  let main_v18 : IVec S_ 1 := andi main_v13 main_v17
  let main_c_6 : IVec S_ 32 := constantI S_ 32 0#32
  let main_v19 : IVec S1600000 32 := broadcastInDim S1600000 ![] bcast_S_S1600000 main_c_6
  let main_v20 : IVec S1600000 1 := cmpi .sge main_arg4 main_v19
  let main_c_7 : IVec S_ 32 := constantI S_ 32 100000#32
  let main_v21 : IVec S1600000 32 := broadcastInDim S1600000 ![] bcast_S_S1600000 main_c_7
  let main_v22 : IVec S1600000 1 := cmpi .slt main_arg4 main_v21
  let main_v23 : IVec S1600000 1 := andi main_v20 main_v22
  let main_c_8 : IVec S_ 1 := constantI S_ 1 1#1
  let main_v24 : IVec S_ 1 := (fun x v => Host.reduce IntOp.andi x v reducesTo_S1600000_S_d0 h_S_) main_v23 main_c_8
  let main_v25 : IVec S_ 1 := andi main_v18 main_v24
  let main_c_9 : IVec S_ 32 := constantI S_ 32 0#32
  let main_v26 : IVec S1600000 32 := broadcastInDim S1600000 ![] bcast_S_S1600000 main_c_9
  let main_v27 : IVec S1600000 1 := cmpi .sge main_arg5 main_v26
  let main_c_10 : IVec S_ 32 := constantI S_ 32 100000#32
  let main_v28 : IVec S1600000 32 := broadcastInDim S1600000 ![] bcast_S_S1600000 main_c_10
  let main_v29 : IVec S1600000 1 := cmpi .slt main_arg5 main_v28
  let main_v30 : IVec S1600000 1 := andi main_v27 main_v29
  let main_c_11 : IVec S_ 1 := constantI S_ 1 1#1
  let main_v31 : IVec S_ 1 := (fun x v => Host.reduce IntOp.andi x v reducesTo_S1600000_S_d0 h_S_) main_v30 main_c_11
  let main_v32 : IVec S_ 1 := andi main_v25 main_v31
  main_v32

def fn {F : FTy → Type} [FloatOps F] (main_arg0 : FVec F S100000x128 .f32) (main_arg1 : FVec F S128x64 .f32) (main_arg2 : FVec F S1x4x16 .f32) (main_arg3 : FVec F S1x4x16 .f32) (main_arg4 : IVec S1600000 32) (main_arg5 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S1x4x16 .f32 := Host.absf main_arg2
  let main_cst_2 : FVec F S_ .f32 := constant S_ .f32 0x7F800000#32
  let main_v10 : FVec F S1x4x16 .f32 := broadcastInDim S1x4x16 ![] bcast_S_S1x4x16 main_cst_2
  let main_v11 : IVec S1x4x16 1 := cmpf .olt main_v9 main_v10
  let main_c_3 : IVec S_ 1 := constantI S_ 1 1#1
  let main_v12 : IVec S_ 1 := (fun x v => Host.reduce IntOp.andi x v reducesTo_S1x4x16_S_d0_1_2 h_S_) main_v11 main_c_3
  let main_v13 : IVec S_ 1 := andi main_v8 main_v12
  let main_v14 : FVec F S1x4x16 .f32 := Host.absf main_arg3
  let main_cst_4 : FVec F S_ .f32 := constant S_ .f32 0x7F800000#32
  let main_v15 : FVec F S1x4x16 .f32 := broadcastInDim S1x4x16 ![] bcast_S_S1x4x16 main_cst_4
  let main_v16 : IVec S1x4x16 1 := cmpf .olt main_v14 main_v15
  fn_part1 (F := F) main_arg4 main_arg5 main_v13 main_v16
-- ==== Kernel.lean ====
abbrev S100000x128 : Shape := ⟨2, ![100000, 128]⟩
abbrev S128x64 : Shape := ⟨2, ![128, 64]⟩
abbrev S1x4x16 : Shape := ⟨3, ![1, 4, 16]⟩
abbrev S1600000 : Shape := ⟨1, ![1600000]⟩
abbrev S1x64 : Shape := ⟨2, ![1, 64]⟩
abbrev S100000x64 : Shape := ⟨2, ![100000, 64]⟩
abbrev S100000x4 : Shape := ⟨2, ![100000, 4]⟩
abbrev S4000x128 : Shape := ⟨2, ![4000, 128]⟩
abbrev S4000x64 : Shape := ⟨2, ![4000, 64]⟩
abbrev S4000x4 : Shape := ⟨2, ![4000, 4]⟩
abbrev S4000x16 : Shape := ⟨2, ![4000, 16]⟩
abbrev S4000 : Shape := ⟨1, ![4000]⟩
abbrev S4000x1 : Shape := ⟨2, ![4000, 1]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x4 : Shape := ⟨2, ![1600000, 4]⟩
abbrev S1600000x64 : Shape := ⟨2, ![1600000, 64]⟩
abbrev S1600000x4x16 : Shape := ⟨3, ![1600000, 4, 16]⟩

abbrev nBuf : Space → Nat
  | .hbm => 131
  | .vmem => 11
  | .smem => 0
  | _ => 0

abbrev hbmTy0_0 (i : Nat) : BufTy := match i % 128 with
  | 0 => ⟨S100000x128, .f32⟩
  | 1 => ⟨S128x64, .f32⟩
  | 2 => ⟨S1x4x16, .f32⟩
  | 3 => ⟨S1x4x16, .f32⟩
  | 4 => ⟨S1600000, .i32⟩
  | 5 => ⟨S1600000, .i32⟩
  | 6 => ⟨S1x64, .f32⟩
  | 7 => ⟨S1x64, .f32⟩
  | 8 => ⟨S100000x64, .f32⟩
  | 9 => ⟨S100000x4, .f32⟩
  | 10 => ⟨S100000x4, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1, .i32⟩
  | 20 => ⟨S_, .i32⟩
  | 21 => ⟨S1600000x1, .i32⟩
  | 22 => ⟨S1600000x1, .i1⟩
  | 23 => ⟨S1x1, .i32⟩
  | 24 => ⟨S1600000x1, .i32⟩
  | 25 => ⟨S1600000x1, .i1⟩
  | 26 => ⟨S1600000x1, .i1⟩
  | 27 => ⟨S_, .i1⟩
  | 28 => ⟨S1600000, .i1⟩
  | 29 => ⟨S1600000x4, .f32⟩
  | 30 => ⟨S1600000x4, .i1⟩
  | 31 => ⟨S_, .f32⟩
  | 32 => ⟨S1600000x4, .f32⟩
  | 33 => ⟨S1600000x4, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1, .i32⟩
  | 43 => ⟨S_, .i32⟩
  | 44 => ⟨S1600000x1, .i32⟩
  | 45 => ⟨S1600000x1, .i1⟩
  | 46 => ⟨S1x1, .i32⟩
  | 47 => ⟨S1600000x1, .i32⟩
  | 48 => ⟨S1600000x1, .i1⟩
  | 49 => ⟨S1600000x1, .i1⟩
  | 50 => ⟨S_, .i1⟩
  | 51 => ⟨S1600000, .i1⟩
  | 52 => ⟨S1600000x4, .f32⟩
  | 53 => ⟨S1600000x4, .i1⟩
  | 54 => ⟨S_, .f32⟩
  | 55 => ⟨S1600000x4, .f32⟩
  | 56 => ⟨S1600000x4, .f32⟩
  | 57 => ⟨S1600000x4, .f32⟩
  | 58 => ⟨S_, .f32⟩
  | 59 => ⟨S1600000x4, .f32⟩
  | 60 => ⟨S1600000x4, .i1⟩
  | 61 => ⟨S_, .f32⟩
  | 62 => ⟨S1600000x4, .f32⟩
  | 63 => ⟨S1600000x4, .f32⟩
  | 64 => ⟨S1600000x4, .f32⟩
  | 65 => ⟨S_, .f32⟩
  | 66 => ⟨S_, .f32⟩
  | 67 => ⟨S1600000x4, .f32⟩
  | 68 => ⟨S1600000x4, .f32⟩
  | 69 => ⟨S1600000x4, .f32⟩
  | 70 => ⟨S_, .f32⟩
  | 71 => ⟨S100000x4, .f32⟩
  | 72 => ⟨S1600000x1, .i32⟩
  | 73 => ⟨S100000x4, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1, .i32⟩
  | 83 => ⟨S_, .i32⟩
  | 84 => ⟨S1600000x1, .i32⟩
  | 85 => ⟨S1600000x1, .i1⟩
  | 86 => ⟨S1x1, .i32⟩
  | 87 => ⟨S1600000x1, .i32⟩
  | 88 => ⟨S1600000x1, .i1⟩
  | 89 => ⟨S1600000x1, .i1⟩
  | 90 => ⟨S_, .i1⟩
  | 91 => ⟨S1600000, .i1⟩
  | 92 => ⟨S1600000x4, .f32⟩
  | 93 => ⟨S1600000x4, .i1⟩
  | 94 => ⟨S_, .f32⟩
  | 95 => ⟨S1600000x4, .f32⟩
  | 96 => ⟨S1600000x4, .f32⟩
  | 97 => ⟨S_, .f32⟩
  | 98 => ⟨S1600000x4, .f32⟩
  | 99 => ⟨S1600000x4, .f32⟩
  | 100 => ⟨S1600000x4, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1, .i32⟩
  | 110 => ⟨S_, .i32⟩
  | 111 => ⟨S1600000x1, .i32⟩
  | 112 => ⟨S1600000x1, .i1⟩
  | 113 => ⟨S1x1, .i32⟩
  | 114 => ⟨S1600000x1, .i32⟩
  | 115 => ⟨S1600000x1, .i1⟩
  | 116 => ⟨S1600000x1, .i1⟩
  | 117 => ⟨S_, .i1⟩
  | 118 => ⟨S1600000, .i1⟩
  | 119 => ⟨S1600000x64, .f32⟩
  | 120 => ⟨S1600000x64, .i1⟩
  | 121 => ⟨S_, .f32⟩
  | 122 => ⟨S1600000x64, .f32⟩
  | 123 => ⟨S1600000x64, .f32⟩
  | 124 => ⟨S1600000x4x16, .f32⟩
  | 125 => ⟨S1600000x64, .f32⟩
  | 126 => ⟨S1600000x64, .f32⟩
  | 127 => ⟨S_, .f32⟩
  | _ => ⟨S100000x128, .f32⟩

abbrev hbmTy0_1 (i : Nat) : BufTy := match i % 128 with
  | 0 => ⟨S100000x64, .f32⟩
  | 1 => ⟨S1600000x1, .i32⟩
  | 2 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S1x64, .f32⟩
  | .local _ .vmem, ⟨4, _⟩ => ⟨S1x64, .f32⟩
  | .local _ .vmem, ⟨5, _⟩ => ⟨S4000x64, .f32⟩
  | .local _ .vmem, ⟨6, _⟩ => ⟨S4000x64, .f32⟩
  | .local _ .vmem, ⟨7, _⟩ => ⟨S4000x4, .f32⟩
  | .local _ .vmem, ⟨8, _⟩ => ⟨S4000x4, .f32⟩
  | .local _ .vmem, ⟨9, _⟩ => ⟨S4000x4, .f32⟩
  | .local _ .vmem, ⟨10, _⟩ => ⟨S4000x4, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v3 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v4 : Ref sig .tc := ⟨.hbm, 56, rfl⟩
abbrev main_v5 : Ref sig .tc := ⟨.hbm, 57, rfl⟩
abbrev main_cst : Ref sig .tc := ⟨.hbm, 58, rfl⟩
abbrev main_v6 : Ref sig .tc := ⟨.hbm, 59, rfl⟩
abbrev main_v7 : Ref sig .tc := ⟨.hbm, 60, rfl⟩
abbrev main_cst_0 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_cst_1 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_cst_2 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_call3_c : Ref sig .tc := ⟨.hbm, 74, rfl⟩
abbrev main_call3_v0 : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_c_1 : Ref sig .tc := ⟨.hbm, 82, rfl⟩
abbrev main_call3_c_2 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_c_3 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_call3_cst : Ref sig .tc := ⟨.hbm, 94, rfl⟩
abbrev main_call3_v15 : Ref sig .tc := ⟨.hbm, 95, rfl⟩
abbrev main_v18 : Ref sig .tc := ⟨.hbm, 96, rfl⟩
abbrev main_cst_3 : Ref sig .tc := ⟨.hbm, 97, rfl⟩
abbrev main_v19 : Ref sig .tc := ⟨.hbm, 98, rfl⟩
abbrev main_v20 : Ref sig .tc := ⟨.hbm, 99, rfl⟩
abbrev main_v21 : Ref sig .tc := ⟨.hbm, 100, rfl⟩
abbrev main_call4_c : Ref sig .tc := ⟨.hbm, 101, rfl⟩
abbrev main_call4_v0 : Ref sig .tc := ⟨.hbm, 102, rfl⟩
abbrev main_call4_v1 : Ref sig .tc := ⟨.hbm, 103, rfl⟩
abbrev main_call4_c_0 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_call4_v5 : Ref sig .tc := ⟨.hbm, 108, rfl⟩
abbrev main_call4_c_1 : Ref sig .tc := ⟨.hbm, 109, rfl⟩
abbrev main_call4_c_2 : Ref sig .tc := ⟨.hbm, 110, rfl⟩
abbrev main_call4_v6 : Ref sig .tc := ⟨.hbm, 111, rfl⟩
abbrev main_call4_v7 : Ref sig .tc := ⟨.hbm, 112, rfl⟩
abbrev main_call4_v8 : Ref sig .tc := ⟨.hbm, 113, rfl⟩
abbrev main_call4_v9 : Ref sig .tc := ⟨.hbm, 114, rfl⟩
abbrev main_call4_v10 : Ref sig .tc := ⟨.hbm, 115, rfl⟩
abbrev main_call4_v11 : Ref sig .tc := ⟨.hbm, 116, rfl⟩
abbrev main_call4_c_3 : Ref sig .tc := ⟨.hbm, 117, rfl⟩
abbrev main_call4_v12 : Ref sig .tc := ⟨.hbm, 118, rfl⟩
abbrev main_call4_v13 : Ref sig .tc := ⟨.hbm, 119, rfl⟩
abbrev main_call4_v14 : Ref sig .tc := ⟨.hbm, 120, rfl⟩
abbrev main_call4_cst : Ref sig .tc := ⟨.hbm, 121, rfl⟩
abbrev main_call4_v15 : Ref sig .tc := ⟨.hbm, 122, rfl⟩
abbrev main_v22 : Ref sig .tc := ⟨.hbm, 123, rfl⟩
abbrev main_v23 : Ref sig .tc := ⟨.hbm, 124, rfl⟩
abbrev main_v24 : Ref sig .tc := ⟨.hbm, 125, rfl⟩
abbrev main_v25 : Ref sig .tc := ⟨.hbm, 126, rfl⟩
abbrev main_cst_4 : Ref sig .tc := ⟨.hbm, 127, rfl⟩
abbrev main_v26 : Ref sig .tc := ⟨.hbm, 128, rfl⟩
abbrev main_v27 : Ref sig .tc := ⟨.hbm, 129, rfl⟩
abbrev main_v28 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1x4x16_S1x64 : S1x4x16.ShapeCasts S1x64
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  slices_S4000x64_o0_0_S4000x16 : S4000x64.Slices ![0, 0] S4000x16
  reduces_S4000x16_S4000 : S4000x16.Reduces [1] S4000
  shapeCasts_S4000_S4000x1 : S4000.ShapeCasts S4000x1
  slices_S4000x64_o0_16_S4000x16 : S4000x64.Slices ![0, 16] S4000x16
  slices_S4000x64_o0_32_S4000x16 : S4000x64.Slices ![0, 32] S4000x16
  slices_S4000x64_o0_48_S4000x16 : S4000x64.Slices ![0, 48] S4000x16
  concatenates_S4000x1_S4000x1_S4000x1_S4000x1_S4000x4_d1 : Shape.Concatenates [S4000x1, S4000x1, S4000x1, S4000x1] S4000x4 1
  inb_S4000x4_S4000x4_0_0 : ∀ a, (![0, 0] : Fin 2 → Nat) a + S4000x4.size a ≤ S4000x4.size a
  h_S4000x4 : 0 < S4000x4.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x4_0 : S1600000.BroadcastsInDim S1600000x4 (![0] : Fin 1 → Fin S1600000x4.rank)
  bcast_S_S1600000x4 : S_.BroadcastsInDim S1600000x4 (![] : Fin 0 → Fin S1600000x4.rank)
  reducesTo_S1600000x4_S_d0_1 : S1600000x4.ReducesTo [0, 1] S_
  bcast_S_S100000x4 : S_.BroadcastsInDim S100000x4 (![] : Fin 0 → Fin S100000x4.rank)
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S1600000x4_S1600000x4x16_0_1 : S1600000x4.BroadcastsInDim S1600000x4x16 (![0, 1] : Fin 2 → Fin S1600000x4x16.rank)
  shapeCasts_S1600000x4x16_S1600000x64 : S1600000x4x16.ShapeCasts S1600000x64
  bcast_S_S100000x64 : S_.BroadcastsInDim S100000x64 (![] : Fin 0 → Fin S100000x64.rank)
  dot_S4000x128_S128x64_S4000x64_1_0_0_1_n_n_wf : DotDims.WF S4000x128 S128x64 S4000x64 [1] [0] [0] [1] [] []
  gather_S100000x4_S1600000x1_S1600000x4_1_0_n_n_0_1_14_wf : GatherDims.WF S100000x4 S1600000x1 S1600000x4 [1] [0] [] [0] [] 1 ![1, 4]
  scatter_S100000x4_S1600000x1_S1600000x4_1_0_0_1_wf : ScatterDims.WF S100000x4 S1600000x1 S1600000x4 [1] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x64.size a ≤ S100000x64.size a
  hwx0_4 : ∀ i : grid0.Coords, EltTy.bits .f32 = 32 ∨ (Rect.block (s := S100000x64) S4000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x4.size a ≤ S100000x4.size a
  hwx0_5 : ∀ i : grid0.Coords, EltTy.bits .f32 = 32 ∨ (Rect.block (s := S100000x4) S4000x4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x4.size a ≤ S100000x4.size a
  hwx0_6 : ∀ i : grid0.Coords, EltTy.bits .f32 = 32 ∨ (Rect.block (s := S100000x4) S4000x4.size (cc0_transform_6 i) (hinb0_6 i)).WholeWords (EltTy.packing .f32)

variable [Facts₀]

def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S4000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S4000x4.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S4000x4.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S1x4x16 : Shape := ⟨3, ![1, 4, 16]⟩
abbrev S1600000 : Shape := ⟨1, ![1600000]⟩
abbrev S100000x64 : Shape := ⟨2, ![100000, 64]⟩
abbrev S100000x4x16 : Shape := ⟨3, ![100000, 4, 16]⟩
abbrev S_ : Shape := ⟨0, ![]⟩
abbrev S100000x4 : Shape := ⟨2, ![100000, 4]⟩
abbrev S1600000x1 : Shape := ⟨2, ![1600000, 1]⟩
abbrev S1600000x4 : Shape := ⟨2, ![1600000, 4]⟩
abbrev S1600000x4x16 : Shape := ⟨3, ![1600000, 4, 16]⟩
abbrev S1600000x4x1 : Shape := ⟨3, ![1600000, 4, 1]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S1x4x16, .f32⟩
  | .hbm, ⟨3, _⟩ => ⟨S1x4x16, .f32⟩
  | .hbm, ⟨4, _⟩ => ⟨S1600000, .i32⟩
  | .hbm, ⟨5, _⟩ => ⟨S1600000, .i32⟩
  | .hbm, ⟨6, _⟩ => ⟨S100000x64, .f32⟩
  | .hbm, ⟨7, _⟩ => ⟨S100000x4x16, .f32⟩
  | .hbm, ⟨8, _⟩ => ⟨S100000x4x16, .f32⟩
  | .hbm, ⟨9, _⟩ => ⟨S100000x4x16, .f32⟩
  | .hbm, ⟨10, _⟩ => ⟨S_, .f32⟩
  | .hbm, ⟨11, _⟩ => ⟨S100000x4, .f32⟩
  | .hbm, ⟨12, _⟩ => ⟨S100000x4x16, .f32⟩
  | .hbm, ⟨13, _⟩ => ⟨S100000x4x16, .f32⟩
  | .hbm, ⟨14, _⟩ => ⟨S_, .f32⟩
  | .hbm, ⟨15, _⟩ => ⟨S100000x4, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x4, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x4, .f32⟩
  | .hbm, ⟨34, _⟩ => ⟨S1600000x4, .f32⟩
  | .hbm, ⟨35, _⟩ => ⟨S_, .f32⟩
  | .hbm, ⟨36, _⟩ => ⟨S1600000x4, .f32⟩
  | .hbm, ⟨37, _⟩ => ⟨S1600000x4, .i1⟩
  | .hbm, ⟨38, _⟩ => ⟨S_, .f32⟩
  | .hbm, ⟨39, _⟩ => ⟨S1600000x4, .f32⟩
  | .hbm, ⟨40, _⟩ => ⟨S1600000x4, .f32⟩
  | .hbm, ⟨41, _⟩ => ⟨S1600000x4, .f32⟩
  | .hbm, ⟨42, _⟩ => ⟨S_, .f32⟩
  | .hbm, ⟨43, _⟩ => ⟨S_, .f32⟩
  | .hbm, ⟨44, _⟩ => ⟨S1600000x4, .f32⟩
  | .hbm, ⟨45, _⟩ => ⟨S1600000x4, .f32⟩
  | .hbm, ⟨46, _⟩ => ⟨S1600000x4, .f32⟩
  | .hbm, ⟨47, _⟩ => ⟨S_, .f32⟩
  | .hbm, ⟨48, _⟩ => ⟨S100000x4, .f32⟩
  | .hbm, ⟨49, _⟩ => ⟨S1600000x1, .i32⟩
  | .hbm, ⟨50, _⟩ => ⟨S100000x4, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x4, .f32⟩
  | .hbm, ⟨60, _⟩ => ⟨S_, .f32⟩
  | .hbm, ⟨61, _⟩ => ⟨S1600000x4, .f32⟩
  | .hbm, ⟨62, _⟩ => ⟨S1600000x4, .f32⟩
  | .hbm, ⟨63, _⟩ => ⟨S1600000x4, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x4x16, .f32⟩
  | .hbm, ⟨73, _⟩ => ⟨S1600000x4x1, .f32⟩
  | .hbm, ⟨74, _⟩ => ⟨S1600000x4x16, .f32⟩
  | .hbm, ⟨75, _⟩ => ⟨S1600000x4x16, .f32⟩
  | .hbm, ⟨76, _⟩ => ⟨S_, .f32⟩
  | .hbm, ⟨77, _⟩ => ⟨S100000x4x16, .f32⟩
  | .hbm, ⟨78, _⟩ => ⟨S1600000x1, .i32⟩
  | .hbm, ⟨79, _⟩ => ⟨S100000x4x16, .f32⟩
  | .hbm, ⟨80, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_c_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_11 : Ref sig .tc := ⟨.hbm, 64, rfl⟩
abbrev main_v45 : Ref sig .tc := ⟨.hbm, 65, rfl⟩
abbrev main_v46 : Ref sig .tc := ⟨.hbm, 66, rfl⟩
abbrev main_c_12 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  shapeCasts_S100000x64_S100000x4x16 : S100000x64.ShapeCasts S100000x4x16
  bcast_S1x4x16_S100000x4x16_0_1_2 : S1x4x16.BroadcastsInDim S100000x4x16 (![0, 1, 2] : Fin 3 → Fin S100000x4x16.rank)
  reducesTo_S100000x4x16_S100000x4_d2 : S100000x4x16.ReducesTo [2] S100000x4
  h_S_ : 0 < S_.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x4 : S_.BroadcastsInDim S1600000x4 (![] : Fin 0 → Fin S1600000x4.rank)
  reducesTo_S1600000x4_S_d0_1 : S1600000x4.ReducesTo [0, 1] S_
  bcast_S_S100000x4 : S_.BroadcastsInDim S100000x4 (![] : Fin 0 → Fin S100000x4.rank)
  bcast_S1600000x4_S1600000x4x1_0_1 : S1600000x4.BroadcastsInDim S1600000x4x1 (![0, 1] : Fin 2 → Fin S1600000x4x1.rank)
  bcast_S1600000x4x1_S1600000x4x16_0_1_2 : S1600000x4x1.BroadcastsInDim S1600000x4x16 (![0, 1, 2] : Fin 3 → Fin S1600000x4x16.rank)
  bcast_S_S100000x4x16 : S_.BroadcastsInDim S100000x4x16 (![] : Fin 0 → Fin S100000x4x16.rank)
  shapeCasts_S100000x4x16_S100000x64 : S100000x4x16.ShapeCasts S100000x64
  dot_S100000x128_S128x64_S100000x64_1_0_0_1_n_n_wf : DotDims.WF S100000x128 S128x64 S100000x64 [1] [0] [0] [1] [] []
  gather_S100000x4_S1600000x1_S1600000x4_1_0_n_n_0_1_14_wf : GatherDims.WF S100000x4 S1600000x1 S1600000x4 [1] [0] [] [0] [] 1 ![1, 4]
  scatter_S100000x4_S1600000x1_S1600000x4_1_0_0_1_wf : ScatterDims.WF S100000x4 S1600000x1 S1600000x4 [1] [0] [0] 1
  gather_S100000x4x16_S1600000x1_S1600000x4x16_12_0_n_n_0_1_1416_wf : GatherDims.WF S100000x4x16 S1600000x1 S1600000x4x16 [1, 2] [0] [] [0] [] 1 ![1, 4, 16]
  scatter_S100000x4x16_S1600000x1_S1600000x4x16_12_0_0_1_wf : ScatterDims.WF S100000x4x16 S1600000x1 S1600000x4x16 [1, 2] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf
def gather_S100000x4x16_S1600000x1_S1600000x4x16_12_0_n_n_0_1_1416 : GatherDims S100000x4x16 S1600000x1 S1600000x4x16 where
  offsetDims := [1, 2]
  collapsedSliceDims := [0]
  operandBatchingDims := []
  startIndicesBatchingDims := []
  startIndexMap := [0]
  indexVectorDim := 1
  sliceSizes := ![1, 4, 16]
  wf := gather_S100000x4x16_S1600000x1_S1600000x4x16_12_0_n_n_0_1_1416_wf
def scatter_S100000x4x16_S1600000x1_S1600000x4x16_12_0_0_1 : ScatterDims S100000x4x16 S1600000x1 S1600000x4x16 where
  updateWindowDims := [1, 2]
  insertedWindowDims := [0]
  scatterDimsToOperandDims := [0]
  indexVectorDim := 1
  wf := scatter_S100000x4x16_S1600000x1_S1600000x4x16_12_0_0_1_wf

class Facts : Prop extends Facts₀ where

variable [Facts]
-- ==== Proof.HostLines.lean ====
/-
  The host operations of the kernel program around its one pallas_call.

  @main is two reshapes (the attention vectors flattened to 1x64), the region, and then 120 host
  operations in nine stretches (the edge scores, their softmax by target node, the messages and their
  sum by target node). None of those operations writes an argument array or an array the region
  stages, and none allocates: so the region's arrays are, after the last operation, what the region
  left, the arguments are what they were at launch, and every other buffer holds the operations'
  composed value of those.
-/
import proofs.«419565_j82154134438199_3_alg».proof.Proof.Gen.KernelIdeal.Launch
import proofs.«419565_j82154134438199_3_alg».proof.Proof.Gen.KernelIdeal.Skeleton
import proofs.«419565_j82154134438199_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.HostLines

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The operations after the region, and the contents at its entry -/

/-- The nine stretches of host operations after the region, in program order. -/
abbrev tailOps : List (List (HloOp τ sig (Elt F))) :=
  [hostOps1, hostOps1_1, hostOps1_2, hostOps1_3, hostOps1_4, hostOps1_5, hostOps1_6, hostOps1_7, hostOps1_8]

/-- Core `c`'s buffer contents when the region is entered: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ## No operation allocates -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-! ## @main around the region -/

/-- @main is the two reshapes, the region, and the nine later stretches: it reduces to the region
    continued by those stretches, at the contents after the reshapes. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-! ## What the operations leave alone -/

/-- The argument arrays and the arrays the region stages. -/
def kept : List (Ref sig .tc) :=
  [main_arg0, main_arg1, main_arg2, main_arg3, main_arg4, main_arg5, main_v0, main_v1, main_v2_0, main_v2_1, main_v2_2]

/-- The argument arrays. -/
def argRefs : List (Ref sig .tc) := [main_arg0, main_arg1, main_arg2, main_arg3, main_arg4, main_arg5]

/-- An operation that writes none of the references of `L`. -/
abbrev Spares (L : List (Ref sig .tc)) (op : HloOp τ sig (Elt F)) : Prop :=
  ∀ b : Ref sig .tc, b ∈ L → Proc.devRef (τ := τ) .tc b ∉ op.writes

/-- Each operation writes its one result buffer, which is none of the listed references. -/
local macro "spares_each" : tactic => `(tactic|
  (intro b hb hw
   simp only [StableHlo.nullary_writes, StableHlo.unary_writes, StableHlo.binary_writes, StableHlo.ternary_writes,
     StableHlo.reshape_writes, Finset.mem_singleton] at hw
   have hbe := Proc.devRef_injective _ hw
   subst hbe
   revert hb
   decide))

theorem hostOps0_spares : (hostOps0 : List (HloOp τ sig (Elt F))).Forall (Spares argRefs) := by
  simp only [List.Forall]; repeat' constructor
  all_goals spares_each
theorem hostOps1_spares : (hostOps1 : List (HloOp τ sig (Elt F))).Forall (Spares kept) := by
  simp only [List.Forall]; repeat' constructor
  all_goals spares_each
theorem hostOps1_1_spares : (hostOps1_1 : List (HloOp τ sig (Elt F))).Forall (Spares kept) := by
  simp only [List.Forall]; repeat' constructor
  all_goals spares_each
theorem hostOps1_2_spares : (hostOps1_2 : List (HloOp τ sig (Elt F))).Forall (Spares kept) := by
  simp only [List.Forall]; repeat' constructor
  all_goals spares_each
theorem hostOps1_3_spares : (hostOps1_3 : List (HloOp τ sig (Elt F))).Forall (Spares kept) := by
  simp only [List.Forall]; repeat' constructor
  all_goals spares_each
theorem hostOps1_4_spares : (hostOps1_4 : List (HloOp τ sig (Elt F))).Forall (Spares kept) := by
  simp only [List.Forall]; repeat' constructor
  all_goals spares_each
theorem hostOps1_5_spares : (hostOps1_5 : List (HloOp τ sig (Elt F))).Forall (Spares kept) := by
  simp only [List.Forall]; repeat' constructor
  all_goals spares_each
theorem hostOps1_6_spares : (hostOps1_6 : List (HloOp τ sig (Elt F))).Forall (Spares kept) := by
  simp only [List.Forall]; repeat' constructor
  all_goals spares_each
theorem hostOps1_7_spares : (hostOps1_7 : List (HloOp τ sig (Elt F))).Forall (Spares kept) := by
  simp only [List.Forall]; repeat' constructor
  all_goals spares_each
theorem hostOps1_8_spares : (hostOps1_8 : List (HloOp τ sig (Elt F))).Forall (Spares kept) := by
  simp only [List.Forall]; repeat' constructor
  all_goals spares_each

/-- No operation after the region writes an argument array or an array the region stages. -/
theorem tail_spares : ∀ ops ∈ (tailOps : List (List (HloOp τ sig (Elt F)))), ∀ op ∈ ops, Spares kept op := by
  intro ops hops op hop
  simp only [List.mem_cons, List.mem_nil_iff, or_false] at hops
  rcases hops with rfl | rfl | rfl | rfl | rfl | rfl | rfl | rfl | rfl
  · exact (List.forall_iff_forall_mem.mp hostOps1_spares) op hop
  · exact (List.forall_iff_forall_mem.mp hostOps1_1_spares) op hop
  · exact (List.forall_iff_forall_mem.mp hostOps1_2_spares) op hop
  · exact (List.forall_iff_forall_mem.mp hostOps1_3_spares) op hop
  · exact (List.forall_iff_forall_mem.mp hostOps1_4_spares) op hop
  · exact (List.forall_iff_forall_mem.mp hostOps1_5_spares) op hop
  · exact (List.forall_iff_forall_mem.mp hostOps1_6_spares) op hop
  · exact (List.forall_iff_forall_mem.mp hostOps1_7_spares) op hop
  · exact (List.forall_iff_forall_mem.mp hostOps1_8_spares) op hop

/-- The operations after the region touch unscoped TensorCore buffers only: the region's arrays and the buffers
    that bypass it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-- Every array the region stages is one of the kept references. -/
theorem arrRef_mem_kept (w : Fin cfg0.W) : Pipeline.arrRef spec0 w ∈ kept := by
  fin_cases w <;> decide

/-- And they write no array of the region. -/
theorem sfx_keeps : ∀ ops ∈ (tailOps : List (List (HloOp τ sig (Elt F)))), ∀ op ∈ ops,
    ∀ w, Proc.devRef .tc (Pipeline.arrRef spec0 w) ∉ op.writes :=
  fun ops hops op hop w => tail_spares ops hops op hop (Pipeline.arrRef spec0 w) (arrRef_mem_kept w)

/-! ## The kept buffers' contents -/

/-- An argument array is, at the region's entry, what it was at launch: the two reshapes write elsewhere. -/
theorem V_arg (c : Dev nD) (b : Ref sig .tc) (hb : b ∈ argRefs) : V m c b = m ((c : Thread nD τ).loc b) := by
  have h := StableHlo.after_of_forall_not_mem (b := Proc.devRef (τ := τ) .tc b) (List.flatten [hostOps0 (F := F)]) (fun b => m (c, b))
    (fun op hop => by
      simp only [List.flatten_cons, List.flatten_nil, List.append_nil] at hop
      exact (List.forall_iff_forall_mem.mp hostOps0_spares) op hop b hb)
  exact h

/-- A kept buffer that is no array of the region holds, after the last operation, what it held at the region's
    entry. -/
theorem afterTail_kept (dats : (p : Fin 1) → (c : Dev nD) → Dat τ (Elt F) Unit ℕ (UR sig nD τ) ℕ (cfgs p) c)
    (c : Dev nD) (b : Ref sig .tc) (hb : b ∈ kept) (hne : ∀ w, Pipeline.arrRef spec0 w ≠ b) :
    Pipeline.afterTail₀ cfgs dats 0 (V0 m) tailOps c b = V m c b := by
  unfold Pipeline.afterTail₀
  have h := StableHlo.after_of_forall_not_mem (b := Proc.devRef (τ := τ) .tc b) (List.flatten (tailOps (F := F)))
    (Pipeline.withArrays (cfgs 0).spec c (V0 m c) fun w => (dats 0 c).arrAt w (cfgs 0).N)
    (fun op hop => by
      obtain ⟨ops, hops, hop'⟩ := List.mem_flatten.mp hop
      exact tail_spares ops hops op hop' b hb)
  rw [h]
  exact Pipeline.withArrays_of_ne _ c (V0 m c) _ b hne

/-! ## The frame claim's post from the run's -/

/-- The six argument equalities of a final state. -/
abbrev ArgsKept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

/-- For any proof data whose arrays are the region-entry contents, a final state with the region's arrays at what
    the data computes and every other buffer at the later operations' value has the six argument arrays as
    launched: the two the region stages are inputs, read back unchanged; the other four bypass the region and no
    operation writes them. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F))
    (h : Pipeline.FramePost cfgs dats 0 (Pipeline.afterTail₀ cfgs dats 0 (V0 m) tailOps) r) (c : Dev nD) : ArgsKept m r c :=
  ⟨((h c).1 0).trans (((dats 0 c).arrAt_in 0 rfl _).trans ((hA c 0).trans (V_arg m c main_arg0 (by decide)))),
   ((h c).1 1).trans (((dats 0 c).arrAt_in 1 rfl _).trans ((hA c 1).trans (V_arg m c main_arg1 (by decide)))),
   ((h c).2 main_arg2 (Pipeline.mem_restRefs_of main_arg2 (by decide) (by decide))).trans
     ((afterTail_kept m dats c main_arg2 (by decide) (by decide)).trans (V_arg m c main_arg2 (by decide))),
   ((h c).2 main_arg3 (Pipeline.mem_restRefs_of main_arg3 (by decide) (by decide))).trans
     ((afterTail_kept m dats c main_arg3 (by decide) (by decide)).trans (V_arg m c main_arg3 (by decide))),
   ((h c).2 main_arg4 (Pipeline.mem_restRefs_of main_arg4 (by decide) (by decide))).trans
     ((afterTail_kept m dats c main_arg4 (by decide) (by decide)).trans (V_arg m c main_arg4 (by decide))),
   ((h c).2 main_arg5 (Pipeline.mem_restRefs_of main_arg5 (by decide) (by decide))).trans
     ((afterTail_kept m dats c main_arg5 (by decide) (by decide)).trans (V_arg m c main_arg5 (by decide)))⟩

/-- The frame claim's post from such a run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD, ArgsKept m r c) :=
  (θ_run defs _ _).mono (fun r h c => args_kept m dats hA r h c) h

end Cert.KernelIdeal.HostLines

end
-- ==== Proof.BodyRun.lean ====
/-
  The run of the kernel program: the pallas_call's body at a grid point, the proof data of its pipeline,
  and the frame.

  At grid point t the body finds the point's 4000 rows of the features (window 0), the whole weight matrix
  (window 1) and the two flattened attention vectors (windows 2 and 3) in their staging buffers, and stores
  three values whole: the rows' products with the weight matrix (window 4), and the per-head sums of those
  products weighted by either attention vector (windows 5 and 6). Each output buffer is covered by its one
  store, so what it holds after the body is that store's value of the input blocks. The body keeps nothing
  between points and the pipeline writes every output block back at every point.
-/
import proofs.«419565_j82154134438199_3_alg».proof.Proof.HostLines

set_option maxRecDepth 16384

noncomputable section

namespace Cert.KernelIdeal.BodyRun

open Cert.KernelIdeal Cert.KernelIdeal.Gen Cert.KernelIdeal.HostLines
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, whether the pipeline fetched it there or left
    it from the point before (the block index has then not moved), for any proof data over the region-entry arrays
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store is of a whole buffer -/

abbrev rX : Rect S4000x128 := Rect.unit (s := S4000x128) ![0, 0] S4000x128.size inb_S4000x128_S4000x128_0_0
abbrev rW : Rect S128x64 := Rect.unit (s := S128x64) ![0, 0] S128x64.size inb_S128x64_S128x64_0_0
abbrev rA : Rect S1x64 := Rect.unit (s := S1x64) ![0, 0] S1x64.size inb_S1x64_S1x64_0_0
abbrev rH : Rect S4000x64 := Rect.unit (s := S4000x64) ![0, 0] S4000x64.size inb_S4000x64_S4000x64_0_0
abbrev rE : Rect S4000x4 := Rect.unit (s := S4000x4) ![0, 0] S4000x4.size inb_S4000x4_S4000x4_0_0

/-! ## What the body leaves in each output window's buffer -/

/-- The products' buffer after the body: its one store, of the feature block times the weights. -/
def out0_4 (x0 : Vec F S4000x128 .f32) (x1 : Vec F S128x64 .f32) : Vec F S4000x64 .f32 :=
  View.canon [⟨rH, k0_pay2 (View.ld x0 rX) (View.ld x1 rW)⟩]
/-- The left logits' buffer after the body: its one store, the four per-head sums side by side. -/
def out0_5 (x0 : Vec F S4000x128 .f32) (x1 : Vec F S128x64 .f32) (x2 : Vec F S1x64 .f32) : Vec F S4000x4 .f32 :=
  View.canon [⟨rE, k0_pay8 (View.ld x0 rX) (View.ld x1 rW) (View.ld x2 rA)⟩]
/-- The right logits' buffer after the body, likewise. -/
def out0_6 (x0 : Vec F S4000x128 .f32) (x1 : Vec F S128x64 .f32) (x3 : Vec F S1x64 .f32) : Vec F S4000x4 .f32 :=
  View.canon [⟨rE, k0_pay1 (k0_pay4 (View.ld x0 rX) (View.ld x1 rW) (View.ld x3 rA)) (k0_pay5 (View.ld x0 rX) (View.ld x1 rW) (View.ld x3 rA))
    (k0_pay6 (View.ld x0 rX) (View.ld x1 rW) (View.ld x3 rA)) (k0_pay7 (View.ld x0 rX) (View.ld x1 rW) (View.ld x3 rA))⟩]

/-- One whole-buffer store covers the buffer. -/
theorem coverH (p0 : Vec F S4000x64 .f32) (y : S4000x64.Idx) :
    ∃ pc ∈ ([⟨rH, p0⟩] : List (View.Piece (Elt F) S4000x64 .f32)), y ∈ pc.1.set :=
  View.cover_of_tiled [⟨rH, p0⟩] S4000x64.size (by rfl) y
theorem coverE (p0 : Vec F S4000x4 .f32) (y : S4000x4.Idx) :
    ∃ pc ∈ ([⟨rE, p0⟩] : List (View.Piece (Elt F) S4000x4 .f32)), y ∈ pc.1.set :=
  View.cover_of_tiled [⟨rE, p0⟩] S4000x4.size (by rfl) y

/-! ## The body's triple -/

set_option maxHeartbeats 4000000 in
/-- The body on whole staging memrefs, the inputs' at read contents and the outputs' at anything, runs to the
    continuation holding the inputs' as they were and each output's at its one store's value of the inputs'. -/
theorem sound_kernel (c : Dev nD) (E : Set ℕ) (i : grid0.Coords)
    (arg1 : Memref sig .tc .vmem S4000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S4000x64 .f32) (harg5 : arg5.IsWhole) (arg6 : Memref sig .tc .vmem S4000x4 .f32) (harg6 : arg6.IsWhole)
    (arg7 : Memref sig .tc .vmem S4000x4 .f32) (harg7 : arg7.IsWhole)
    (x0 : Vec F S4000x128 .f32) (x1 : Vec F S128x64 .f32) (x2 : Vec F S1x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x1 x2)
            ∗ owns (c : Thread nD τ) arg7 fullShare (out0_6 x0 x1 x3)) -∗ K ⟨⟩))
      ⊢ wp frame (wpE (defs₀ (F := F)) Variants.none c none) E (cc0__transform_kernel i arg1 harg1 arg2 harg2 arg3 harg3 arg4 harg4 arg5 harg5 arg6 harg6 arg7 harg7) K := by
  simp only [cc0__transform_kernel_eq_skeleton]; unfold cc0__transform_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverH _)
  isplitl [H5]
  · iexists _; isplitr
    swap; · iexact H5
    ipureintro
    exact View.read_writes_eq_canon _ _ _ (coverE _)
  iexists _; isplitr
  swap; · iexact H6
  ipureintro
  exact View.read_writes_eq_canon _ _ _ (coverE _)

/-! ## The pipeline's proof data -/

/-- The proof data of the pipeline on core `c`: the arrays as the region finds them; after the body at point `t`
    each input's buffer at its block and each output's at its store's value of the input blocks; the invariant
    the untouched scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t)
    | ⟨5, _⟩ => out0_5 (iblk m c 0 t) (iblk m c 1 t) (iblk m c 2 t)
    | ⟨6, _⟩ => out0_6 (iblk m c 0 t) (iblk m c 1 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) := by dsimp only [dats]
theorem after0_5 (c : Dev nD) (t : Fin cfg0.N) : (dats m 0 c).after 5 t = out0_5 (iblk m c 0 t) (iblk m c 1 t) (iblk m c 2 t) := by dsimp only [dats]
theorem after0_6 (c : Dev nD) (t : Fin cfg0.N) : (dats m 0 c).after 6 t = out0_6 (iblk m c 0 t) (iblk m c 1 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    each array of the pipeline at what the proof data computes and every other unscoped buffer at the later
    operations' value of those. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim of the program, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.BodyRun

end
-- ==== Proof.HostLinesKernel.lean ====
/-
  The host operations of the kernel program around its one pallas_call.

  @main is two reshapes (the attention vectors flattened to 1x64), the region, and then 120 host
  operations in nine stretches (the edge scores, their softmax by target node, the messages and their
  sum by target node). None of those operations writes an argument array or an array the region
  stages, and none allocates: so the region's arrays are, after the last operation, what the region
  left, the arguments are what they were at launch, and every other buffer holds the operations'
  composed value of those.
-/
import proofs.«419565_j82154134438199_3_alg».proof.Proof.Gen.Kernel.Launch
import proofs.«419565_j82154134438199_3_alg».proof.Proof.Gen.Kernel.Skeleton
import proofs.«419565_j82154134438199_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.HostLines

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The operations after the region, and the contents at its entry -/

/-- The nine stretches of host operations after the region, in program order. -/
abbrev tailOps : List (List (HloOp τ sig (Elt F))) :=
  [hostOps1, hostOps1_1, hostOps1_2, hostOps1_3, hostOps1_4, hostOps1_5, hostOps1_6, hostOps1_7, hostOps1_8]

/-- Core `c`'s buffer contents when the region is entered: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ## No operation allocates -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-! ## @main around the region -/

/-- @main is the two reshapes, the region, and the nine later stretches: it reduces to the region
    continued by those stretches, at the contents after the reshapes. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-! ## What the operations leave alone -/

/-- The argument arrays and the arrays the region stages. -/
def kept : List (Ref sig .tc) :=
  [main_arg0, main_arg1, main_arg2, main_arg3, main_arg4, main_arg5, main_v0, main_v1, main_v2_0, main_v2_1, main_v2_2]

/-- The argument arrays. -/
def argRefs : List (Ref sig .tc) := [main_arg0, main_arg1, main_arg2, main_arg3, main_arg4, main_arg5]

/-- An operation that writes none of the references of `L`. -/
abbrev Spares (L : List (Ref sig .tc)) (op : HloOp τ sig (Elt F)) : Prop :=
  ∀ b : Ref sig .tc, b ∈ L → Proc.devRef (τ := τ) .tc b ∉ op.writes

/-- Each operation writes its one result buffer, which is none of the listed references. -/
local macro "spares_each" : tactic => `(tactic|
  (intro b hb hw
   simp only [StableHlo.nullary_writes, StableHlo.unary_writes, StableHlo.binary_writes, StableHlo.ternary_writes,
     StableHlo.reshape_writes, Finset.mem_singleton] at hw
   have hbe := Proc.devRef_injective _ hw
   subst hbe
   revert hb
   decide))

theorem hostOps0_spares : (hostOps0 : List (HloOp τ sig (Elt F))).Forall (Spares argRefs) := by
  simp only [List.Forall]; repeat' constructor
  all_goals spares_each
theorem hostOps1_spares : (hostOps1 : List (HloOp τ sig (Elt F))).Forall (Spares kept) := by
  simp only [List.Forall]; repeat' constructor
  all_goals spares_each
theorem hostOps1_1_spares : (hostOps1_1 : List (HloOp τ sig (Elt F))).Forall (Spares kept) := by
  simp only [List.Forall]; repeat' constructor
  all_goals spares_each
theorem hostOps1_2_spares : (hostOps1_2 : List (HloOp τ sig (Elt F))).Forall (Spares kept) := by
  simp only [List.Forall]; repeat' constructor
  all_goals spares_each
theorem hostOps1_3_spares : (hostOps1_3 : List (HloOp τ sig (Elt F))).Forall (Spares kept) := by
  simp only [List.Forall]; repeat' constructor
  all_goals spares_each
theorem hostOps1_4_spares : (hostOps1_4 : List (HloOp τ sig (Elt F))).Forall (Spares kept) := by
  simp only [List.Forall]; repeat' constructor
  all_goals spares_each
theorem hostOps1_5_spares : (hostOps1_5 : List (HloOp τ sig (Elt F))).Forall (Spares kept) := by
  simp only [List.Forall]; repeat' constructor
  all_goals spares_each
theorem hostOps1_6_spares : (hostOps1_6 : List (HloOp τ sig (Elt F))).Forall (Spares kept) := by
  simp only [List.Forall]; repeat' constructor
  all_goals spares_each
theorem hostOps1_7_spares : (hostOps1_7 : List (HloOp τ sig (Elt F))).Forall (Spares kept) := by
  simp only [List.Forall]; repeat' constructor
  all_goals spares_each
theorem hostOps1_8_spares : (hostOps1_8 : List (HloOp τ sig (Elt F))).Forall (Spares kept) := by
  simp only [List.Forall]; repeat' constructor
  all_goals spares_each

/-- No operation after the region writes an argument array or an array the region stages. -/
theorem tail_spares : ∀ ops ∈ (tailOps : List (List (HloOp τ sig (Elt F)))), ∀ op ∈ ops, Spares kept op := by
  intro ops hops op hop
  simp only [List.mem_cons, List.mem_nil_iff, or_false] at hops
  rcases hops with rfl | rfl | rfl | rfl | rfl | rfl | rfl | rfl | rfl
  · exact (List.forall_iff_forall_mem.mp hostOps1_spares) op hop
  · exact (List.forall_iff_forall_mem.mp hostOps1_1_spares) op hop
  · exact (List.forall_iff_forall_mem.mp hostOps1_2_spares) op hop
  · exact (List.forall_iff_forall_mem.mp hostOps1_3_spares) op hop
  · exact (List.forall_iff_forall_mem.mp hostOps1_4_spares) op hop
  · exact (List.forall_iff_forall_mem.mp hostOps1_5_spares) op hop
  · exact (List.forall_iff_forall_mem.mp hostOps1_6_spares) op hop
  · exact (List.forall_iff_forall_mem.mp hostOps1_7_spares) op hop
  · exact (List.forall_iff_forall_mem.mp hostOps1_8_spares) op hop

/-- The operations after the region touch unscoped TensorCore buffers only: the region's arrays and the buffers
    that bypass it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-- Every array the region stages is one of the kept references. -/
theorem arrRef_mem_kept (w : Fin cfg0.W) : Pipeline.arrRef spec0 w ∈ kept := by
  fin_cases w <;> decide

/-- And they write no array of the region. -/
theorem sfx_keeps : ∀ ops ∈ (tailOps : List (List (HloOp τ sig (Elt F)))), ∀ op ∈ ops,
    ∀ w, Proc.devRef .tc (Pipeline.arrRef spec0 w) ∉ op.writes :=
  fun ops hops op hop w => tail_spares ops hops op hop (Pipeline.arrRef spec0 w) (arrRef_mem_kept w)

/-! ## The kept buffers' contents -/

/-- An argument array is, at the region's entry, what it was at launch: the two reshapes write elsewhere. -/
theorem V_arg (c : Dev nD) (b : Ref sig .tc) (hb : b ∈ argRefs) : V m c b = m ((c : Thread nD τ).loc b) := by
  have h := StableHlo.after_of_forall_not_mem (b := Proc.devRef (τ := τ) .tc b) (List.flatten [hostOps0 (F := F)]) (fun b => m (c, b))
    (fun op hop => by
      simp only [List.flatten_cons, List.flatten_nil, List.append_nil] at hop
      exact (List.forall_iff_forall_mem.mp hostOps0_spares) op hop b hb)
  exact h

/-- A kept buffer that is no array of the region holds, after the last operation, what it held at the region's
    entry. -/
theorem afterTail_kept (dats : (p : Fin 1) → (c : Dev nD) → Dat τ (Elt F) Unit ℕ (UR sig nD τ) ℕ (cfgs p) c)
    (c : Dev nD) (b : Ref sig .tc) (hb : b ∈ kept) (hne : ∀ w, Pipeline.arrRef spec0 w ≠ b) :
    Pipeline.afterTail₀ cfgs dats 0 (V0 m) tailOps c b = V m c b := by
  unfold Pipeline.afterTail₀
  have h := StableHlo.after_of_forall_not_mem (b := Proc.devRef (τ := τ) .tc b) (List.flatten (tailOps (F := F)))
    (Pipeline.withArrays (cfgs 0).spec c (V0 m c) fun w => (dats 0 c).arrAt w (cfgs 0).N)
    (fun op hop => by
      obtain ⟨ops, hops, hop'⟩ := List.mem_flatten.mp hop
      exact tail_spares ops hops op hop' b hb)
  rw [h]
  exact Pipeline.withArrays_of_ne _ c (V0 m c) _ b hne

/-! ## The frame claim's post from the run's -/

/-- The six argument equalities of a final state. -/
abbrev ArgsKept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

/-- For any proof data whose arrays are the region-entry contents, a final state with the region's arrays at what
    the data computes and every other buffer at the later operations' value has the six argument arrays as
    launched: the two the region stages are inputs, read back unchanged; the other four bypass the region and no
    operation writes them. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F))
    (h : Pipeline.FramePost cfgs dats 0 (Pipeline.afterTail₀ cfgs dats 0 (V0 m) tailOps) r) (c : Dev nD) : ArgsKept m r c :=
  ⟨((h c).1 0).trans (((dats 0 c).arrAt_in 0 rfl _).trans ((hA c 0).trans (V_arg m c main_arg0 (by decide)))),
   ((h c).1 1).trans (((dats 0 c).arrAt_in 1 rfl _).trans ((hA c 1).trans (V_arg m c main_arg1 (by decide)))),
   ((h c).2 main_arg2 (Pipeline.mem_restRefs_of main_arg2 (by decide) (by decide))).trans
     ((afterTail_kept m dats c main_arg2 (by decide) (by decide)).trans (V_arg m c main_arg2 (by decide))),
   ((h c).2 main_arg3 (Pipeline.mem_restRefs_of main_arg3 (by decide) (by decide))).trans
     ((afterTail_kept m dats c main_arg3 (by decide) (by decide)).trans (V_arg m c main_arg3 (by decide))),
   ((h c).2 main_arg4 (Pipeline.mem_restRefs_of main_arg4 (by decide) (by decide))).trans
     ((afterTail_kept m dats c main_arg4 (by decide) (by decide)).trans (V_arg m c main_arg4 (by decide))),
   ((h c).2 main_arg5 (Pipeline.mem_restRefs_of main_arg5 (by decide) (by decide))).trans
     ((afterTail_kept m dats c main_arg5 (by decide) (by decide)).trans (V_arg m c main_arg5 (by decide)))⟩

/-- The frame claim's post from such a run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD, ArgsKept m r c) :=
  (θ_run defs _ _).mono (fun r h c => args_kept m dats hA r h c) h

end Cert.Kernel.HostLines

end
-- ==== Proof.BodyRunKernel.lean ====
/-
  The run of the kernel program: the pallas_call's body at a grid point, the proof data of its pipeline,
  and the frame.

  At grid point t the body finds the point's 4000 rows of the features (window 0), the whole weight matrix
  (window 1) and the two flattened attention vectors (windows 2 and 3) in their staging buffers, and stores
  three values whole: the rows' products with the weight matrix (window 4), and the per-head sums of those
  products weighted by either attention vector (windows 5 and 6). Each output buffer is covered by its one
  store, so what it holds after the body is that store's value of the input blocks. The body keeps nothing
  between points and the pipeline writes every output block back at every point.
-/
import proofs.«419565_j82154134438199_3_alg».proof.Proof.HostLinesKernel

set_option maxRecDepth 16384

noncomputable section

namespace Cert.Kernel.BodyRun

open Cert.Kernel Cert.Kernel.Gen Cert.Kernel.HostLines
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, whether the pipeline fetched it there or left
    it from the point before (the block index has then not moved), for any proof data over the region-entry arrays
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store is of a whole buffer -/

abbrev rX : Rect S4000x128 := Rect.unit (s := S4000x128) ![0, 0] S4000x128.size inb_S4000x128_S4000x128_0_0
abbrev rW : Rect S128x64 := Rect.unit (s := S128x64) ![0, 0] S128x64.size inb_S128x64_S128x64_0_0
abbrev rA : Rect S1x64 := Rect.unit (s := S1x64) ![0, 0] S1x64.size inb_S1x64_S1x64_0_0
abbrev rH : Rect S4000x64 := Rect.unit (s := S4000x64) ![0, 0] S4000x64.size inb_S4000x64_S4000x64_0_0
abbrev rE : Rect S4000x4 := Rect.unit (s := S4000x4) ![0, 0] S4000x4.size inb_S4000x4_S4000x4_0_0

/-! ## What the body leaves in each output window's buffer -/

/-- The products' buffer after the body: its one store, of the feature block times the weights. -/
def out0_4 (x0 : Vec F S4000x128 .f32) (x1 : Vec F S128x64 .f32) : Vec F S4000x64 .f32 :=
  View.canon [⟨rH, k0_pay2 (View.ld x0 rX) (View.ld x1 rW)⟩]
/-- The left logits' buffer after the body: its one store, the four per-head sums side by side. -/
def out0_5 (x0 : Vec F S4000x128 .f32) (x1 : Vec F S128x64 .f32) (x2 : Vec F S1x64 .f32) : Vec F S4000x4 .f32 :=
  View.canon [⟨rE, k0_pay8 (View.ld x0 rX) (View.ld x1 rW) (View.ld x2 rA)⟩]
/-- The right logits' buffer after the body, likewise. -/
def out0_6 (x0 : Vec F S4000x128 .f32) (x1 : Vec F S128x64 .f32) (x3 : Vec F S1x64 .f32) : Vec F S4000x4 .f32 :=
  View.canon [⟨rE, k0_pay1 (k0_pay4 (View.ld x0 rX) (View.ld x1 rW) (View.ld x3 rA)) (k0_pay5 (View.ld x0 rX) (View.ld x1 rW) (View.ld x3 rA))
    (k0_pay6 (View.ld x0 rX) (View.ld x1 rW) (View.ld x3 rA)) (k0_pay7 (View.ld x0 rX) (View.ld x1 rW) (View.ld x3 rA))⟩]

/-- One whole-buffer store covers the buffer. -/
theorem coverH (p0 : Vec F S4000x64 .f32) (y : S4000x64.Idx) :
    ∃ pc ∈ ([⟨rH, p0⟩] : List (View.Piece (Elt F) S4000x64 .f32)), y ∈ pc.1.set :=
  View.cover_of_tiled [⟨rH, p0⟩] S4000x64.size (by rfl) y
theorem coverE (p0 : Vec F S4000x4 .f32) (y : S4000x4.Idx) :
    ∃ pc ∈ ([⟨rE, p0⟩] : List (View.Piece (Elt F) S4000x4 .f32)), y ∈ pc.1.set :=
  View.cover_of_tiled [⟨rE, p0⟩] S4000x4.size (by rfl) y

/-! ## The body's triple -/

set_option maxHeartbeats 4000000 in
/-- The body on whole staging memrefs, the inputs' at read contents and the outputs' at anything, runs to the
    continuation holding the inputs' as they were and each output's at its one store's value of the inputs'. -/
theorem sound_kernel (c : Dev nD) (E : Set ℕ) (i : grid0.Coords)
    (arg1 : Memref sig .tc .vmem S4000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S4000x64 .f32) (harg5 : arg5.IsWhole) (arg6 : Memref sig .tc .vmem S4000x4 .f32) (harg6 : arg6.IsWhole)
    (arg7 : Memref sig .tc .vmem S4000x4 .f32) (harg7 : arg7.IsWhole)
    (x0 : Vec F S4000x128 .f32) (x1 : Vec F S128x64 .f32) (x2 : Vec F S1x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x1 x2)
            ∗ owns (c : Thread nD τ) arg7 fullShare (out0_6 x0 x1 x3)) -∗ K ⟨⟩))
      ⊢ wp frame (wpE (defs₀ (F := F)) Variants.none c none) E (cc0__transform_kernel i arg1 harg1 arg2 harg2 arg3 harg3 arg4 harg4 arg5 harg5 arg6 harg6 arg7 harg7) K := by
  simp only [cc0__transform_kernel_eq_skeleton]; unfold cc0__transform_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverH _)
  isplitl [H5]
  · iexists _; isplitr
    swap; · iexact H5
    ipureintro
    exact View.read_writes_eq_canon _ _ _ (coverE _)
  iexists _; isplitr
  swap; · iexact H6
  ipureintro
  exact View.read_writes_eq_canon _ _ _ (coverE _)

/-! ## The pipeline's proof data -/

/-- The proof data of the pipeline on core `c`: the arrays as the region finds them; after the body at point `t`
    each input's buffer at its block and each output's at its store's value of the input blocks; the invariant
    the untouched scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t)
    | ⟨5, _⟩ => out0_5 (iblk m c 0 t) (iblk m c 1 t) (iblk m c 2 t)
    | ⟨6, _⟩ => out0_6 (iblk m c 0 t) (iblk m c 1 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) := by dsimp only [dats]
theorem after0_5 (c : Dev nD) (t : Fin cfg0.N) : (dats m 0 c).after 5 t = out0_5 (iblk m c 0 t) (iblk m c 1 t) (iblk m c 2 t) := by dsimp only [dats]
theorem after0_6 (c : Dev nD) (t : Fin cfg0.N) : (dats m 0 c).after 6 t = out0_6 (iblk m c 0 t) (iblk m c 1 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    each array of the pipeline at what the proof data computes and every other unscoped buffer at the later
    operations' value of those. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim of the program, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.BodyRun

end
-- ==== Proof.TakeRows.lean ====
/-
  The kernel program's row lookup `jnp.take(x, idx, axis=0)` (fill mode) as one function of the table and
  the index words: a negative word gets the number of rows added; a row whose word is then outside
  [0, 99999] is filled with the NaN pattern; the others are gathered. When every word lies in
  [0, 100000) no word is wrapped and no row is filled: the lookup is the plain gather of the rows the words name.
-/
import proofs.«419565_j82154134438199_3_alg».proof.Proof.Gen.KernelIdeal
import Idealize.ShloMosaic.PureOps.Reduce
import Idealize.ShloMosaic.Lib.ValueIdx

noncomputable section

namespace Cert.KernelIdeal.TakeRows

open Cert.KernelIdeal Cert.KernelIdeal.Gen Idealize.ShloMosaic

variable {F : FTy → Type} [FloatOps F]

/-- The index words as a column. -/
def column (idx : IVec S1600000 32) : IVec S1600000x1 32 :=
  broadcastInDim S1600000x1 ![0] bcast_S1600000_S1600000x1_0 idx

/-- A negative word gets the number of rows, 100000, added. -/
def wrapped (idx : IVec S1600000 32) : IVec S1600000 32 :=
  select (cmpi .slt idx (broadcastInDim S1600000 ![] bcast_S_S1600000 (constantI S_ 32 0#32)))
    (addi idx (broadcastInDim S1600000 ![] bcast_S_S1600000 (constantI S_ 32 100000#32))) idx

/-- Per edge: the wrapped word lies in [0, 99999]. -/
def inRows (i5 : IVec S1600000x1 32) : IVec S1600000 1 :=
  (fun x v => Host.reduce IntOp.andi x v reducesTo_S1600000x1_S1600000_d1 h_S_)
    (andi (cmpi .sge i5 (broadcastInDim S1600000x1 ![] bcast_S_S1600000x1 (constantI S_ 32 0#32)))
      (cmpi .sle i5 (broadcastInDim S1600000x1 ![0, 1] bcast_S1x1_S1600000x1_0_1
        (broadcastInDim S1x1 ![1] bcast_S1_S1x1_1 (constantI S1 32 99999#32)))))
    (constantI S_ 1 1#1)

/-- The lookup of rows of a 100000x4 table. -/
def take4 (x : FVec F S100000x4 .f32) (idx : IVec S1600000 32) : FVec F S1600000x4 .f32 :=
  select (broadcastInDim S1600000x4 ![0] bcast_S1600000_S1600000x4_0 (inRows (column (wrapped idx))))
    (Host.gather gather_S100000x4_S1600000x1_S1600000x4_1_0_n_n_0_1_14 x (column (wrapped idx)))
    (broadcastInDim S1600000x4 ![] bcast_S_S1600000x4 (constant S_ .f32 0x7FC00000#32))

/-- The lookup of rows of a 100000x64 table. -/
def take64 (x : FVec F S100000x64 .f32) (idx : IVec S1600000 32) : FVec F S1600000x64 .f32 :=
  select (broadcastInDim S1600000x64 ![0] bcast_S1600000_S1600000x64_0 (inRows (column (wrapped idx))))
    (Host.gather gather_S100000x64_S1600000x1_S1600000x64_1_0_n_n_0_1_164 x (column (wrapped idx)))
    (broadcastInDim S1600000x64 ![] bcast_S_S1600000x64 (constant S_ .f32 0x7FC00000#32))

/-! ## Words and folds -/

/-- A left fold by `and` from 1 over words that are all 1 is 1. -/
private theorem foldl_andi_ones {ι : Type} (f : ι → BitVec 1) :
    ∀ l : List ι, (∀ n ∈ l, f n = 1#1) → l.foldl (fun r n => IntOp.andi r (f n)) 1#1 = 1#1
  | [], _ => rfl
  | a :: l, h => by
    have ha : f a = 1#1 := h a (List.mem_cons.2 (Or.inl rfl))
    have h1 : IntOp.andi (1#1 : BitVec 1) (f a) = 1#1 := by rw [ha]; decide
    show l.foldl (fun r n => IntOp.andi r (f n)) (IntOp.andi 1#1 (f a)) = 1#1
    rw [h1]
    exact foldl_andi_ones f l fun n hn => h n (List.mem_cons.2 (Or.inr hn))

/-- A word in [0, 100000) passes both tests of the row mask: it is ≥ 0 and ≤ 99999. -/
private theorem word_inRows (w : BitVec 32) (h0 : 0 ≤ w.toInt) (h1 : w.toInt < 100000) :
    IntOp.andi (IntOp.cmpi .sge w 0#32) (IntOp.cmpi .sle w 99999#32) = 1#1 := by
  refine IntOp.andi_eq_one.2 ⟨IntOp.cmpi_sge.2 ?_, IntOp.cmpi_sle.2 ?_⟩
  · rw [show (0#32 : BitVec 32).toInt = 0 from by decide]; exact h0
  · rw [show (99999#32 : BitVec 32).toInt = 99999 from by decide]; omega

/-- A word that is not negative fails the test "< 0". -/
private theorem word_not_neg (w : BitVec 32) (h0 : 0 ≤ w.toInt) : IntOp.cmpi .slt w 0#32 = 0#1 := by
  apply ValueIdx.eq_zero_of_ne_one
  intro hlt
  have h := IntOp.cmpi_slt.1 hlt
  rw [show (0#32 : BitVec 32).toInt = 0 from by decide] at h
  omega

/-- A broadcast reads its operand somewhere: a mask that is 1 everywhere broadcasts to one that is 1 everywhere. -/
private theorem bcast_eq_one {s t : Shape} {dims : Fin s.rank → Fin t.rank} (hb : s.BroadcastsInDim t dims)
    (m : s.Idx → BitVec 1) (hm : ∀ e, m e = 1#1) (i : t.Idx) : broadcastInDim t dims hb m i = 1#1 := hm _

/-- The column of the index words holds only index words: a range that holds of every word holds of every row. -/
private theorem column_range (idx : IVec S1600000 32) (h : ∀ e, 0 ≤ (idx e).toInt ∧ (idx e).toInt < 100000)
    (i : S1600000x1.Idx) : 0 ≤ (column idx i).toInt ∧ (column idx i).toInt < 100000 := h _

/-- The row mask of a column of words all in [0, 100000) is 1 at every row: each row's and-reduction runs from 1
    over elements that are 1. -/
private theorem inRows_eq_one (i5 : IVec S1600000x1 32) (h : ∀ i, 0 ≤ (i5 i).toInt ∧ (i5 i).toInt < 100000)
    (e : S1600000.Idx) : inRows i5 e = 1#1 := by
  refine (Host.reduce_eq_foldl IntOp.andi _ _ _ _ e).trans ?_
  refine foldl_andi_ones _ _ fun i _ => ?_
  exact word_inRows (i5 i) (h i).1 (h i).2

/-- A word that is not negative is not wrapped. -/
theorem wrapped_of_nonneg (idx : IVec S1600000 32) (h : ∀ e, 0 ≤ (idx e).toInt) : wrapped idx = idx := by
  funext e
  show Scalar.select (IntOp.cmpi .slt (idx e) 0#32) _ (idx e) = idx e
  rw [word_not_neg (idx e) (h e)]
  exact ValueIdx.select_zero _ _

/-- With every word in [0, 100000) the lookup is the gather of the named rows. -/
theorem take4_eq_gather (x : FVec F S100000x4 .f32) (idx : IVec S1600000 32)
    (h : ∀ e, 0 ≤ (idx e).toInt ∧ (idx e).toInt < 100000) :
    take4 x idx = Host.gather gather_S100000x4_S1600000x1_S1600000x4_1_0_n_n_0_1_14 x (column idx) := by
  unfold take4
  rw [wrapped_of_nonneg idx fun e => (h e).1]
  funext i
  rw [ValueIdx.select_apply]
  -- the mask at this row is 1: the column's words are the index words
  rw [bcast_eq_one _ (inRows (column idx)) (inRows_eq_one (column idx) (column_range idx h)) i]
  exact ValueIdx.select_one _ _

theorem take64_eq_gather (x : FVec F S100000x64 .f32) (idx : IVec S1600000 32)
    (h : ∀ e, 0 ≤ (idx e).toInt ∧ (idx e).toInt < 100000) :
    take64 x idx = Host.gather gather_S100000x64_S1600000x1_S1600000x64_1_0_n_n_0_1_164 x (column idx) := by
  unfold take64
  rw [wrapped_of_nonneg idx fun e => (h e).1]
  funext i
  rw [ValueIdx.select_apply]
  rw [bcast_eq_one _ (inRows (column idx)) (inRows_eq_one (column idx) (column_range idx h)) i]
  exact ValueIdx.select_one _ _

end Cert.KernelIdeal.TakeRows

end
-- ==== Proof.EdgeStages.lean ====
/-
  The kernel program's host operations after the pallas_call, as functions of the three arrays the call
  leaves (the projected features h, the left and right attention logits el and er) and the two index arrays.

  Per edge e and head a: the score el[src e, a] + er[trg e, a], passed through the leaky ReLU of slope 0.2,
  shifted by the maximum over all edges and heads, exponentiated; the exponentials summed by target node;
  each edge's exponential divided by its target's sum plus 1e-16; the source's projected features scaled
  by that weight, head by head; and those messages summed by target node.
-/
import proofs.«419565_j82154134438199_3_alg».proof.Proof.TakeRows

noncomputable section

namespace Cert.KernelIdeal.Edge

open Cert.KernelIdeal Cert.KernelIdeal.Gen Cert.KernelIdeal.TakeRows Idealize.ShloMosaic

variable {F : FTy → Type} [FloatOps F]

/-- The leaky ReLU of slope 0.2, entry by entry. -/
def leaky (s : FVec F S1600000x4 .f32) : FVec F S1600000x4 .f32 :=
  select (cmpf .ogt s (broadcastInDim S1600000x4 ![] bcast_S_S1600000x4 (constant S_ .f32 0x00000000#32))) s
    (mulf (broadcastInDim S1600000x4 ![] bcast_S_S1600000x4 (constant S_ .f32 0x3E4CCCCD#32)) s)

/-- The exponentials of the scores less their maximum over every edge and head. -/
def shiftedExp (l : FVec F S1600000x4 .f32) : FVec F S1600000x4 .f32 :=
  Host.exp (subf l (broadcastInDim S1600000x4 ![] bcast_S_S1600000x4
    (Host.reduce FloatOps.maximumf l (constant S_ .f32 0xFF800000#32) reducesTo_S1600000x4_S_d0_1 h_S_)))

/-- Per-head values summed by target node, from zero. -/
def nodeSum4 (trg : IVec S1600000 32) (u : FVec F S1600000x4 .f32) : FVec F S100000x4 .f32 :=
  Host.scatterAdd scatter_S100000x4_S1600000x1_S1600000x4_1_0_0_1
    (broadcastInDim S100000x4 ![] bcast_S_S100000x4 (constant S_ .f32 0x00000000#32)) (column trg) u

/-- Feature rows summed by target node, from zero. -/
def nodeSum64 (trg : IVec S1600000 32) (u : FVec F S1600000x64 .f32) : FVec F S100000x64 .f32 :=
  Host.scatterAdd scatter_S100000x64_S1600000x1_S1600000x64_1_0_0_1
    (broadcastInDim S100000x64 ![] bcast_S_S100000x64 (constant S_ .f32 0x00000000#32)) (column trg) u

/-- An edge's exponential over its target's sum plus 1e-16. -/
def normalised (ex dn : FVec F S1600000x4 .f32) : FVec F S1600000x4 .f32 :=
  Host.divf ex (addf dn (broadcastInDim S1600000x4 ![] bcast_S_S1600000x4 (constant S_ .f32 0x24E69595#32)))

/-- A per-head weight repeated over the head's 16 features. -/
def perFeature (w : FVec F S1600000x4 .f32) : FVec F S1600000x64 .f32 :=
  shapeCast S1600000x64 (broadcastInDim S1600000x4x16 ![0, 1] bcast_S1600000x4_S1600000x4x16_0_1 w) shapeCasts_S1600000x4x16_S1600000x64

/-- The exponentials of the shifted leaky scores of the edges. -/
def edgeExp (el er : FVec F S100000x4 .f32) (src trg : IVec S1600000 32) : FVec F S1600000x4 .f32 :=
  shiftedExp (leaky (addf (take4 el src) (take4 er trg)))

/-- The attention weight of each edge and head. -/
def attention (el er : FVec F S100000x4 .f32) (src trg : IVec S1600000 32) : FVec F S1600000x4 .f32 :=
  normalised (edgeExp el er src trg) (take4 (nodeSum4 trg (edgeExp el er src trg)) trg)

/-- The result: each node's incoming messages, the sources' projected features weighted by attention. -/
def aggregate (h : FVec F S100000x64 .f32) (el er : FVec F S100000x4 .f32) (src trg : IVec S1600000 32) : FVec F S100000x64 .f32 :=
  nodeSum64 trg (mulf (take64 h src) (perFeature (attention el er src trg)))

end Cert.KernelIdeal.Edge

end
-- ==== Proof.TailValue.lean ====
/-
  What the kernel program's result buffer holds after the run: the aggregation (EdgeStages) of the three
  arrays the pallas_call leaves and of the two index arrays as launched. The 120 host operations after the
  call are read back as the one composed function of the buffers they start from.
-/
import proofs.«419565_j82154134438199_3_alg».proof.Proof.BodyRun
import proofs.«419565_j82154134438199_3_alg».proof.Proof.EdgeStages
import Idealize.ShloMosaic.Lib.StableHlo.Run

set_option maxRecDepth 16384

noncomputable section

namespace Cert.KernelIdeal.TailValue

open Cert.KernelIdeal Cert.KernelIdeal.Gen Cert.KernelIdeal.HostLines Cert.KernelIdeal.BodyRun
open Cert.KernelIdeal.TakeRows Cert.KernelIdeal.Edge
open Idealize.ShloMosaic Idealize.ShloMosaic.TcCoe Idealize.SL.Sem Idealize.ShloMosaic.StableHlo

variable {F : FTy → Type} [FloatOps F]

/-! ## Contents at a typed reference are the contents

The operations of an outlined function read and write their buffers through the buffer's declared type; at a
literal reference that type is the buffer's own, and the transport is the identity. -/

theorem ofBuf_toBuf {sig' : RefSig} {T : BufTy} {Val : EltTy → Type} (x : StableHlo.TRef sig' T) (v : T.Contents Val) :
    x.ofBuf (x.toBuf v) = v := by
  obtain ⟨r, rfl, _, _⟩ := x
  rfl

theorem ofBuf_arg4 (v : IVec S1600000 32) : (StableHlo.TRef.of main_arg4 : StableHlo.TRef sig ⟨S1600000, .i32⟩).ofBuf (Val := Elt F) v = v := rfl
theorem ofBuf_arg5 (v : IVec S1600000 32) : (StableHlo.TRef.of main_arg5 : StableHlo.TRef sig ⟨S1600000, .i32⟩).ofBuf (Val := Elt F) v = v := rfl
theorem ofBuf_v2_0 (v : FVec F S100000x64 .f32) : (StableHlo.TRef.of main_v2_0 : StableHlo.TRef sig ⟨S100000x64, .f32⟩).ofBuf (Val := Elt F) v = v := rfl
theorem ofBuf_v2_1 (v : FVec F S100000x4 .f32) : (StableHlo.TRef.of main_v2_1 : StableHlo.TRef sig ⟨S100000x4, .f32⟩).ofBuf (Val := Elt F) v = v := rfl
theorem ofBuf_v2_2 (v : FVec F S100000x4 .f32) : (StableHlo.TRef.of main_v2_2 : StableHlo.TRef sig ⟨S100000x4, .f32⟩).ofBuf (Val := Elt F) v = v := rfl
theorem ofBuf_v17 (v : FVec F S100000x4 .f32) : (StableHlo.TRef.of main_v17 : StableHlo.TRef sig ⟨S100000x4, .f32⟩).ofBuf (Val := Elt F) v = v := rfl
theorem ofBuf_v5 (v : FVec F S1600000x4 .f32) : (StableHlo.TRef.of main_v5 : StableHlo.TRef sig ⟨S1600000x4, .f32⟩).ofBuf (Val := Elt F) v = v := rfl
theorem ofBuf_v9 (v : FVec F S1600000x4 .f32) : (StableHlo.TRef.of main_v9 : StableHlo.TRef sig ⟨S1600000x4, .f32⟩).ofBuf (Val := Elt F) v = v := rfl
theorem ofBuf_v7 (v : IVec S1600000x4 1) : (StableHlo.TRef.of main_v7 : StableHlo.TRef sig ⟨S1600000x4, .i1⟩).ofBuf (Val := Elt F) v = v := rfl
theorem toBuf_v3 (v : FVec F S1600000x4 .f32) : (StableHlo.TRef.of main_v3 : StableHlo.TRef sig ⟨S1600000x4, .f32⟩).toBuf (Val := Elt F) v = v := rfl
theorem toBuf_v4 (v : FVec F S1600000x4 .f32) : (StableHlo.TRef.of main_v4 : StableHlo.TRef sig ⟨S1600000x4, .f32⟩).toBuf (Val := Elt F) v = v := rfl
theorem toBuf_v10 (v : FVec F S1600000x4 .f32) : (StableHlo.TRef.of main_v10 : StableHlo.TRef sig ⟨S1600000x4, .f32⟩).toBuf (Val := Elt F) v = v := rfl
theorem toBuf_v18 (v : FVec F S1600000x4 .f32) : (StableHlo.TRef.of main_v18 : StableHlo.TRef sig ⟨S1600000x4, .f32⟩).toBuf (Val := Elt F) v = v := rfl
theorem toBuf_v22 (v : FVec F S1600000x64 .f32) : (StableHlo.TRef.of main_v22 : StableHlo.TRef sig ⟨S1600000x64, .f32⟩).toBuf (Val := Elt F) v = v := rfl

/-! ## The operations after the call, group by group -/

local macro "read_back" : tactic => `(tactic|
  (after_results_simp
   try simp only [ofBuf_toBuf, ofBuf_arg4, ofBuf_arg5, ofBuf_v2_0, ofBuf_v2_1, ofBuf_v2_2, ofBuf_v17, ofBuf_v5, ofBuf_v9, ofBuf_v7, toBuf_v3, toBuf_v4, toBuf_v10, toBuf_v18, toBuf_v22]
   rfl))

set_option maxHeartbeats 4000000 in
/-- The first four stretches leave the leaky scores: the two logit tables looked up by source and by target, added,
    passed through the leaky ReLU. -/
theorem scores_after (W : Valuation τ sig (Elt F)) :
    StableHlo.after (hostOps1 ++ hostOps1_1 ++ hostOps1_2 ++ hostOps1_3 : List (HloOp τ sig (Elt F))) W (Proc.devRef .tc main_v10)
      = leaky (addf (take4 (W (Proc.devRef .tc main_v2_1)) (W (Proc.devRef .tc main_arg4)))
          (take4 (W (Proc.devRef .tc main_v2_2)) (W (Proc.devRef .tc main_arg5)))) := by
  simp only [hostOps1, hostOps1_1, hostOps1_2, hostOps1_3, List.cons_append, List.nil_append]
  read_back

set_option maxHeartbeats 4000000 in
/-- The fifth stretch leaves the shifted exponentials … -/
theorem exp_after (X : Valuation τ sig (Elt F)) :
    StableHlo.after (hostOps1_4 : List (HloOp τ sig (Elt F))) X (Proc.devRef .tc main_v14) = shiftedExp (X (Proc.devRef .tc main_v10)) := by
  simp only [hostOps1_4]
  read_back

set_option maxHeartbeats 4000000 in
/-- … and their sums by target node. -/
theorem sums_after (X : Valuation τ sig (Elt F)) :
    StableHlo.after (hostOps1_4 : List (HloOp τ sig (Elt F))) X (Proc.devRef .tc main_v17)
      = nodeSum4 (X (Proc.devRef .tc main_arg5)) (shiftedExp (X (Proc.devRef .tc main_v10))) := by
  simp only [hostOps1_4]
  read_back

set_option maxHeartbeats 4000000 in
/-- The next two stretches leave the attention weights: each exponential over its target's sum plus 1e-16. -/
theorem weights_after (X : Valuation τ sig (Elt F)) :
    StableHlo.after (hostOps1_5 ++ hostOps1_6 : List (HloOp τ sig (Elt F))) X (Proc.devRef .tc main_v21)
      = normalised (X (Proc.devRef .tc main_v14)) (take4 (X (Proc.devRef .tc main_v17)) (X (Proc.devRef .tc main_arg5))) := by
  simp only [hostOps1_5, hostOps1_6, List.cons_append, List.nil_append]
  read_back

set_option maxHeartbeats 4000000 in
/-- The last two stretches leave the messages summed by target node. -/
theorem messages_after (X : Valuation τ sig (Elt F)) :
    StableHlo.after (hostOps1_7 ++ hostOps1_8 : List (HloOp τ sig (Elt F))) X (Proc.devRef .tc main_v28)
      = nodeSum64 (X (Proc.devRef .tc main_arg5))
          (mulf (take64 (X (Proc.devRef .tc main_v2_0)) (X (Proc.devRef .tc main_arg4))) (perFeature (X (Proc.devRef .tc main_v21)))) := by
  simp only [hostOps1_7, hostOps1_8, List.cons_append, List.nil_append]
  read_back

/-! ## Kept buffers pass through every group -/

theorem spares_append {L1 L2 : List (HloOp τ sig (Elt F))} (h1 : L1.Forall (Spares kept)) (h2 : L2.Forall (Spares kept)) :
    (L1 ++ L2).Forall (Spares kept) :=
  List.forall_iff_forall_mem.mpr fun op hop =>
    (List.mem_append.mp hop).elim (List.forall_iff_forall_mem.mp h1 op) (List.forall_iff_forall_mem.mp h2 op)

/-- A kept buffer holds after a line of operations that spare it what it held before. -/
theorem kept_through (L : List (HloOp τ sig (Elt F))) (hL : L.Forall (Spares kept)) (X : Valuation τ sig (Elt F))
    (b : Ref sig .tc) (hb : b ∈ kept) : StableHlo.after L X (Proc.devRef .tc b) = X (Proc.devRef .tc b) :=
  StableHlo.after_of_forall_not_mem L X fun op hop => (List.forall_iff_forall_mem.mp hL) op hop b hb

theorem groupA_spares : (hostOps1 ++ hostOps1_1 ++ hostOps1_2 ++ hostOps1_3 : List (HloOp τ sig (Elt F))).Forall (Spares kept) :=
  spares_append (spares_append (spares_append hostOps1_spares hostOps1_1_spares) hostOps1_2_spares) hostOps1_3_spares
theorem groupC_spares : (hostOps1_5 ++ hostOps1_6 : List (HloOp τ sig (Elt F))).Forall (Spares kept) :=
  spares_append hostOps1_5_spares hostOps1_6_spares

/-! ## The whole tail -/

/-- From any buffer contents `W`, the operations after the call leave in the result buffer the aggregation of
    what `W` holds at the call's three result arrays and at the two index arguments. -/
theorem tail_after (W : Valuation τ sig (Elt F)) :
    StableHlo.after (List.flatten (tailOps (F := F))) W (Proc.devRef .tc main_v28)
      = aggregate (W (Proc.devRef .tc main_v2_0)) (W (Proc.devRef .tc main_v2_1)) (W (Proc.devRef .tc main_v2_2))
          (W (Proc.devRef .tc main_arg4)) (W (Proc.devRef .tc main_arg5)) := by
  have hsplit : List.flatten (tailOps (F := F))
      = (hostOps1 ++ hostOps1_1 ++ hostOps1_2 ++ hostOps1_3) ++ (hostOps1_4 ++ ((hostOps1_5 ++ hostOps1_6) ++ (hostOps1_7 ++ hostOps1_8))) := by
    simp only [tailOps, List.flatten_cons, List.flatten_nil, List.append_nil, List.append_assoc]
  rw [hsplit, StableHlo.after_append, StableHlo.after_append, StableHlo.after_append]
  generalize hX1 : StableHlo.after (hostOps1 ++ hostOps1_1 ++ hostOps1_2 ++ hostOps1_3) W = X1
  generalize hX2 : StableHlo.after hostOps1_4 X1 = X2
  generalize hX3 : StableHlo.after (hostOps1_5 ++ hostOps1_6) X2 = X3
  have k1 : ∀ b, b ∈ kept → X1 (Proc.devRef .tc b) = W (Proc.devRef .tc b) := fun b hb => hX1 ▸ kept_through _ groupA_spares W b hb
  have k2 : ∀ b, b ∈ kept → X2 (Proc.devRef .tc b) = X1 (Proc.devRef .tc b) := fun b hb => hX2 ▸ kept_through _ hostOps1_4_spares X1 b hb
  have k3 : ∀ b, b ∈ kept → X3 (Proc.devRef .tc b) = X2 (Proc.devRef .tc b) := fun b hb => hX3 ▸ kept_through _ groupC_spares X2 b hb
  have kW : ∀ b, b ∈ kept → X3 (Proc.devRef .tc b) = W (Proc.devRef .tc b) := fun b hb => ((k3 b hb).trans (k2 b hb)).trans (k1 b hb)
  have e10 : X1 (Proc.devRef .tc main_v10) = _ := hX1 ▸ scores_after W
  have e14 : X2 (Proc.devRef .tc main_v14) = _ := hX2 ▸ exp_after X1
  have e17 : X2 (Proc.devRef .tc main_v17) = _ := hX2 ▸ sums_after X1
  have e21 : X3 (Proc.devRef .tc main_v21) = _ := hX3 ▸ weights_after X2
  rw [messages_after X3, e21, e14, e17, e10, kW main_arg5 (by decide), kW main_arg4 (by decide), kW main_v2_0 (by decide),
    (k2 main_arg5 (by decide)).trans (k1 main_arg5 (by decide)), k1 main_arg5 (by decide)]
  rfl
variable (m : (ℓ : Loc nD τ sig) → Buf (Elt F) ℓ)

/-- The result buffer after the run, from the proof data's arrays and the launch contents. -/
theorem result (c : Dev nD) :
    Pipeline.afterTail₀ cfgs (dats m) 0 (V0 m) tailOps c main_v28
      = aggregate ((dats m 0 c).arrAt 4 cfg0.N) ((dats m 0 c).arrAt 5 cfg0.N) ((dats m 0 c).arrAt 6 cfg0.N)
          (m ((c : Thread nD τ).loc main_arg4)) (m ((c : Thread nD τ).loc main_arg5)) := by
  unfold Pipeline.afterTail₀
  rw [tail_after]
  have e4 := Pipeline.withArrays_arr (τ := τ) spec0 launch0.win.arr_inj c (V0 m c) (fun w => (dats m 0 c).arrAt w (cfgs 0).N) 4
  have e5 := Pipeline.withArrays_arr (τ := τ) spec0 launch0.win.arr_inj c (V0 m c) (fun w => (dats m 0 c).arrAt w (cfgs 0).N) 5
  have e6 := Pipeline.withArrays_arr (τ := τ) spec0 launch0.win.arr_inj c (V0 m c) (fun w => (dats m 0 c).arrAt w (cfgs 0).N) 6
  have a4 := (Pipeline.withArrays_of_ne (τ := τ) spec0 c (V0 m c) (fun w => (dats m 0 c).arrAt w (cfgs 0).N) main_arg4 (by decide)).trans
    (V_arg m c main_arg4 (by decide))
  have a5 := (Pipeline.withArrays_of_ne (τ := τ) spec0 c (V0 m c) (fun w => (dats m 0 c).arrAt w (cfgs 0).N) main_arg5 (by decide)).trans
    (V_arg m c main_arg5 (by decide))
  exact congr (congr (congr (congr (congrArg aggregate e4) e5) e6) a4) a5

end Cert.KernelIdeal.TailValue

end
-- ==== Proof.PayloadAt.lean ====
/-
  The kernel body's three stored values read at one index, over the extended reals.

  One grid point works on a block of 4000 rows. With x : 4000 x 128 and w : 128 x 64 the body stores
    hmat = x · w                                    (4000 x 64),
    el[p, a] = ∑_{j < 16} hmat[p, 16 a + j] * al[0, 16 a + j]   (4000 x 4),
    er[p, a] = ∑_{j < 16} hmat[p, 16 a + j] * ar[0, 16 a + j]   (4000 x 4).
  Over the extended reals a change of float format is the identity, a matrix product accumulated into zeros is the
  plain sum over the contracted coordinate, and a sum along an axis started from the zero word is the plain sum. So
  each stored value, read at (p, q) or (p, a), is the finite sum above: `pay2_at`, `pay8_at`, `pay1_at`.
-/
import proofs.«419565_j82154134438199_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayloadAt

open Cert.KernelIdeal Cert.KernelIdeal.Gen Idealize.ShloMosaic Idealize.ShloMosaic.ValueIdx

/-- Column 16a + j of the 64 feature columns: feature j of head a. -/
def col (a : Fin 4) (j : Fin 16) : Fin 64 := ⟨16 * a.val + j.val, by omega⟩

/-! ## The matrix product at an index

The product contracts axis 1 of the left operand with axis 0 of the right one. At the output index i and the
contraction index q the left operand is read at (i 0, q) and the right one at (q, i 1): one equation per operand axis. -/

/-- The left operand's row is the output's row. -/
theorem lhs_axis0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
/-- The left operand's column is the contracted coordinate. -/
theorem lhs_axis1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
/-- The right operand's row is the contracted coordinate. -/
theorem rhs_axis0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
/-- The right operand's column is the output's column. -/
theorem rhs_axis1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- hmat[p, q] = ∑_k x[p, k] * w[k, q]: the two narrowings to bf16 are the identity on extended reals, the accumulator
    is zero, and the contraction index is its one coordinate k < 128. -/
theorem pay2_at (x : Vec Ideal S4000x128 .f32) (w : Vec Ideal S128x64 .f32) (p : Fin 4000) (q : Fin 64) :
    k0_pay2 (F := Ideal) x w (ix2 p q) = ∑ k : Fin 128, x (ix2 p k) * w (ix2 k q) := by
  unfold k0_pay2
  simp only [matmul]
  rw [Ideal.matmul_constant_zero_apply, ← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 p q) ((contrEquiv1 dot_S4000x128_S128x64_S4000x64_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S4000x128_S128x64_S4000x64_1_0_0_1_n_n.rhsIdx (ix2 p q) ((contrEquiv1 dot_S4000x128_S128x64_S4000x64_1_0_0_1_n_n 128 rfl rfl).symm k) = ix2 k q := funext fun a => Fin.ext (by
    match a with
    | ⟨0, _⟩ => exact (rhs_axis0 _ _).trans hk
    | ⟨1, _⟩ => exact rhs_axis1 _ _)
  rw [truncf_apply, truncf_apply, el, er]

/-! ## The layout steps of one head

A head's score column is made in three steps from a 4000 x 64 block y: cut the sixteen columns from o, sum each row,
and keep the 4000 sums as a 4000 x 1 column. Four such columns side by side make the 4000 x 4 result. -/

/-- A 4000-vector kept as a 4000 x 1 column reads, at row p, its entry p: both have row-major position p. -/
theorem column_at {α : Type} (v : S4000.Idx → α) (p : Fin 4000) (u : Fin 1) :
    shapeCast S4000x1 v shapeCasts_S4000_S4000x1 (ix2 p u) = v (ix1 p) :=
  shapeCast_apply v shapeCasts_S4000_S4000x1 (ix2 p u) (ix1 p) (by
    have hu : u.val = 0 := by omega
    rw [Shape.rowMajor_val_one, Shape.rowMajor_val_two]
    show p.val = p.val * 1 + u.val
    omega)

/-- The sum along the rows of a 4000 x 16 block, started from the zero word: at row p the sum of its sixteen
    entries z[p, j]. -/
theorem rowSum_at (z : FVec Ideal S4000x16 .f32) (hacc : (0x00000000#32 : BitVec 32) = 0x00000000#32) (p : Fin 4000) :
    multiReduction (F := Ideal) .add [1] S4000 z 0x00000000#32 reduces_S4000x16_S4000 (.inl rfl) hacc (ix1 p)
      = ∑ j : Fin 16, z (ix2 p j) := by
  refine (Ideal.multiReduction_add_single z 0x00000000#32 reduces_S4000x16_S4000 (.inl rfl) hacc (ix1 p)).trans ?_
  refine Finset.sum_congr rfl fun j _ => ?_
  exact congrArg z (funext fun a => Fin.ext (by match a with | ⟨0, _⟩ => rfl | ⟨1, _⟩ => rfl))

/-- One head's column: at row p it is ∑_{j < 16} y[p, o + j]. -/
theorem headCol_at (y : FVec Ideal S4000x64 .f32) (o : Nat) (h : S4000x64.Slices ![0, o] S4000x16)
    (hacc : (0x00000000#32 : BitVec 32) = 0x00000000#32) (p : Fin 4000) (u : Fin 1) :
    shapeCast S4000x1 (multiReduction (F := Ideal) .add [1] S4000 (extractStridedSlice S4000x16 ![0, o] y h) 0x00000000#32
        reduces_S4000x16_S4000 (.inl rfl) hacc) shapeCasts_S4000_S4000x1 (ix2 p u)
      = ∑ j : Fin 16, y (ix2 p ⟨o + j.val, Nat.lt_of_lt_of_le (Nat.add_lt_add_left j.isLt o) (h.2 1)⟩) := by
  refine (column_at _ p u).trans ?_
  refine (rowSum_at _ hacc p).trans ?_
  refine Finset.sum_congr rfl fun j _ => ?_
  exact slice2_axis1_eq o y h p j

/-- Four 4000 x 1 columns set side by side read, at (p, a), column a at row p: the columns before column a have
    total width a, so the coordinate inside column a is 0. -/
theorem concat4_at {α : Type} (c0 c1 c2 c3 : S4000x1.Idx → α) (p : Fin 4000) (a : Fin 4) :
    concatenate S4000x4 1 [⟨S4000x1, c0⟩, ⟨S4000x1, c1⟩, ⟨S4000x1, c2⟩, ⟨S4000x1, c3⟩]
        concatenates_S4000x1_S4000x1_S4000x1_S4000x1_S4000x4_d1 (ix2 p a)
      = (match a with | ⟨0, _⟩ => c0 | ⟨1, _⟩ => c1 | ⟨2, _⟩ => c2 | ⟨3, _⟩ => c3) (ix2 p (0 : Fin 1)) := by
  -- off the joined axis the piece's index and the result's index have the same coordinate: the row p
  have off : ∀ b : Fin S4000x1.rank, ∀ e : Fin 4, b.cast (rfl : S4000x1.rank = S4000x4.rank) ≠ (1 : Fin S4000x4.rank) →
      ((ix2 p (0 : Fin 1) : S4000x1.Idx) b).val = ((ix2 p e : S4000x4.Idx) (b.cast (rfl : S4000x1.rank = S4000x4.rank))).val :=
    fun b e => match b with
      | ⟨0, _⟩ => fun _ => rfl
      | ⟨1, _⟩ => fun hb => absurd (Fin.ext rfl) hb
  match a with
  | ⟨0, _⟩ =>
    exact concatenate_apply_piece (1 : Fin S4000x4.rank) _ _ _ 0 (by show (0 : ℕ) < 4; omega) S4000x1 c0 rfl rfl 0 rfl (ix2 p (0 : Fin 1))
      (fun b hb => off b _ hb) rfl
  | ⟨1, _⟩ =>
    exact concatenate_apply_piece (1 : Fin S4000x4.rank) _ _ _ 1 (by show (1 : ℕ) < 4; omega) S4000x1 c1 rfl rfl 1 rfl (ix2 p (0 : Fin 1))
      (fun b hb => off b _ hb) rfl
  | ⟨2, _⟩ =>
    exact concatenate_apply_piece (1 : Fin S4000x4.rank) _ _ _ 2 (by show (2 : ℕ) < 4; omega) S4000x1 c2 rfl rfl 2 rfl (ix2 p (0 : Fin 1))
      (fun b hb => off b _ hb) rfl
  | ⟨3, _⟩ =>
    exact concatenate_apply_piece (1 : Fin S4000x4.rank) _ _ _ 3 (by show (3 : ℕ) < 4; omega) S4000x1 c3 rfl rfl 3 rfl (ix2 p (0 : Fin 1))
      (fun b hb => off b _ hb) rfl

/-! ## The scaled product and one head of it -/

/-- The product block scaled column by column by a 1 x 64 row r: at (p, c) it is hmat[p, c] * r[0, c]. -/
theorem scaled_at (x : Vec Ideal S4000x128 .f32) (w : Vec Ideal S128x64 .f32) (r : Vec Ideal S1x64 .f32) (p : Fin 4000) (c : Fin 64) :
    mulf (k0_pay2 (F := Ideal) x w) (broadcastTo S4000x64 (shapeCast S1x64 r shapeCasts_S1x64_S1x64) broadcasts_S1x64_S4000x64) (ix2 p c)
      = (∑ k : Fin 128, x (ix2 p k) * w (ix2 k c)) * r (ix2 (0 : Fin 1) c) := by
  rw [mulf_apply, pay2_at, shapeCast_self]
  exact congrArg (_ * ·) (broadcastTo_1b_ab_apply r broadcasts_S1x64_S4000x64 p c)

/-- Head a of the scaled product, cut at o = 16 a: at row p it is ∑_{j < 16} hmat[p, 16 a + j] * r[0, 16 a + j]. -/
theorem head_at (x : Vec Ideal S4000x128 .f32) (w : Vec Ideal S128x64 .f32) (r : Vec Ideal S1x64 .f32) (o : Nat) (a : Fin 4)
    (ho : o = 16 * a.val) (h : S4000x64.Slices ![0, o] S4000x16) (hacc : (0x00000000#32 : BitVec 32) = 0x00000000#32)
    (p : Fin 4000) (u : Fin 1) :
    shapeCast S4000x1 (multiReduction (F := Ideal) .add [1] S4000 (extractStridedSlice S4000x16 ![0, o]
        (mulf (k0_pay2 (F := Ideal) x w) (broadcastTo S4000x64 (shapeCast S1x64 r shapeCasts_S1x64_S1x64) broadcasts_S1x64_S4000x64)) h)
        0x00000000#32 reduces_S4000x16_S4000 (.inl rfl) hacc) shapeCasts_S4000_S4000x1 (ix2 p u)
      = ∑ j : Fin 16, (∑ k : Fin 128, x (ix2 p k) * w (ix2 k (col a j))) * r (ix2 (0 : Fin 1) (col a j)) := by
  refine (headCol_at _ o h hacc p u).trans ?_
  refine Finset.sum_congr rfl fun j _ => ?_
  refine (scaled_at x w r p _).trans ?_
  rw [show (⟨o + j.val, Nat.lt_of_lt_of_le (Nat.add_lt_add_left j.isLt o) (h.2 1)⟩ : Fin 64) = col a j from
    Fin.ext (by show o + j.val = 16 * a.val + j.val; omega)]

/-! ## The two score blocks -/

/-- el[p, a] = ∑_{j < 16} hmat[p, 16 a + j] * al[0, 16 a + j]. -/
theorem pay8_at (x : Vec Ideal S4000x128 .f32) (w : Vec Ideal S128x64 .f32) (al : Vec Ideal S1x64 .f32) (p : Fin 4000) (a : Fin 4) :
    k0_pay8 (F := Ideal) x w al (ix2 p a)
      = ∑ j : Fin 16, (∑ k : Fin 128, x (ix2 p k) * w (ix2 k (col a j))) * al (ix2 (0 : Fin 1) (col a j)) := by
  unfold k0_pay8
  refine (concat4_at _ _ _ _ p a).trans ?_
  match a with
  | ⟨0, _⟩ => exact head_at x w al 0 _ rfl slices_S4000x64_o0_0_S4000x16 rfl p 0
  | ⟨1, _⟩ => exact head_at x w al 16 _ rfl slices_S4000x64_o0_16_S4000x16 rfl p 0
  | ⟨2, _⟩ => exact head_at x w al 32 _ rfl slices_S4000x64_o0_32_S4000x16 rfl p 0
  | ⟨3, _⟩ => exact head_at x w al 48 _ rfl slices_S4000x64_o0_48_S4000x16 rfl p 0

/-- Head 0 of er, as a column. -/
theorem pay4_at (x : Vec Ideal S4000x128 .f32) (w : Vec Ideal S128x64 .f32) (ar : Vec Ideal S1x64 .f32) (p : Fin 4000) (u : Fin 1) :
    k0_pay4 (F := Ideal) x w ar (ix2 p u)
      = ∑ j : Fin 16, (∑ k : Fin 128, x (ix2 p k) * w (ix2 k (col 0 j))) * ar (ix2 (0 : Fin 1) (col 0 j)) := by
  unfold k0_pay4 k0_pay3
  exact head_at x w ar 0 0 rfl slices_S4000x64_o0_0_S4000x16 rfl p u
/-- Head 1 of er, as a column. -/
theorem pay5_at (x : Vec Ideal S4000x128 .f32) (w : Vec Ideal S128x64 .f32) (ar : Vec Ideal S1x64 .f32) (p : Fin 4000) (u : Fin 1) :
    k0_pay5 (F := Ideal) x w ar (ix2 p u)
      = ∑ j : Fin 16, (∑ k : Fin 128, x (ix2 p k) * w (ix2 k (col 1 j))) * ar (ix2 (0 : Fin 1) (col 1 j)) := by
  unfold k0_pay5 k0_pay3
  exact head_at x w ar 16 1 rfl slices_S4000x64_o0_16_S4000x16 rfl p u
/-- Head 2 of er, as a column. -/
theorem pay6_at (x : Vec Ideal S4000x128 .f32) (w : Vec Ideal S128x64 .f32) (ar : Vec Ideal S1x64 .f32) (p : Fin 4000) (u : Fin 1) :
    k0_pay6 (F := Ideal) x w ar (ix2 p u)
      = ∑ j : Fin 16, (∑ k : Fin 128, x (ix2 p k) * w (ix2 k (col 2 j))) * ar (ix2 (0 : Fin 1) (col 2 j)) := by
  unfold k0_pay6 k0_pay3
  exact head_at x w ar 32 2 rfl slices_S4000x64_o0_32_S4000x16 rfl p u
/-- Head 3 of er, as a column. -/
theorem pay7_at (x : Vec Ideal S4000x128 .f32) (w : Vec Ideal S128x64 .f32) (ar : Vec Ideal S1x64 .f32) (p : Fin 4000) (u : Fin 1) :
    k0_pay7 (F := Ideal) x w ar (ix2 p u)
      = ∑ j : Fin 16, (∑ k : Fin 128, x (ix2 p k) * w (ix2 k (col 3 j))) * ar (ix2 (0 : Fin 1) (col 3 j)) := by
  unfold k0_pay7 k0_pay3
  exact head_at x w ar 48 3 rfl slices_S4000x64_o0_48_S4000x16 rfl p u

/-- er[p, a] = ∑_{j < 16} hmat[p, 16 a + j] * ar[0, 16 a + j]: the four head columns side by side. -/
theorem pay1_at (x : Vec Ideal S4000x128 .f32) (w : Vec Ideal S128x64 .f32) (ar : Vec Ideal S1x64 .f32) (p : Fin 4000) (a : Fin 4) :
    k0_pay1 (F := Ideal) (k0_pay4 x w ar) (k0_pay5 x w ar) (k0_pay6 x w ar) (k0_pay7 x w ar) (ix2 p a)
      = ∑ j : Fin 16, (∑ k : Fin 128, x (ix2 p k) * w (ix2 k (col a j))) * ar (ix2 (0 : Fin 1) (col a j)) := by
  unfold k0_pay1
  refine (concat4_at _ _ _ _ p a).trans ?_
  match a with
  | ⟨0, _⟩ => exact pay4_at x w ar p 0
  | ⟨1, _⟩ => exact pay5_at x w ar p 0
  | ⟨2, _⟩ => exact pay6_at x w ar p 0
  | ⟨3, _⟩ => exact pay7_at x w ar p 0

end Cert.KernelIdeal.PayloadAt

end
-- ==== Proof.Spec.lean ====
/-
  The two functions the pallas_call computes, index by index over the extended reals: the projected features
  h[i, q] = Σ_k feat[i, k] · W[k, q], and a head's attention logit Σ_j h[i, 16a + j] · v[0, 16a + j] for a
  flattened attention vector v, the sum over the head's 16 features.
-/
import proofs.«419565_j82154134438199_3_alg».proof.Proof.PayloadAt

noncomputable section

namespace Cert.KernelIdeal.Spec

open Cert.KernelIdeal Cert.KernelIdeal.PayloadAt Idealize.ShloMosaic Idealize.ShloMosaic.ValueIdx

/-- The projected features. -/
def projected (feat : S100000x128.Idx → EReal) (W : S128x64.Idx → EReal) : S100000x64.Idx → EReal :=
  fun i => ∑ k : Fin 128, feat (ix2 (⟨(i 0).val, (i 0).isLt⟩ : Fin 100000) k) * W (ix2 k (⟨(i 1).val, (i 1).isLt⟩ : Fin 64))

/-- The attention logits of the four heads against the flattened attention vector `v`. -/
def logits (feat : S100000x128.Idx → EReal) (W : S128x64.Idx → EReal) (v : S1x64.Idx → EReal) : S100000x4.Idx → EReal :=
  fun i => ∑ j : Fin 16, (∑ k : Fin 128, feat (ix2 (⟨(i 0).val, (i 0).isLt⟩ : Fin 100000) k) * W (ix2 k (col (⟨(i 1).val, (i 1).isLt⟩ : Fin 4) j)))
    * v (ix2 (0 : Fin 1) (col (⟨(i 1).val, (i 1).isLt⟩ : Fin 4) j))

end Cert.KernelIdeal.Spec

end
-- ==== Proof.Arrays.lean ====
/-
  What the kernel's three output arrays hold after the run, as whole-array functions over the extended reals.

  The grid has 25 points. At point t the feature window holds rows 4000 t … 4000 t + 3999 of the 100000 x 128 feature
  array; the weight matrix and the two flattened attention vectors are staged whole at every point; and each of the
  three output windows is written back at every point, to rows 4000 t … 4000 t + 3999 of its array. What a point writes
  back is its one whole-block store: for the products, entry (p, q) is Σ_k x[p, k] · w[k, q] over the staged blocks;
  for either logit block, entry (p, a) is Σ_{j < 16} (Σ_k x[p, k] · w[k, 16 a + j]) · v[0, 16 a + j]. A staged block's
  entry is the array's entry at block index × block size + the coordinate inside the block, so row p of point t's
  blocks is row 4000 t + p of the arrays, and what point t writes back is block t of ONE function of the arrays: the
  projected features, or a logit function. The 25 blocks of 4000 rows cover all 100000 rows (row r lies in block
  r / 4000), so each output array ends holding that function everywhere.
-/
import proofs.«419565_j82154134438199_3_alg».proof.Proof.BodyRun
import proofs.«419565_j82154134438199_3_alg».proof.Proof.Spec

set_option maxRecDepth 16384

noncomputable section

namespace Cert.KernelIdeal.Arrays

open Cert.KernelIdeal Cert.KernelIdeal.Gen Cert.KernelIdeal.HostLines Cert.KernelIdeal.BodyRun Cert.KernelIdeal.PayloadAt
  Cert.KernelIdeal.Spec Idealize.ShloMosaic Idealize.ShloMosaic.ValueIdx

variable (m : (ℓ : Loc nD τ sig) → Buf (Elt Ideal) ℓ)

/-! ## The block indices over the grid -/

/-- The zero offsets of a whole-buffer access, as a constant function. -/
theorem zeroOffsets : (![0, 0] : Fin 2 → Nat) = fun _ => 0 := funext fun a => by fin_cases a <;> rfl

/-- The index maps over the 25 points: the feature window and the three output windows are at block (t, 0); the
    weights and the two attention vectors are at block (0, 0). -/
theorem blockIndices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row p of block t is a row of the array: 4000 t + p < 100000 for t < 25 and p < 4000. -/
theorem rowBound (t : Fin cfg0.N) (p : Fin 4000) : t.val * 4000 + p.val < 100000 := by
  have ht : t.val < 25 := t.isLt
  have hp := p.isLt
  omega

/-! ## The staged input blocks, entry by entry -/

/-- The feature block at point t: its entry (p, k) is the feature array's entry (4000 t + p, k). -/
theorem featBlock_at (c : Dev nD) (t : Fin cfg0.N) (p : Fin 4000) (k : Fin 128) :
    (iblk m c 0 t : Vec Ideal S4000x128 .f32) (ix2 p k)
      = (V m c main_arg0 : S100000x128.Idx → EReal) (ix2 (⟨t.val * 4000 + p.val, rowBound t p⟩ : Fin 100000) k) := by
  obtain ⟨e0, e1, -⟩ := blockIndices t
  unfold iblk
  rw [View.read_apply]
  show V m c main_arg0 _ = V m c main_arg0 _
  congr 1
  funext a
  apply Fin.ext
  match a with
  | ⟨0, _⟩ => show win0_0.index t (0 : Fin 2) * 4000 + 1 * p.val = t.val * 4000 + p.val; rw [e0]; omega
  | ⟨1, _⟩ => show win0_0.index t (1 : Fin 2) * 128 + 1 * k.val = k.val; rw [e1]; omega

/-- The weight block at any point is the weight matrix. -/
theorem weightBlock_at (c : Dev nD) (t : Fin cfg0.N) (k : Fin 128) (q : Fin 64) :
    (iblk m c 1 t : Vec Ideal S128x64 .f32) (ix2 k q) = (V m c main_arg1 : S128x64.Idx → EReal) (ix2 k q) := by
  obtain ⟨-, -, e0, e1, -⟩ := blockIndices t
  unfold iblk
  rw [View.read_apply]
  show V m c main_arg1 _ = V m c main_arg1 _
  congr 1
  funext a
  apply Fin.ext
  match a with
  | ⟨0, _⟩ => show win0_1.index t (0 : Fin 2) * 128 + 1 * k.val = k.val; rw [e0]; omega
  | ⟨1, _⟩ => show win0_1.index t (1 : Fin 2) * 64 + 1 * q.val = q.val; rw [e1]; omega

/-- The left attention block at any point is the left flattened attention vector. -/
theorem attnLeftBlock_at (c : Dev nD) (t : Fin cfg0.N) (u : Fin 1) (q : Fin 64) :
    (iblk m c 2 t : Vec Ideal S1x64 .f32) (ix2 u q) = (V m c main_v0 : S1x64.Idx → EReal) (ix2 u q) := by
  obtain ⟨-, -, -, -, e0, e1, -⟩ := blockIndices t
  unfold iblk
  rw [View.read_apply]
  show V m c main_v0 _ = V m c main_v0 _
  congr 1
  funext a
  apply Fin.ext
  match a with
  | ⟨0, _⟩ => show win0_2.index t (0 : Fin 2) * 1 + 1 * u.val = u.val; rw [e0]; omega
  | ⟨1, _⟩ => show win0_2.index t (1 : Fin 2) * 64 + 1 * q.val = q.val; rw [e1]; omega

/-- The right attention block at any point is the right flattened attention vector. -/
theorem attnRightBlock_at (c : Dev nD) (t : Fin cfg0.N) (u : Fin 1) (q : Fin 64) :
    (iblk m c 3 t : Vec Ideal S1x64 .f32) (ix2 u q) = (V m c main_v1 : S1x64.Idx → EReal) (ix2 u q) := by
  obtain ⟨-, -, -, -, -, -, e0, e1, -⟩ := blockIndices t
  unfold iblk
  rw [View.read_apply]
  show V m c main_v1 _ = V m c main_v1 _
  congr 1
  funext a
  apply Fin.ext
  match a with
  | ⟨0, _⟩ => show win0_3.index t (0 : Fin 2) * 1 + 1 * u.val = u.val; rw [e0]; omega
  | ⟨1, _⟩ => show win0_3.index t (1 : Fin 2) * 64 + 1 * q.val = q.val; rw [e1]; omega

/-! ## The target functions at an index given by its coordinates -/

/-- The projected features at (r, q). -/
theorem projected_at (feat : S100000x128.Idx → EReal) (W : S128x64.Idx → EReal) (r : Fin 100000) (q : Fin 64) :
    projected feat W (ix2 r q) = ∑ k : Fin 128, feat (ix2 r k) * W (ix2 k q) := rfl

/-- Head a's logit of row r. -/
theorem logits_at (feat : S100000x128.Idx → EReal) (W : S128x64.Idx → EReal) (v : S1x64.Idx → EReal) (r : Fin 100000) (a : Fin 4) :
    logits feat W v (ix2 r a)
      = ∑ j : Fin 16, (∑ k : Fin 128, feat (ix2 r k) * W (ix2 k (col a j))) * v (ix2 (0 : Fin 1) (col a j)) := rfl

/-- A head's logit over blocks that agree with the arrays entry by entry — the feature block's row p with the array's
    row r, the weights and the attention vector everywhere — is the same sum over the arrays. -/
theorem head_sum_eq (x0 : Vec Ideal S4000x128 .f32) (x1 : Vec Ideal S128x64 .f32) (x2 : Vec Ideal S1x64 .f32)
    (feat : S100000x128.Idx → EReal) (W : S128x64.Idx → EReal) (v : S1x64.Idx → EReal) (p : Fin 4000) (r : Fin 100000)
    (h0 : ∀ k : Fin 128, x0 (ix2 p k) = feat (ix2 r k)) (h1 : ∀ (k : Fin 128) (q : Fin 64), x1 (ix2 k q) = W (ix2 k q))
    (h2 : ∀ (u : Fin 1) (q : Fin 64), x2 (ix2 u q) = v (ix2 u q)) (a : Fin 4) :
    (∑ j : Fin 16, (∑ k : Fin 128, x0 (ix2 p k) * x1 (ix2 k (col a j))) * x2 (ix2 (0 : Fin 1) (col a j)))
      = ∑ j : Fin 16, (∑ k : Fin 128, feat (ix2 r k) * W (ix2 k (col a j))) * v (ix2 (0 : Fin 1) (col a j)) := by
  refine Finset.sum_congr rfl fun j _ => ?_
  rw [h2]
  refine congrArg (· * _) ?_
  refine Finset.sum_congr rfl fun k _ => ?_
  rw [h0, h1]

/-! ## The products' array (window 4) -/

/-- Entry (p, q) of point t's block of the products' array is the array's entry (4000 t + p, q). -/
theorem blk4_emb (t : Fin cfg0.N) (p : Fin 4000) (q : Fin 64) :
    (((cfg0.win 4).blk t).view.emb (ix2 p q) : S100000x64.Idx) = ix2 (⟨t.val * 4000 + p.val, rowBound t p⟩ : Fin 100000) q := by
  obtain ⟨-, -, -, -, -, -, -, -, e0, e1, -⟩ := blockIndices t
  funext a
  apply Fin.ext
  match a with
  | ⟨0, _⟩ => show win0_4.index t (0 : Fin 2) * 4000 + 1 * p.val = t.val * 4000 + p.val; rw [e0]; omega
  | ⟨1, _⟩ => show win0_4.index t (1 : Fin 2) * 64 + 1 * q.val = q.val; rw [e1]; omega

/-- What point t writes back to the products' array is block t of the projected features of the arrays. -/
theorem flushed4_eq (c : Dev nD) (t : Fin cfg0.N) :
    (dats m 0 c).flushed 4 t = ((cfg0.win 4).blk t).view.read (Elt Ideal) (projected (V m c main_arg0) (V m c main_arg1)) := by
  show (cfg0.win 4).cut (grid0.coords t) ((dats m 0 c).after 4 t) = _
  rw [after0_4]
  unfold out0_4
  rw [View.canon_unit_zero zeroOffsets]
  simp only [View.ld_unit_zero (S := S4000x128) zeroOffsets, View.ld_unit_zero (S := S128x64) zeroOffsets]
  funext j
  obtain ⟨p, q, rfl⟩ : ∃ (p : Fin 4000) (q : Fin 64), j = ix2 p q := ⟨j 0, j 1, eq_ix2 j⟩
  refine (pay2_at _ _ p q).trans ?_
  refine Eq.trans ?_ (congrArg (projected (V m c main_arg0) (V m c main_arg1)) (blk4_emb t p q)).symm
  refine Eq.trans ?_ (projected_at _ _ _ q).symm
  refine Finset.sum_congr rfl fun k _ => ?_
  rw [featBlock_at m c t p k, weightBlock_at m c t k q]

/-- An index of the products' array is in point t's block iff each coordinate is in the block's range on its axis. -/
theorem mem_blk4 (t : Fin cfg0.N) (i : S100000x64.Idx) :
    i ∈ ((cfg0.win 4).blk t).view.set ↔ ∀ a : Fin 2, win0_4.index t a * S4000x64.size a ≤ (i a).val ∧ (i a).val < win0_4.index t a * S4000x64.size a + S4000x64.size a := by
  show i ∈ ((View.whole main_v2_0).slice (win0_4.rect t)).set ↔ _
  rw [View.set_slice_whole, Rect.mem_set_unit]
  exact Iff.rfl

/-- Every index of the products' array is in a block that is written back: row r is in block r / 4000. -/
theorem cover4 (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 25 := N_0
  refine ⟨⟨(i 0).val / 4000, by rw [hN]; omega⟩, flush0_4 _, ?_⟩
  rw [mem_blk4]
  obtain ⟨-, -, -, -, -, -, -, -, e0, e1, -⟩ := blockIndices ⟨(i 0).val / 4000, by rw [hN]; omega⟩
  intro a
  match a with
  | ⟨0, _⟩ =>
    show win0_4.index _ (0 : Fin 2) * 4000 ≤ (i 0).val ∧ (i 0).val < win0_4.index _ (0 : Fin 2) * 4000 + 4000
    rw [e0]
    show (i 0).val / 4000 * 4000 ≤ (i 0).val ∧ (i 0).val < (i 0).val / 4000 * 4000 + 4000
    omega
  | ⟨1, _⟩ =>
    show win0_4.index _ (1 : Fin 2) * 64 ≤ (i 1).val ∧ (i 1).val < win0_4.index _ (1 : Fin 2) * 64 + 64
    rw [e1]
    omega

/-- The products' array after the run is the projected features of the feature array and the weight matrix. -/
theorem final4 (c : Dev nD) : (dats m 0 c).arrAt 4 cfg0.N = projected (V m c main_arg0) (V m c main_arg1) :=
  (dats m 0 c).arrAt_eq_of_cover 4 (projected (V m c main_arg0) (V m c main_arg1)) (fun t _ => flushed4_eq m c t) cover4

/-! ## The two logit arrays (windows 5 and 6) -/

/-- Entry (p, a) of point t's block of the left logits' array is the array's entry (4000 t + p, a). -/
theorem blk5_emb (t : Fin cfg0.N) (p : Fin 4000) (a : Fin 4) :
    (((cfg0.win 5).blk t).view.emb (ix2 p a) : S100000x4.Idx) = ix2 (⟨t.val * 4000 + p.val, rowBound t p⟩ : Fin 100000) a := by
  obtain ⟨-, -, -, -, -, -, -, -, -, -, e0, e1, -⟩ := blockIndices t
  funext b
  apply Fin.ext
  match b with
  | ⟨0, _⟩ => show win0_5.index t (0 : Fin 2) * 4000 + 1 * p.val = t.val * 4000 + p.val; rw [e0]; omega
  | ⟨1, _⟩ => show win0_5.index t (1 : Fin 2) * 4 + 1 * a.val = a.val; rw [e1]; omega

/-- Entry (p, a) of point t's block of the right logits' array is the array's entry (4000 t + p, a). -/
theorem blk6_emb (t : Fin cfg0.N) (p : Fin 4000) (a : Fin 4) :
    (((cfg0.win 6).blk t).view.emb (ix2 p a) : S100000x4.Idx) = ix2 (⟨t.val * 4000 + p.val, rowBound t p⟩ : Fin 100000) a := by
  obtain ⟨-, -, -, -, -, -, -, -, -, -, -, -, e0, e1⟩ := blockIndices t
  funext b
  apply Fin.ext
  match b with
  | ⟨0, _⟩ => show win0_6.index t (0 : Fin 2) * 4000 + 1 * p.val = t.val * 4000 + p.val; rw [e0]; omega
  | ⟨1, _⟩ => show win0_6.index t (1 : Fin 2) * 4 + 1 * a.val = a.val; rw [e1]; omega

/-- What point t writes back to the left logits' array is block t of the logits against the left attention vector. -/
theorem flushed5_eq (c : Dev nD) (t : Fin cfg0.N) :
    (dats m 0 c).flushed 5 t
      = ((cfg0.win 5).blk t).view.read (Elt Ideal) (logits (V m c main_arg0) (V m c main_arg1) (V m c main_v0)) := by
  show (cfg0.win 5).cut (grid0.coords t) ((dats m 0 c).after 5 t) = _
  rw [after0_5]
  unfold out0_5
  rw [View.canon_unit_zero zeroOffsets]
  simp only [View.ld_unit_zero (S := S4000x128) zeroOffsets, View.ld_unit_zero (S := S128x64) zeroOffsets,
    View.ld_unit_zero (S := S1x64) zeroOffsets]
  funext j
  obtain ⟨p, a, rfl⟩ : ∃ (p : Fin 4000) (a : Fin 4), j = ix2 p a := ⟨j 0, j 1, eq_ix2 j⟩
  refine (pay8_at _ _ _ p a).trans ?_
  refine Eq.trans ?_ (congrArg (logits (V m c main_arg0) (V m c main_arg1) (V m c main_v0)) (blk5_emb t p a)).symm
  refine Eq.trans ?_ (logits_at _ _ _ _ a).symm
  exact head_sum_eq _ _ _ _ _ _ p _ (fun k => featBlock_at m c t p k) (fun k q => weightBlock_at m c t k q)
    (fun u q => attnLeftBlock_at m c t u q) a

/-- What point t writes back to the right logits' array is block t of the logits against the right attention vector. -/
theorem flushed6_eq (c : Dev nD) (t : Fin cfg0.N) :
    (dats m 0 c).flushed 6 t
      = ((cfg0.win 6).blk t).view.read (Elt Ideal) (logits (V m c main_arg0) (V m c main_arg1) (V m c main_v1)) := by
  show (cfg0.win 6).cut (grid0.coords t) ((dats m 0 c).after 6 t) = _
  rw [after0_6]
  unfold out0_6
  rw [View.canon_unit_zero zeroOffsets]
  simp only [View.ld_unit_zero (S := S4000x128) zeroOffsets, View.ld_unit_zero (S := S128x64) zeroOffsets,
    View.ld_unit_zero (S := S1x64) zeroOffsets]
  funext j
  obtain ⟨p, a, rfl⟩ : ∃ (p : Fin 4000) (a : Fin 4), j = ix2 p a := ⟨j 0, j 1, eq_ix2 j⟩
  refine (pay1_at _ _ _ p a).trans ?_
  refine Eq.trans ?_ (congrArg (logits (V m c main_arg0) (V m c main_arg1) (V m c main_v1)) (blk6_emb t p a)).symm
  refine Eq.trans ?_ (logits_at _ _ _ _ a).symm
  exact head_sum_eq _ _ _ _ _ _ p _ (fun k => featBlock_at m c t p k) (fun k q => weightBlock_at m c t k q)
    (fun u q => attnRightBlock_at m c t u q) a

/-- An index of the left logits' array is in point t's block iff each coordinate is in the block's range on its axis. -/
theorem mem_blk5 (t : Fin cfg0.N) (i : S100000x4.Idx) :
    i ∈ ((cfg0.win 5).blk t).view.set ↔ ∀ a : Fin 2, win0_5.index t a * S4000x4.size a ≤ (i a).val ∧ (i a).val < win0_5.index t a * S4000x4.size a + S4000x4.size a := by
  show i ∈ ((View.whole main_v2_1).slice (win0_5.rect t)).set ↔ _
  rw [View.set_slice_whole, Rect.mem_set_unit]
  exact Iff.rfl

/-- The same for the right logits' array. -/
theorem mem_blk6 (t : Fin cfg0.N) (i : S100000x4.Idx) :
    i ∈ ((cfg0.win 6).blk t).view.set ↔ ∀ a : Fin 2, win0_6.index t a * S4000x4.size a ≤ (i a).val ∧ (i a).val < win0_6.index t a * S4000x4.size a + S4000x4.size a := by
  show i ∈ ((View.whole main_v2_2).slice (win0_6.rect t)).set ↔ _
  rw [View.set_slice_whole, Rect.mem_set_unit]
  exact Iff.rfl

/-- Every index of the left logits' array is in a block that is written back: row r is in block r / 4000. -/
theorem cover5 (i : S100000x4.Idx) : ∃ t : Fin cfg0.N, (cfg0.win 5).flush t = true ∧ i ∈ ((cfg0.win 5).blk t).view.set := by
  have hi0 : (i 0).val < 100000 := (i 0).isLt
  have hi1 : (i 1).val < 4 := (i 1).isLt
  have hN : cfg0.N = 25 := N_0
  refine ⟨⟨(i 0).val / 4000, by rw [hN]; omega⟩, flush0_5 _, ?_⟩
  rw [mem_blk5]
  obtain ⟨-, -, -, -, -, -, -, -, -, -, e0, e1, -⟩ := blockIndices ⟨(i 0).val / 4000, by rw [hN]; omega⟩
  intro a
  match a with
  | ⟨0, _⟩ =>
    show win0_5.index _ (0 : Fin 2) * 4000 ≤ (i 0).val ∧ (i 0).val < win0_5.index _ (0 : Fin 2) * 4000 + 4000
    rw [e0]
    show (i 0).val / 4000 * 4000 ≤ (i 0).val ∧ (i 0).val < (i 0).val / 4000 * 4000 + 4000
    omega
  | ⟨1, _⟩ =>
    show win0_5.index _ (1 : Fin 2) * 4 ≤ (i 1).val ∧ (i 1).val < win0_5.index _ (1 : Fin 2) * 4 + 4
    rw [e1]
    omega

/-- The same for the right logits' array. -/
theorem cover6 (i : S100000x4.Idx) : ∃ t : Fin cfg0.N, (cfg0.win 6).flush t = true ∧ i ∈ ((cfg0.win 6).blk t).view.set := by
  have hi0 : (i 0).val < 100000 := (i 0).isLt
  have hi1 : (i 1).val < 4 := (i 1).isLt
  have hN : cfg0.N = 25 := N_0
  refine ⟨⟨(i 0).val / 4000, by rw [hN]; omega⟩, flush0_6 _, ?_⟩
  rw [mem_blk6]
  obtain ⟨-, -, -, -, -, -, -, -, -, -, -, -, e0, e1⟩ := blockIndices ⟨(i 0).val / 4000, by rw [hN]; omega⟩
  intro a
  match a with
  | ⟨0, _⟩ =>
    show win0_6.index _ (0 : Fin 2) * 4000 ≤ (i 0).val ∧ (i 0).val < win0_6.index _ (0 : Fin 2) * 4000 + 4000
    rw [e0]
    show (i 0).val / 4000 * 4000 ≤ (i 0).val ∧ (i 0).val < (i 0).val / 4000 * 4000 + 4000
    omega
  | ⟨1, _⟩ =>
    show win0_6.index _ (1 : Fin 2) * 4 ≤ (i 1).val ∧ (i 1).val < win0_6.index _ (1 : Fin 2) * 4 + 4
    rw [e1]
    omega

/-- The left logits' array after the run is the four heads' logits against the left flattened attention vector. -/
theorem final5 (c : Dev nD) : (dats m 0 c).arrAt 5 cfg0.N = logits (V m c main_arg0) (V m c main_arg1) (V m c main_v0) :=
  (dats m 0 c).arrAt_eq_of_cover 5 (logits (V m c main_arg0) (V m c main_arg1) (V m c main_v0)) (fun t _ => flushed5_eq m c t) cover5

/-- The right logits' array after the run is the four heads' logits against the right flattened attention vector. -/
theorem final6 (c : Dev nD) : (dats m 0 c).arrAt 6 cfg0.N = logits (V m c main_arg0) (V m c main_arg1) (V m c main_v1) :=
  (dats m 0 c).arrAt_eq_of_cover 6 (logits (V m c main_arg0) (V m c main_arg1) (V m c main_v1)) (fun t _ => flushed6_eq m c t) cover6

end Cert.KernelIdeal.Arrays

end
-- ==== Proof.RefLogits.lean ====
/-
  The reference program's first stages are the two functions of the specification.

  The reference forms h = feat · W (100000 x 64), views it as 100000 x 4 x 16 (entry (i, a, j) is h[i, 16 a + j]),
  multiplies by the 1 x 4 x 16 attention vector broadcast over the rows, and sums over the last axis from the
  constant 0. The kernel program instead flattens the attention vector to 1 x 64 first, entry (0, a, j) going to
  column 16 a + j. Read index by index both are the same finite sums, term by term:
    h[i, q] = ∑_k feat[i, k] * W[k, q]   and   ∑_{j < 16} h[i, 16 a + j] * v[0, a, j].
-/
import proofs.«419565_j82154134438199_3_alg».proof.Proof.Gen.ReferenceIdeal.Read
import proofs.«419565_j82154134438199_3_alg».proof.Proof.Gen.KernelIdeal
import proofs.«419565_j82154134438199_3_alg».proof.Proof.Spec

noncomputable section

namespace Cert.ReferenceIdeal.RefLogits

open Idealize.ShloMosaic Idealize.ShloMosaic.ValueIdx Cert.KernelIdeal.Spec Cert.KernelIdeal.PayloadAt

/-! ## The stages at an index given by its coordinates -/

/-- The matrix product at (p, q): ∑_k feat[p, k] * W[k, q]. -/
theorem product_at (feat : S100000x128.Idx → EReal) (W : S128x64.Idx → EReal) (p : Fin 100000) (q : Fin 64) :
    Read.val_main_v0 (F := Ideal) feat W (ix2 p q) = ∑ k : Fin 128, feat (ix2 p k) * W (ix2 k q) := by
  refine (Read.val_main_v0_apply feat W (ix2 p q)).trans ?_
  refine Finset.sum_congr rfl fun k _ => ?_
  have el : Read.lidx_main_v0 (ix2 p q) k = ix2 p k :=
    funext fun a => Fin.ext (by match a with | ⟨0, _⟩ => rfl | ⟨1, _⟩ => rfl)
  have er : Read.ridx_main_v0 (ix2 p q) k = ix2 k q :=
    funext fun a => Fin.ext (by match a with | ⟨0, _⟩ => rfl | ⟨1, _⟩ => rfl)
  rw [el, er]

/-- The product viewed as 100000 x 4 x 16: entry (p, a, j) has row-major position (4 p + a) 16 + j = 64 p + (16 a + j),
    so it is the product's entry (p, 16 a + j). -/
theorem reshaped_at (feat : S100000x128.Idx → EReal) (W : S128x64.Idx → EReal) (p : Fin 100000) (a : Fin 4) (j : Fin 16) :
    Read.val_main_v1 (F := Ideal) feat W (ix3 p a j) = Read.val_main_v0 (F := Ideal) feat W (ix2 p (col a j)) := by
  refine (Read.val_main_v1_apply (F := Ideal) feat W (ix3 p a j)).trans ?_
  refine congrArg (Read.val_main_v0 (F := Ideal) feat W) (funext fun c => Fin.ext ?_)
  have hp := p.isLt
  have ha := a.isLt
  have hj := j.isLt
  match c with
  | ⟨0, _⟩ => show ((p.val * 4 + a.val) * 16 + j.val) / 64 = p.val; omega
  | ⟨1, _⟩ => show ((p.val * 4 + a.val) * 16 + j.val) % 64 = 16 * a.val + j.val; omega

/-- The flattened attention vector at column 16 a + j is the 1 x 4 x 16 vector's entry (0, a, j): both have row-major
    position 16 a + j. -/
theorem flat_at (v : Cert.KernelIdeal.S1x4x16.Idx → EReal) (a : Fin 4) (j : Fin 16) :
    shapeCast Cert.KernelIdeal.S1x64 v Cert.KernelIdeal.Gen.shapeCasts_S1x4x16_S1x64 (ix2 (0 : Fin 1) (col a j))
      = v (ix3 (0 : Fin 1) a j) :=
  shapeCast_apply v Cert.KernelIdeal.Gen.shapeCasts_S1x4x16_S1x64 (ix2 (0 : Fin 1) (col a j)) (ix3 (0 : Fin 1) a j) (by
    rw [Shape.rowMajor_val_three, Shape.rowMajor_val_two]
    show (0 * 4 + a.val) * 16 + j.val = 0 * 64 + (16 * a.val + j.val)
    omega)

/-- One term of a head's sum, reference side to specification side:
    h[p, a, j] * v[0, a, j] = (∑_k feat[p, k] * W[k, 16 a + j]) * vflat[0, 16 a + j]. -/
theorem term_eq (feat : S100000x128.Idx → EReal) (W : S128x64.Idx → EReal) (v : S1x4x16.Idx → EReal)
    (p : Fin 100000) (a : Fin 4) (j : Fin 16) :
    Read.val_main_v1 (F := Ideal) feat W (ix3 p a j) * v (ix3 (0 : Fin 1) a j)
      = (∑ k : Fin 128, feat (ix2 p k) * W (ix2 k (col a j)))
        * shapeCast Cert.KernelIdeal.S1x64 v Cert.KernelIdeal.Gen.shapeCasts_S1x4x16_S1x64 (ix2 (0 : Fin 1) (col a j)) := by
  rw [reshaped_at, product_at, flat_at]

/-! ## The three equations -/

theorem projected_eq (feat : Cert.KernelIdeal.S100000x128.Idx → EReal) (W : Cert.KernelIdeal.S128x64.Idx → EReal) :
    projected feat W = Cert.ReferenceIdeal.Read.val_main_v0 (F := Ideal) feat W := by
  funext i
  obtain ⟨p, q, rfl⟩ : ∃ (p : Fin 100000) (q : Fin 64), i = ix2 p q := ⟨i 0, i 1, eq_ix2 i⟩
  exact (product_at feat W p q).symm

theorem logits_left_eq (feat : Cert.KernelIdeal.S100000x128.Idx → EReal) (W : Cert.KernelIdeal.S128x64.Idx → EReal) (al : Cert.KernelIdeal.S1x4x16.Idx → EReal) :
    logits feat W (shapeCast Cert.KernelIdeal.S1x64 al Cert.KernelIdeal.Gen.shapeCasts_S1x4x16_S1x64) = Cert.ReferenceIdeal.Read.val_main_v4 (F := Ideal) feat W al := by
  funext i
  obtain ⟨p, a, rfl⟩ : ∃ (p : Fin 100000) (a : Fin 4), i = ix2 p a := ⟨i 0, i 1, eq_ix2 i⟩
  refine Eq.symm ((Read.val_main_v4_apply feat W al (ix2 p a)).trans ?_)
  rw [Read.val_main_cst_apply, Ideal.ofBits_def, Ideal.ofBits_zero_f32, zero_add]
  refine Finset.sum_congr rfl fun j _ => ?_
  have hi : Read.idx_main_v4 (ix2 p a) j = ix3 p a j :=
    funext fun c => Fin.ext (by match c with | ⟨0, _⟩ => rfl | ⟨1, _⟩ => rfl | ⟨2, _⟩ => rfl)
  have hb : Read.idx_main_v2 (ix3 p a j) = ix3 (0 : Fin 1) a j :=
    funext fun c => Fin.ext (by match c with | ⟨0, _⟩ => rfl | ⟨1, _⟩ => rfl | ⟨2, _⟩ => rfl)
  rw [hi, Read.val_main_v3_apply, Ideal.mulf_def, Read.val_main_v2_apply, hb]
  exact term_eq feat W al p a j

theorem logits_right_eq (feat : Cert.KernelIdeal.S100000x128.Idx → EReal) (W : Cert.KernelIdeal.S128x64.Idx → EReal) (ar : Cert.KernelIdeal.S1x4x16.Idx → EReal) :
    logits feat W (shapeCast Cert.KernelIdeal.S1x64 ar Cert.KernelIdeal.Gen.shapeCasts_S1x4x16_S1x64) = Cert.ReferenceIdeal.Read.val_main_v7 (F := Ideal) feat W ar := by
  funext i
  obtain ⟨p, a, rfl⟩ : ∃ (p : Fin 100000) (a : Fin 4), i = ix2 p a := ⟨i 0, i 1, eq_ix2 i⟩
  refine Eq.symm ((Read.val_main_v7_apply feat W ar (ix2 p a)).trans ?_)
  rw [Read.val_main_cst_0_apply, Ideal.ofBits_def, Ideal.ofBits_zero_f32, zero_add]
  refine Finset.sum_congr rfl fun j _ => ?_
  have hi : Read.idx_main_v7 (ix2 p a) j = ix3 p a j :=
    funext fun c => Fin.ext (by match c with | ⟨0, _⟩ => rfl | ⟨1, _⟩ => rfl | ⟨2, _⟩ => rfl)
  have hb : Read.idx_main_v5 (ix3 p a j) = ix3 (0 : Fin 1) a j :=
    funext fun c => Fin.ext (by match c with | ⟨0, _⟩ => rfl | ⟨1, _⟩ => rfl | ⟨2, _⟩ => rfl)
  rw [hi, Read.val_main_v6_apply, Ideal.mulf_def, Read.val_main_v5_apply, hb]
  exact term_eq feat W ar p a j

end Cert.ReferenceIdeal.RefLogits

end
-- ==== Proof.LibGather.lean ====
/-
  A host gather of whole rows of a matrix, read at one element when every index word is in range.
-/
import Idealize.ShloMosaic.Lib.ValueIdx

noncomputable section

open scoped BigOperators

namespace Cert.GNN.Lib

open Idealize.ShloMosaic Idealize.ShloMosaic.ValueIdx

/-- The dimension numbers of a gather of whole rows: operand `[N, K]`, one index word per result row
    (`[E, 1]`), result `[E, K]`; the row axis is collapsed and named by the index, the column axis is
    the one offset axis and is taken whole. -/
private abbrev rowDims (N E K : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- On the row axis the operand index is the index word of the result's row, read signed and clamped
    into `[0, N − 1]`: no batching, and the collapsed axis has no offset. -/
private theorem rowDims_operandIdx_row {N E K w : Nat}
    (wf : GatherDims.WF ⟨2, ![N, K]⟩ ⟨2, ![E, 1]⟩ ⟨2, ![E, K]⟩ [1] [0] [] [0] [] 1 ![1, K])
    (idx : IVec ⟨2, ![E, 1]⟩ w) (e : Fin E) (k : Fin K) :
    ((rowDims N E K wf).operandIdx (ix2 e k) idx 0).val = min (idx (ix2 e (0 : Fin 1))).toInt.toNat (N - 1) := by
  show (rowDims N E K wf).start (ix2 e k) idx 0 + (rowDims N E K wf).batchCoord (ix2 e k) 0
    + (rowDims N E K wf).offCoord (ix2 e k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  have hmem : (0 : Fin 2) ∈ (rowDims N E K wf).startIndexMap := List.mem_singleton.mpr rfl
  unfold GatherDims.start
  rw [dif_pos hmem]
  have hsi : (rowDims N E K wf).siIdx (ix2 e k)
      ⟨List.idxOf (0 : Fin 2) (rowDims N E K wf).startIndexMap, List.idxOf_lt_length_iff.2 hmem⟩ = ix2 e (0 : Fin 1) := by
    funext b; refine Fin.ext ?_
    match b with
    | ⟨0, _⟩ => rfl
    | ⟨1, _⟩ => rfl
  rw [hsi]
  rfl

/-- On the column axis the operand index is the result's column: the start is zero (the index names no
    column), and the offset axis carries the coordinate. -/
private theorem rowDims_operandIdx_col {N E K w : Nat}
    (wf : GatherDims.WF ⟨2, ![N, K]⟩ ⟨2, ![E, 1]⟩ ⟨2, ![E, K]⟩ [1] [0] [] [0] [] 1 ![1, K])
    (idx : IVec ⟨2, ![E, 1]⟩ w) (e : Fin E) (k : Fin K) :
    ((rowDims N E K wf).operandIdx (ix2 e k) idx 1).val = k.val := by
  show (rowDims N E K wf).start (ix2 e k) idx 1 + (rowDims N E K wf).batchCoord (ix2 e k) 1
    + (rowDims N E K wf).offCoord (ix2 e k) 1 = _
  rw [GatherDims.batchCoord_eq_zero _ _ _ List.not_mem_nil, Nat.add_zero]
  have hne : ∀ l : List (Fin 2), l = [0] → (1 : Fin 2) ∉ l := fun l hl h => by
    subst hl; exact absurd (congrArg Fin.val (List.mem_singleton.mp h)) Nat.one_ne_zero
  have hnot : (1 : Fin 2) ∉ (rowDims N E K wf).startIndexMap := hne _ rfl
  have hk : (1 : Fin 2) ∈ (rowDims N E K wf).sKept :=
    (GatherDims.mem_sKept _ _).mpr ⟨hne _ rfl, List.not_mem_nil⟩
  unfold GatherDims.start GatherDims.offCoord
  rw [dif_neg hnot, dif_pos hk, Nat.zero_add]
  rfl

/-- Whole rows gathered from a matrix: row e of the result is the operand's row that index word e names. -/
theorem gather_rows {α : Type} {N E K w : Nat} (d : GatherDims ⟨2, ![N, K]⟩ ⟨2, ![E, 1]⟩ ⟨2, ![E, K]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, K])
    (x : (⟨2, ![N, K]⟩ : Shape).Idx → α) (idx : IVec ⟨2, ![E, 1]⟩ w)
    (f : Fin E → Fin N) (hf : ∀ e : Fin E, (idx (ix2 e (0 : Fin 1))).toInt = ((f e).val : Int)) (e : Fin E) (k : Fin K) :
    Host.gather d x idx (ix2 e k) = x (ix2 (f e) k) := by
  obtain ⟨od, cs, ob, sb, sim, iv, ss, wf⟩ := d
  simp only at h1 h2 h3 h4 h5 h6 h7
  subst h1 h2 h3 h4 h5 h6 h7
  show x ((rowDims N E K wf).operandIdx (ix2 e k) idx) = _
  congr 1
  funext a
  refine Fin.ext ?_
  match a with
  | ⟨0, _⟩ =>
    have h0 := (f e).isLt
    have := rowDims_operandIdx_row wf idx e k
    rw [hf e, Int.toNat_natCast] at this
    show ((rowDims N E K wf).operandIdx (ix2 e k) idx 0).val = (f e).val
    rw [this]
    omega
  | ⟨1, _⟩ => exact rowDims_operandIdx_col wf idx e k

end Cert.GNN.Lib

end
-- ==== Proof.LibScatterRows.lean ====
/-
  A host scatter with an add body whose one index word per update names a row (an entry of a vector, or a row of a matrix), read at one element when every word is in range.
-/
import Idealize.ShloMosaic.Lib.ValueIdx

noncomputable section

open scoped BigOperators

namespace Cert.GNN.Lib

open Idealize.ShloMosaic Idealize.ShloMosaic.ValueIdx

/-- Of two axes, axis 0 is not in the list holding axis 1 alone … -/
private theorem fin2_zero_notMem : (0 : Fin 2) ∉ ([1] : List (Fin 2)) := by decide
/-- … and axis 1 is not in the list holding axis 0 alone. -/
private theorem fin2_one_notMem : (1 : Fin 2) ∉ ([0] : List (Fin 2)) := by decide

/-- A rank-1 index set is its one coordinate's range. -/
private def idxEquiv1 {n : Nat} : (⟨1, ![n]⟩ : Shape).Idx ≃ Fin n where
  toFun j := j 0
  invFun a := ix1 a
  left_inv j := (eq_ix1 j).symm
  right_inv _ := rfl

/-- A sum over a rank-1 index set is the sum over the coordinate. -/
private theorem sum_idx1 {M : Type*} [AddCommMonoid M] {n : Nat} (g : (⟨1, ![n]⟩ : Shape).Idx → M) :
    ∑ j, g j = ∑ a : Fin n, g (ix1 a) := by
  rw [← Equiv.sum_comp (idxEquiv1 (n := n)).symm g]
  rfl

/-- Update e of the vector scatter lands on the entry its index word names: the start on the one operand axis is
    that word, the window coordinate there is 0 (the axis is inserted), and the word is in range. -/
private theorem vec_resultIdx {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (idx : IVec ⟨2, ![E, 1]⟩ w)
    (f : Fin E → Fin N) (hf : ∀ e : Fin E, (idx (ix2 e (0 : Fin 1))).toInt = ((f e).val : Int)) (e : Fin E) :
    d.resultIdx? (ix1 e) idx = some (ix1 (f e)) := by
  obtain ⟨uw, iw, sd, iv, wf⟩ := d
  simp only at h1 h2 h3 h4
  subst h1 h2 h3 h4
  set D : ScatterDims ⟨1, ![N]⟩ ⟨2, ![E, 1]⟩ ⟨1, ![E]⟩ := ⟨[], [0], [0], 1, wf⟩ with hD
  have hwin : ∀ a, D.window (ix1 e) a = 0 := by
    intro a
    obtain rfl : a = 0 := Subsingleton.elim _ _
    unfold ScatterDims.window
    split
    · rename_i h; exact absurd h (List.not_mem_nil (a := (0 : Fin 1)))
    · rfl
  have hstart : ∀ a, D.start (ix1 e) idx a = ((f e).val : Int) := by
    intro a
    obtain rfl : a = 0 := Subsingleton.elim _ _
    unfold ScatterDims.start
    rw [dif_pos (show (0 : Fin 1) ∈ D.scatterDimsToOperandDims from List.mem_singleton.mpr rfl)]
    rw [← hf e]
    congr 2
    funext b; refine Fin.ext ?_
    match b with
    | ⟨0, _⟩ => rfl
    | ⟨1, _⟩ => rfl
  unfold ScatterDims.resultIdx?
  have hall : ∀ a, 0 ≤ D.start (ix1 e) idx a + D.window (ix1 e) a ∧
      D.start (ix1 e) idx a + D.window (ix1 e) a < (⟨1, ![N]⟩ : Shape).size a := by
    intro a
    rw [hwin, hstart]
    obtain rfl : a = 0 := Subsingleton.elim _ _
    have := (f e).isLt
    constructor
    · omega
    · show ((f e).val : Int) + ((0 : Nat) : Int) < (N : Int)
      omega
  rw [dif_pos hall]
  congr 1
  funext a
  refine Fin.ext ?_
  obtain rfl : a = 0 := Subsingleton.elim _ _
  show (D.start (ix1 e) idx 0 + D.window (ix1 e) 0).toNat = (f e).val
  rw [hwin, hstart]
  omega

/-- Scalars added into a vector: entry i of the result is entry i of the operand plus the updates whose index word
    names i. -/
theorem scatterAdd_vec {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![E, 1]⟩ w) (upd : (⟨1, ![E]⟩ : Shape).Idx → EReal)
    (f : Fin E → Fin N) (hf : ∀ e : Fin E, (idx (ix2 e (0 : Fin 1))).toInt = ((f e).val : Int)) (i : Fin N) :
    Ideal.hostScatterAdd d x idx upd (ix1 i) = x (ix1 i) + ∑ e ∈ Finset.univ.filter (fun e => f e = i), upd (ix1 e) := by
  unfold Ideal.hostScatterAdd
  congr 1
  rw [Finset.sum_filter, Finset.sum_filter, sum_idx1]
  refine Finset.sum_congr rfl fun e _ => ?_
  rw [vec_resultIdx d h1 h2 h3 h4 idx f hf e]
  refine if_congr ?_ rfl rfl
  constructor
  · intro h
    have h' := congrFun (Option.some.inj h) 0
    exact h'
  · intro h
    rw [h]

/-- Update (e, k') of the row scatter lands on column k' of the row its index word names: on the row axis the start
    is that word and the window coordinate 0 (the axis is inserted); on the column axis the start is 0 (the map does
    not name it) and the window coordinate is k'. -/
private theorem rows_resultIdx {N E K w : Nat} (d : ScatterDims ⟨2, ![N, K]⟩ ⟨2, ![E, 1]⟩ ⟨2, ![E, K]⟩)
    (h1 : d.updateWindowDims = [1]) (h2 : d.insertedWindowDims = [0]) (h3 : d.scatterDimsToOperandDims = [0])
    (h4 : d.indexVectorDim = 1)
    (idx : IVec ⟨2, ![E, 1]⟩ w)
    (f : Fin E → Fin N) (hf : ∀ e : Fin E, (idx (ix2 e (0 : Fin 1))).toInt = ((f e).val : Int)) (e : Fin E) (k' : Fin K) :
    d.resultIdx? (ix2 e k') idx = some (ix2 (f e) k') := by
  obtain ⟨uw, iw, sd, iv, wf⟩ := d
  simp only at h1 h2 h3 h4
  subst h1 h2 h3 h4
  set D : ScatterDims ⟨2, ![N, K]⟩ ⟨2, ![E, 1]⟩ ⟨2, ![E, K]⟩ := ⟨[1], [0], [0], 1, wf⟩ with hD
  have hwin0 : D.window (ix2 e k') 0 = 0 := by
    unfold ScatterDims.window
    split
    · rename_i h; exact absurd h fin2_zero_notMem
    · rfl
  have hwin1 : D.window (ix2 e k') 1 = k'.val := by
    unfold ScatterDims.window
    split
    · rfl
    · rename_i h; exact absurd (show (1 : Fin 2) ∈ ([1] : List (Fin 2)) from List.mem_singleton.mpr rfl) h
  have hstart0 : D.start (ix2 e k') idx 0 = ((f e).val : Int) := by
    unfold ScatterDims.start
    rw [dif_pos (show (0 : Fin 2) ∈ D.scatterDimsToOperandDims from List.mem_singleton.mpr rfl)]
    rw [← hf e]
    congr 2
    funext b; refine Fin.ext ?_
    match b with
    | ⟨0, _⟩ => rfl
    | ⟨1, _⟩ => rfl
  have hstart1 : D.start (ix2 e k') idx 1 = 0 := by
    unfold ScatterDims.start
    split
    · rename_i h; exact absurd h fin2_one_notMem
    · rfl
  unfold ScatterDims.resultIdx?
  have hall : ∀ a, 0 ≤ D.start (ix2 e k') idx a + D.window (ix2 e k') a ∧
      D.start (ix2 e k') idx a + D.window (ix2 e k') a < (⟨2, ![N, K]⟩ : Shape).size a := by
    intro a
    match a with
    | ⟨0, _⟩ =>
      show 0 ≤ D.start (ix2 e k') idx 0 + D.window (ix2 e k') 0 ∧
        D.start (ix2 e k') idx 0 + D.window (ix2 e k') 0 < (N : Int)
      rw [hwin0, hstart0]
      have := (f e).isLt
      omega
    | ⟨1, _⟩ =>
      show 0 ≤ D.start (ix2 e k') idx 1 + D.window (ix2 e k') 1 ∧
        D.start (ix2 e k') idx 1 + D.window (ix2 e k') 1 < (K : Int)
      rw [hwin1, hstart1]
      have := k'.isLt
      omega
  rw [dif_pos hall]
  congr 1
  funext a
  refine Fin.ext ?_
  match a with
  | ⟨0, _⟩ =>
    show (D.start (ix2 e k') idx 0 + D.window (ix2 e k') 0).toNat = (f e).val
    rw [hwin0, hstart0]
    omega
  | ⟨1, _⟩ =>
    show (D.start (ix2 e k') idx 1 + D.window (ix2 e k') 1).toNat = k'.val
    rw [hwin1, hstart1]
    omega

/-- Rows added into a matrix: row i of the result is row i of the operand plus the update rows whose index word names i. -/
theorem scatterAdd_rows {N E K w : Nat} (d : ScatterDims ⟨2, ![N, K]⟩ ⟨2, ![E, 1]⟩ ⟨2, ![E, K]⟩)
    (h1 : d.updateWindowDims = [1]) (h2 : d.insertedWindowDims = [0]) (h3 : d.scatterDimsToOperandDims = [0])
    (h4 : d.indexVectorDim = 1)
    (x : (⟨2, ![N, K]⟩ : Shape).Idx → EReal) (idx : IVec ⟨2, ![E, 1]⟩ w) (upd : (⟨2, ![E, K]⟩ : Shape).Idx → EReal)
    (f : Fin E → Fin N) (hf : ∀ e : Fin E, (idx (ix2 e (0 : Fin 1))).toInt = ((f e).val : Int)) (i : Fin N) (k : Fin K) :
    Ideal.hostScatterAdd d x idx upd (ix2 i k)
      = x (ix2 i k) + ∑ e ∈ Finset.univ.filter (fun e => f e = i), upd (ix2 e k) := by
  unfold Ideal.hostScatterAdd
  congr 1
  rw [Finset.sum_filter, Finset.sum_filter, sum_idx2]
  refine Finset.sum_congr rfl fun e _ => ?_
  have hinner : ∀ k' : Fin K,
      (if d.resultIdx? (ix2 e k') idx = some (ix2 i k) then upd (ix2 e k') else 0)
        = if k' = k then (if f e = i then upd (ix2 e k') else 0) else 0 := by
    intro k'
    rw [rows_resultIdx d h1 h2 h3 h4 idx f hf e k']
    by_cases hk : k' = k
    · rw [if_pos hk]
      refine if_congr ?_ rfl rfl
      constructor
      · intro h
        exact congrFun (Option.some.inj h) 0
      · intro h
        rw [h, hk]
    · rw [if_neg hk, if_neg]
      intro h
      exact hk (congrFun (Option.some.inj h) 1)
  rw [Finset.sum_congr rfl fun k' _ => hinner k', Finset.sum_ite_eq' Finset.univ k]
  rw [if_pos (Finset.mem_univ k)]

end Cert.GNN.Lib

end
-- ==== Proof.LibRows3.lean ====
/-
  Two general facts about a rank-3 array `[N, A, B]` addressed by one index word per row, read at one element when
  every index word is in range.

  * A host gather of whole `A × B` slices: slice e of the result `[E, A, B]` is the operand's slice that index word e
    names, so the element (e, a, b) of the result is the element (f e, a, b) of the operand.
  * A host scatter with an add body of `[E, A, B]` updates into the array: the element (i, a, b) of the result is the
    operand's element there plus the sum of the updates' elements (e, a, b) over the words e that name slice i.
-/
import Idealize.ShloMosaic.Lib.ValueIdx

noncomputable section

open scoped BigOperators

namespace Cert.GNN.Lib

open Idealize.ShloMosaic Idealize.ShloMosaic.ValueIdx

/-! ## The gather of whole slices -/

/-- The dimension numbers of a gather of whole slices: operand `[N, A, B]`, one index word per result slice
    (`[E, 1]`), result `[E, A, B]`; the leading axis is collapsed and named by the index, the two trailing axes are
    the offset axes and are taken whole. -/
private abbrev sliceDims (N E A B : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-- Of three axes, neither axis 1 nor axis 2 is in the list holding axis 0 alone. -/
private theorem fin3_one_notMem : (1 : Fin 3) ∉ ([0] : List (Fin 3)) := by decide
private theorem fin3_two_notMem : (2 : Fin 3) ∉ ([0] : List (Fin 3)) := by decide

/-- On the leading axis the operand index is the index word of the result's slice, read signed and clamped into
    `[0, N − 1]`: no batching, and the collapsed axis has no offset. -/
private theorem sliceDims_operandIdx_lead {N E A B w : Nat}
    (wf : GatherDims.WF ⟨3, ![N, A, B]⟩ ⟨2, ![E, 1]⟩ ⟨3, ![E, A, B]⟩ [1, 2] [0] [] [0] [] 1 ![1, A, B])
    (idx : IVec ⟨2, ![E, 1]⟩ w) (e : Fin E) (a : Fin A) (b : Fin B) :
    ((sliceDims N E A B wf).operandIdx (ix3 e a b) idx 0).val
      = min (idx (ix2 e (0 : Fin 1))).toInt.toNat (N - 1) := by
  show (sliceDims N E A B wf).start (ix3 e a b) idx 0 + (sliceDims N E A B wf).batchCoord (ix3 e a b) 0
    + (sliceDims N E A B wf).offCoord (ix3 e a b) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  have hmem : (0 : Fin 3) ∈ (sliceDims N E A B wf).startIndexMap := List.mem_singleton.mpr rfl
  unfold GatherDims.start
  rw [dif_pos hmem]
  have hsi : (sliceDims N E A B wf).siIdx (ix3 e a b)
      ⟨List.idxOf (0 : Fin 3) (sliceDims N E A B wf).startIndexMap, List.idxOf_lt_length_iff.2 hmem⟩
        = ix2 e (0 : Fin 1) := by
    funext c; refine Fin.ext ?_
    match c with
    | ⟨0, _⟩ => rfl
    | ⟨1, _⟩ => rfl
  rw [hsi]
  rfl

/-- On the middle axis the operand index is the result's middle coordinate: the start is zero (the index names only
    the leading axis), and the first offset axis carries the coordinate. -/
private theorem sliceDims_operandIdx_mid {N E A B w : Nat}
    (wf : GatherDims.WF ⟨3, ![N, A, B]⟩ ⟨2, ![E, 1]⟩ ⟨3, ![E, A, B]⟩ [1, 2] [0] [] [0] [] 1 ![1, A, B])
    (idx : IVec ⟨2, ![E, 1]⟩ w) (e : Fin E) (a : Fin A) (b : Fin B) :
    ((sliceDims N E A B wf).operandIdx (ix3 e a b) idx 1).val = a.val := by
  show (sliceDims N E A B wf).start (ix3 e a b) idx 1 + (sliceDims N E A B wf).batchCoord (ix3 e a b) 1
    + (sliceDims N E A B wf).offCoord (ix3 e a b) 1 = _
  rw [GatherDims.batchCoord_eq_zero _ _ _ List.not_mem_nil, Nat.add_zero]
  have hnot : (1 : Fin 3) ∉ (sliceDims N E A B wf).startIndexMap := fin3_one_notMem
  have hk : (1 : Fin 3) ∈ (sliceDims N E A B wf).sKept :=
    (GatherDims.mem_sKept _ _).mpr ⟨fin3_one_notMem, List.not_mem_nil⟩
  unfold GatherDims.start GatherDims.offCoord
  rw [dif_neg hnot, dif_pos hk, Nat.zero_add]
  rfl

/-- On the last axis the operand index is the result's last coordinate: the start is zero, and the second offset axis
    carries the coordinate. -/
private theorem sliceDims_operandIdx_last {N E A B w : Nat}
    (wf : GatherDims.WF ⟨3, ![N, A, B]⟩ ⟨2, ![E, 1]⟩ ⟨3, ![E, A, B]⟩ [1, 2] [0] [] [0] [] 1 ![1, A, B])
    (idx : IVec ⟨2, ![E, 1]⟩ w) (e : Fin E) (a : Fin A) (b : Fin B) :
    ((sliceDims N E A B wf).operandIdx (ix3 e a b) idx 2).val = b.val := by
  show (sliceDims N E A B wf).start (ix3 e a b) idx 2 + (sliceDims N E A B wf).batchCoord (ix3 e a b) 2
    + (sliceDims N E A B wf).offCoord (ix3 e a b) 2 = _
  rw [GatherDims.batchCoord_eq_zero _ _ _ List.not_mem_nil, Nat.add_zero]
  have hnot : (2 : Fin 3) ∉ (sliceDims N E A B wf).startIndexMap := fin3_two_notMem
  have hk : (2 : Fin 3) ∈ (sliceDims N E A B wf).sKept :=
    (GatherDims.mem_sKept _ _).mpr ⟨fin3_two_notMem, List.not_mem_nil⟩
  unfold GatherDims.start GatherDims.offCoord
  rw [dif_neg hnot, dif_pos hk, Nat.zero_add]
  rfl

/-- Whole `A × B` slices gathered from a rank-3 array: slice e of the result is the operand's slice that index word e
    names, read here at one element (e, a, b). -/
theorem gather_rows3 {α : Type} {N E A B w : Nat} (d : GatherDims ⟨3, ![N, A, B]⟩ ⟨2, ![E, 1]⟩ ⟨3, ![E, A, B]⟩)
    (h1 : d.offsetDims = [1, 2]) (h2 : d.collapsedSliceDims = [0]) (h3 : d.operandBatchingDims = [])
    (h4 : d.startIndicesBatchingDims = []) (h5 : d.startIndexMap = [0]) (h6 : d.indexVectorDim = 1)
    (h7 : d.sliceSizes = ![1, A, B])
    (x : (⟨3, ![N, A, B]⟩ : Shape).Idx → α) (idx : IVec ⟨2, ![E, 1]⟩ w)
    (f : Fin E → Fin N) (hf : ∀ e : Fin E, (idx (ix2 e (0 : Fin 1))).toInt = ((f e).val : Int)) (e : Fin E) (a : Fin A) (b : Fin B) :
    Host.gather d x idx (ix3 e a b) = x (ix3 (f e) a b) := by
  obtain ⟨od, cs, ob, sb, sim, iv, ss, wf⟩ := d
  simp only at h1 h2 h3 h4 h5 h6 h7
  subst h1 h2 h3 h4 h5 h6 h7
  show x ((sliceDims N E A B wf).operandIdx (ix3 e a b) idx) = _
  congr 1
  funext c
  refine Fin.ext ?_
  match c with
  | ⟨0, _⟩ =>
    have h0 := (f e).isLt
    have := sliceDims_operandIdx_lead wf idx e a b
    rw [hf e, Int.toNat_natCast] at this
    show ((sliceDims N E A B wf).operandIdx (ix3 e a b) idx 0).val = (f e).val
    rw [this]
    omega
  | ⟨1, _⟩ => exact sliceDims_operandIdx_mid wf idx e a b
  | ⟨2, _⟩ => exact sliceDims_operandIdx_last wf idx e a b

/-! ## The scatter-add of whole slices -/

/-- Of three axes, axis 0 is not among the two trailing axes, and each trailing axis is. -/
private theorem fin3_zero_notMem : (0 : Fin 3) ∉ ([1, 2] : List (Fin 3)) := by decide
private theorem fin3_one_mem : (1 : Fin 3) ∈ ([1, 2] : List (Fin 3)) := by decide
private theorem fin3_two_mem : (2 : Fin 3) ∈ ([1, 2] : List (Fin 3)) := by decide

/-- A rank-3 index set is the product of its three coordinate ranges … -/
private def idxEquiv3 {n0 n1 n2 : Nat} : (⟨3, ![n0, n1, n2]⟩ : Shape).Idx ≃ Fin n0 × Fin n1 × Fin n2 where
  toFun j := (j 0, j 1, j 2)
  invFun p := ix3 p.1 p.2.1 p.2.2
  left_inv j := (eq_ix3 j).symm
  right_inv _ := rfl

/-- … so a sum over it is the triple sum over the coordinates. -/
private theorem sum_idx3 {M : Type*} [AddCommMonoid M] {n0 n1 n2 : Nat} (g : (⟨3, ![n0, n1, n2]⟩ : Shape).Idx → M) :
    ∑ j, g j = ∑ a : Fin n0, ∑ b : Fin n1, ∑ c : Fin n2, g (ix3 a b c) := by
  rw [← Equiv.sum_comp (idxEquiv3 (n0 := n0) (n1 := n1) (n2 := n2)).symm g, Fintype.sum_prod_type]
  refine Finset.sum_congr rfl fun a _ => ?_
  rw [Fintype.sum_prod_type]
  rfl

/-- A double sum against the indicator of one pair is the summand at that pair. -/
private theorem sum_sum_pair {M : Type*} [AddCommMonoid M] {A B : Nat} (a : Fin A) (b : Fin B) (G : Fin A → Fin B → M) :
    ∑ a' : Fin A, ∑ b' : Fin B, (if a' = a then (if b' = b then G a' b' else 0) else 0) = G a b := by
  have hin : ∀ a' : Fin A, ∑ b' : Fin B, (if a' = a then (if b' = b then G a' b' else 0) else 0)
      = if a' = a then G a' b else 0 := by
    intro a'
    by_cases h : a' = a
    · simp only [if_pos h]
      rw [Finset.sum_ite_eq' Finset.univ b, if_pos (Finset.mem_univ b)]
    · simp only [if_neg h]
      exact Finset.sum_const_zero
  rw [Finset.sum_congr rfl fun a' _ => hin a', Finset.sum_ite_eq' Finset.univ a, if_pos (Finset.mem_univ a)]

/-- Update (e, a', b') of the slice scatter lands on the element (a', b') of the slice its index word names: on the
    leading axis the start is that word and the window coordinate 0 (the axis is inserted); on the two trailing axes
    the start is 0 (the map does not name them) and the window coordinates are a' and b'. -/
private theorem slices_resultIdx {N E A B w : Nat} (d : ScatterDims ⟨3, ![N, A, B]⟩ ⟨2, ![E, 1]⟩ ⟨3, ![E, A, B]⟩)
    (h1 : d.updateWindowDims = [1, 2]) (h2 : d.insertedWindowDims = [0]) (h3 : d.scatterDimsToOperandDims = [0])
    (h4 : d.indexVectorDim = 1)
    (idx : IVec ⟨2, ![E, 1]⟩ w)
    (f : Fin E → Fin N) (hf : ∀ e : Fin E, (idx (ix2 e (0 : Fin 1))).toInt = ((f e).val : Int))
    (e : Fin E) (a' : Fin A) (b' : Fin B) :
    d.resultIdx? (ix3 e a' b') idx = some (ix3 (f e) a' b') := by
  obtain ⟨uw, iw, sd, iv, wf⟩ := d
  simp only at h1 h2 h3 h4
  subst h1 h2 h3 h4
  set D : ScatterDims ⟨3, ![N, A, B]⟩ ⟨2, ![E, 1]⟩ ⟨3, ![E, A, B]⟩ := ⟨[1, 2], [0], [0], 1, wf⟩ with hD
  have hwin0 : D.window (ix3 e a' b') 0 = 0 := by
    unfold ScatterDims.window
    split
    · rename_i h; exact absurd h fin3_zero_notMem
    · rfl
  have hwin1 : D.window (ix3 e a' b') 1 = a'.val := by
    unfold ScatterDims.window
    split
    · rfl
    · rename_i h; exact absurd fin3_one_mem h
  have hwin2 : D.window (ix3 e a' b') 2 = b'.val := by
    unfold ScatterDims.window
    split
    · rfl
    · rename_i h; exact absurd fin3_two_mem h
  have hstart0 : D.start (ix3 e a' b') idx 0 = ((f e).val : Int) := by
    unfold ScatterDims.start
    rw [dif_pos (show (0 : Fin 3) ∈ D.scatterDimsToOperandDims from List.mem_singleton.mpr rfl)]
    rw [← hf e]
    congr 2
    funext c; refine Fin.ext ?_
    match c with
    | ⟨0, _⟩ => rfl
    | ⟨1, _⟩ => rfl
  have hstart1 : D.start (ix3 e a' b') idx 1 = 0 := by
    unfold ScatterDims.start
    split
    · rename_i h; exact absurd h fin3_one_notMem
    · rfl
  have hstart2 : D.start (ix3 e a' b') idx 2 = 0 := by
    unfold ScatterDims.start
    split
    · rename_i h; exact absurd h fin3_two_notMem
    · rfl
  unfold ScatterDims.resultIdx?
  have hall : ∀ c, 0 ≤ D.start (ix3 e a' b') idx c + D.window (ix3 e a' b') c ∧
      D.start (ix3 e a' b') idx c + D.window (ix3 e a' b') c < (⟨3, ![N, A, B]⟩ : Shape).size c := by
    intro c
    match c with
    | ⟨0, _⟩ =>
      show 0 ≤ D.start (ix3 e a' b') idx 0 + D.window (ix3 e a' b') 0 ∧
        D.start (ix3 e a' b') idx 0 + D.window (ix3 e a' b') 0 < (N : Int)
      rw [hwin0, hstart0]
      have := (f e).isLt
      omega
    | ⟨1, _⟩ =>
      show 0 ≤ D.start (ix3 e a' b') idx 1 + D.window (ix3 e a' b') 1 ∧
        D.start (ix3 e a' b') idx 1 + D.window (ix3 e a' b') 1 < (A : Int)
      rw [hwin1, hstart1]
      have := a'.isLt
      omega
    | ⟨2, _⟩ =>
      show 0 ≤ D.start (ix3 e a' b') idx 2 + D.window (ix3 e a' b') 2 ∧
        D.start (ix3 e a' b') idx 2 + D.window (ix3 e a' b') 2 < (B : Int)
      rw [hwin2, hstart2]
      have := b'.isLt
      omega
  rw [dif_pos hall]
  congr 1
  funext c
  refine Fin.ext ?_
  match c with
  | ⟨0, _⟩ =>
    show (D.start (ix3 e a' b') idx 0 + D.window (ix3 e a' b') 0).toNat = (f e).val
    rw [hwin0, hstart0]
    omega
  | ⟨1, _⟩ =>
    show (D.start (ix3 e a' b') idx 1 + D.window (ix3 e a' b') 1).toNat = a'.val
    rw [hwin1, hstart1]
    omega
  | ⟨2, _⟩ =>
    show (D.start (ix3 e a' b') idx 2 + D.window (ix3 e a' b') 2).toNat = b'.val
    rw [hwin2, hstart2]
    omega

/-- Whole `A × B` slices added into a rank-3 array: slice i of the result is slice i of the operand plus the update
    slices whose index word names i, read here at one element (i, a, b). -/
theorem scatterAdd_rows3 {N E A B w : Nat} (d : ScatterDims ⟨3, ![N, A, B]⟩ ⟨2, ![E, 1]⟩ ⟨3, ![E, A, B]⟩)
    (h1 : d.updateWindowDims = [1, 2]) (h2 : d.insertedWindowDims = [0]) (h3 : d.scatterDimsToOperandDims = [0])
    (h4 : d.indexVectorDim = 1)
    (x : (⟨3, ![N, A, B]⟩ : Shape).Idx → EReal) (idx : IVec ⟨2, ![E, 1]⟩ w) (upd : (⟨3, ![E, A, B]⟩ : Shape).Idx → EReal)
    (f : Fin E → Fin N) (hf : ∀ e : Fin E, (idx (ix2 e (0 : Fin 1))).toInt = ((f e).val : Int)) (i : Fin N) (a : Fin A) (b : Fin B) :
    Ideal.hostScatterAdd d x idx upd (ix3 i a b)
      = x (ix3 i a b) + ∑ e ∈ Finset.univ.filter (fun e => f e = i), upd (ix3 e a b) := by
  unfold Ideal.hostScatterAdd
  congr 1
  rw [Finset.sum_filter, Finset.sum_filter, sum_idx3]
  refine Finset.sum_congr rfl fun e _ => ?_
  have hinner : ∀ (a' : Fin A) (b' : Fin B),
      (if d.resultIdx? (ix3 e a' b') idx = some (ix3 i a b) then upd (ix3 e a' b') else 0)
        = if a' = a then (if b' = b then (if f e = i then upd (ix3 e a' b') else 0) else 0) else 0 := by
    intro a' b'
    rw [slices_resultIdx d h1 h2 h3 h4 idx f hf e a' b']
    by_cases ha : a' = a
    · rw [if_pos ha]
      by_cases hb : b' = b
      · rw [if_pos hb]
        refine if_congr ?_ rfl rfl
        constructor
        · intro h
          exact congrFun (Option.some.inj h) 0
        · intro h
          rw [h, ha, hb]
      · rw [if_neg hb, if_neg]
        intro h
        exact hb (congrFun (Option.some.inj h) 2)
    · rw [if_neg ha, if_neg]
      intro h
      exact ha (congrFun (Option.some.inj h) 1)
  rw [Finset.sum_congr rfl fun a' _ => Finset.sum_congr rfl fun b' _ => hinner a' b']
  exact sum_sum_pair a b fun a' b' => if f e = i then upd (ix3 e a' b') else 0

end Cert.GNN.Lib

end
-- ==== Proof.SumByTarget.lean ====
/-
  The last stage of the two programs is one function. Each edge e carries a message: the projected features of its
  source node, scaled head by head by the edge's attention weight; each node collects the sum of the messages of the
  edges that point at it. One program keeps the 64 features of a node as one flat row and repeats each head's weight
  over the head's 16 columns; the other keeps them as 4 heads of 16 features and flattens the sums at the end.
  Column q of the flat row is feature q mod 16 of head q div 16, so at every node n and column q both are
    ∑ over the edges e with target n of  h[source e, q] · attn[e, q div 16].
-/
import proofs.«419565_j82154134438199_3_alg».proof.Proof.EdgeStages
import proofs.«419565_j82154134438199_3_alg».proof.Proof.LibGather
import proofs.«419565_j82154134438199_3_alg».proof.Proof.LibScatterRows
import proofs.«419565_j82154134438199_3_alg».proof.Proof.LibRows3
import proofs.«419565_j82154134438199_3_alg».proof.Proof.Gen.ReferenceIdeal
import Idealize.ShloMosaic.Lib.Pipeline.Value
import Idealize.ShloMosaic.Lib.ValueIdx
import Idealize.ShloMosaic.PureOps.Ideal.Laws

noncomputable section

open scoped BigOperators

namespace Cert.SumByTarget

open Idealize.ShloMosaic Idealize.ShloMosaic.ValueIdx

/-! ## Reads at an index -/

/-- A vector of 1600000 entries kept as a column reads, at row e, the vector's entry e. -/
private theorem col_apply {α : Type}
    (hb : (⟨1, ![1600000]⟩ : Shape).BroadcastsInDim ⟨2, ![1600000, 1]⟩ (![0] : Fin 1 → Fin 2))
    (v : (⟨1, ![1600000]⟩ : Shape).Idx → α) (e : Fin 1600000) :
    broadcastInDim ⟨2, ![1600000, 1]⟩ (![0] : Fin 1 → Fin 2) hb v (ix2 e (0 : Fin 1)) = v (ix1 e) :=
  broadcastInDim_apply _ hb v _ (ix1 e) fun a => match a with
    | ⟨0, _⟩ => by show e.val = if (1600000 : Nat) = 1 then 0 else e.val; rw [if_neg (by decide)]

/-- The zero array reads 0 everywhere. -/
private theorem zero_apply {t : Shape} (hb : (⟨0, ![]⟩ : Shape).BroadcastsInDim t (![] : Fin 0 → Fin t.rank)) (i : t.Idx) :
    broadcastInDim t ![] hb (constant (F := Ideal) ⟨0, ![]⟩ .f32 0x00000000#32) i = 0 :=
  Ideal.ofBits_zero_f32

/-- Column q of a flat row of 64 is feature q mod 16 of head q div 16: the [·, 4, 16] array flattened to [·, 64]. -/
private theorem flatten_apply {α : Type} {N : Nat} (hc : (⟨3, ![N, 4, 16]⟩ : Shape).ShapeCasts ⟨2, ![N, 64]⟩)
    (y : (⟨3, ![N, 4, 16]⟩ : Shape).Idx → α) (n : Fin N) (q : Fin 64) :
    shapeCast ⟨2, ![N, 64]⟩ y hc (ix2 n q)
      = y (ix3 n (⟨q.val / 16, by omega⟩ : Fin 4) (⟨q.val % 16, by omega⟩ : Fin 16)) :=
  shapeCast_apply y hc _ _ (by
    rw [Shape.rowMajor_val_three, Shape.rowMajor_val_two]
    show (n.val * 4 + q.val / 16) * 16 + q.val % 16 = n.val * 64 + q.val
    omega)

/-- The other way round: the flat [·, 64] array read as [·, 4, 16]. -/
private theorem unflatten_apply {α : Type} {N : Nat} (hc : (⟨2, ![N, 64]⟩ : Shape).ShapeCasts ⟨3, ![N, 4, 16]⟩)
    (y : (⟨2, ![N, 64]⟩ : Shape).Idx → α) (n : Fin N) (q : Fin 64) :
    shapeCast ⟨3, ![N, 4, 16]⟩ y hc (ix3 n (⟨q.val / 16, by omega⟩ : Fin 4) (⟨q.val % 16, by omega⟩ : Fin 16))
      = y (ix2 n q) :=
  shapeCast_apply y hc _ _ (by
    rw [Shape.rowMajor_val_three, Shape.rowMajor_val_two]
    show n.val * 64 + q.val = (n.val * 4 + q.val / 16) * 16 + q.val % 16
    omega)

/-- A per-head weight repeated over the head's 16 features, in two steps ([E, 4] → [E, 4, 1] → [E, 4, 16]),
    reads at (e, a, b) the weight of head a of edge e. -/
private theorem heads_apply {α : Type}
    (hb1 : (⟨2, ![1600000, 4]⟩ : Shape).BroadcastsInDim ⟨3, ![1600000, 4, 1]⟩ (![0, 1] : Fin 2 → Fin 3))
    (hb2 : (⟨3, ![1600000, 4, 1]⟩ : Shape).BroadcastsInDim ⟨3, ![1600000, 4, 16]⟩ (![0, 1, 2] : Fin 3 → Fin 3))
    (w : (⟨2, ![1600000, 4]⟩ : Shape).Idx → α) (e : Fin 1600000) (a : Fin 4) (b : Fin 16) :
    broadcastInDim ⟨3, ![1600000, 4, 16]⟩ (![0, 1, 2] : Fin 3 → Fin 3) hb2
        (broadcastInDim ⟨3, ![1600000, 4, 1]⟩ (![0, 1] : Fin 2 → Fin 3) hb1 w) (ix3 e a b) = w (ix2 e a) := by
  refine (broadcastInDim_apply _ hb2 _ _ (ix3 e a (0 : Fin 1)) fun c => match c with
    | ⟨0, _⟩ => by show e.val = if (1600000 : Nat) = 1 then 0 else e.val; rw [if_neg (by decide)]
    | ⟨1, _⟩ => by show a.val = if (4 : Nat) = 1 then 0 else a.val; rw [if_neg (by decide)]
    | ⟨2, _⟩ => by show 0 = if (1 : Nat) = 1 then 0 else b.val; rw [if_pos rfl]).trans ?_
  exact broadcastInDim_apply _ hb1 w _ (ix2 e a) fun c => match c with
    | ⟨0, _⟩ => by show e.val = if (1600000 : Nat) = 1 then 0 else e.val; rw [if_neg (by decide)]
    | ⟨1, _⟩ => by show a.val = if (4 : Nat) = 1 then 0 else a.val; rw [if_neg (by decide)]

/-- The same repetition in one step ([E, 4] → [E, 4, 16]). -/
private theorem heads1_apply {α : Type}
    (hb : (⟨2, ![1600000, 4]⟩ : Shape).BroadcastsInDim ⟨3, ![1600000, 4, 16]⟩ (![0, 1] : Fin 2 → Fin 3))
    (w : (⟨2, ![1600000, 4]⟩ : Shape).Idx → α) (e : Fin 1600000) (a : Fin 4) (b : Fin 16) :
    broadcastInDim ⟨3, ![1600000, 4, 16]⟩ (![0, 1] : Fin 2 → Fin 3) hb w (ix3 e a b) = w (ix2 e a) :=
  broadcastInDim_apply _ hb w _ (ix2 e a) fun c => match c with
    | ⟨0, _⟩ => by show e.val = if (1600000 : Nat) = 1 then 0 else e.val; rw [if_neg (by decide)]
    | ⟨1, _⟩ => by show a.val = if (4 : Nat) = 1 then 0 else a.val; rw [if_neg (by decide)]

/-- The flat program's per-feature weight at (e, q) is the weight of head q div 16 of edge e. -/
private theorem perFeature_apply (attn : Cert.KernelIdeal.S1600000x4.Idx → EReal) (e : Fin 1600000) (q : Fin 64) :
    Cert.KernelIdeal.Edge.perFeature (F := Ideal) attn (ix2 e q) = attn (ix2 e (⟨q.val / 16, by omega⟩ : Fin 4)) :=
  (flatten_apply _ _ e q).trans (heads1_apply _ attn e _ _)

/-- The index words as a column, read at row e. -/
private theorem column_apply (idx : IVec Cert.KernelIdeal.S1600000 32) (e : Fin 1600000) :
    Cert.KernelIdeal.TakeRows.column idx (ix2 e (0 : Fin 1)) = idx (ix1 e) :=
  col_apply _ idx e

/-- Words in [0, 100000) are node numbers. -/
private theorem words_as_nodes (w : IVec Cert.KernelIdeal.S1600000 32)
    (hw : ∀ e, 0 ≤ (w e).toInt ∧ (w e).toInt < 100000) :
    ∃ f : Fin 1600000 → Fin 100000, ∀ e : Fin 1600000, (w (ix1 e)).toInt = ((f e).val : Int) := by
  refine ⟨fun e => ⟨(w (ix1 e)).toInt.toNat, ?_⟩, fun e => ?_⟩
  · have := hw (ix1 e); omega
  · have := hw (ix1 e); show _ = ((Int.toNat _ : Nat) : Int); omega

/-! ## The two programs' sums and messages at an element -/

/-- Summing rows by target node from zero, at the exact reals, is the exact scatter sum. -/
private theorem nodeSum64_def (trg : IVec Cert.KernelIdeal.S1600000 32) (u : FVec Ideal Cert.KernelIdeal.S1600000x64 .f32) :
    Cert.KernelIdeal.Edge.nodeSum64 (F := Ideal) trg u
      = Ideal.hostScatterAdd Cert.KernelIdeal.scatter_S100000x64_S1600000x1_S1600000x64_1_0_0_1
          (broadcastInDim Cert.KernelIdeal.S100000x64 ![] Cert.KernelIdeal.Gen.bcast_S_S100000x64 (constant (F := Ideal) Cert.KernelIdeal.S_ .f32 0x00000000#32))
          (Cert.KernelIdeal.TakeRows.column trg) u :=
  Ideal.hostScatterAdd_def _ HostSchedule.single _ _ _

/-- Row n, column q of the rows summed by target: the sum of column q over the edges whose target is n. -/
private theorem nodeSum64_apply (trg : IVec Cert.KernelIdeal.S1600000 32) (u : FVec Ideal Cert.KernelIdeal.S1600000x64 .f32)
    (ft : Fin 1600000 → Fin 100000) (hft : ∀ e : Fin 1600000, (trg (ix1 e)).toInt = ((ft e).val : Int))
    (n : Fin 100000) (q : Fin 64) :
    Cert.KernelIdeal.Edge.nodeSum64 (F := Ideal) trg u (ix2 n q) = ∑ e ∈ Finset.univ.filter (fun e => ft e = n), u (ix2 e q) := by
  rw [nodeSum64_def]
  rw [Cert.GNN.Lib.scatterAdd_rows Cert.KernelIdeal.scatter_S100000x64_S1600000x1_S1600000x64_1_0_0_1
    rfl rfl rfl rfl _ _ _ ft (fun e => (congrArg BitVec.toInt (column_apply trg e)).trans (hft e)) n q]
  rw [zero_apply, zero_add]

/-- The flat program's message of edge e at column q: the source's feature q times the weight of head q div 16. -/
private theorem flat_message (h : Cert.KernelIdeal.S100000x64.Idx → EReal) (attn : Cert.KernelIdeal.S1600000x4.Idx → EReal)
    (src : IVec Cert.KernelIdeal.S1600000 32)
    (fs : Fin 1600000 → Fin 100000) (hfs : ∀ e : Fin 1600000, (src (ix1 e)).toInt = ((fs e).val : Int))
    (e : Fin 1600000) (q : Fin 64) :
    mulf (Host.gather Cert.KernelIdeal.gather_S100000x64_S1600000x1_S1600000x64_1_0_n_n_0_1_164 h (Cert.KernelIdeal.TakeRows.column src))
        (Cert.KernelIdeal.Edge.perFeature (F := Ideal) attn) (ix2 e q)
      = h (ix2 (fs e) q) * attn (ix2 e (⟨q.val / 16, by omega⟩ : Fin 4)) := by
  rw [mulf_apply, Cert.GNN.Lib.gather_rows Cert.KernelIdeal.gather_S100000x64_S1600000x1_S1600000x64_1_0_n_n_0_1_164
    rfl rfl rfl rfl rfl rfl rfl h _ fs (fun e => (congrArg BitVec.toInt (column_apply src e)).trans (hfs e)) e q,
    perFeature_apply]

/-- At the exact reals the host's accumulating scatter is the exact scatter sum. -/
private theorem scatterAdd_ideal {s si u : Shape} {w : Nat} (d : ScatterDims s si u) (x : FVec Ideal s .f32)
    (idx : IVec si w) (upd : FVec Ideal u .f32) :
    Host.scatterAdd (F := Ideal) d x idx upd = Ideal.hostScatterAdd d x idx upd :=
  Ideal.hostScatterAdd_def d HostSchedule.single x idx upd

/-- Node n, head a, feature b of the slices summed by target: the sum of that element over the edges whose target is n. -/
private theorem headSum_apply (trg : IVec Cert.ReferenceIdeal.S1600000 32) (upd : FVec Ideal Cert.ReferenceIdeal.S1600000x4x16 .f32)
    (ft : Fin 1600000 → Fin 100000) (hft : ∀ e : Fin 1600000, (trg (ix1 e)).toInt = ((ft e).val : Int))
    (n : Fin 100000) (a : Fin 4) (b : Fin 16) :
    Host.scatterAdd (F := Ideal) Cert.ReferenceIdeal.scatter_S100000x4x16_S1600000x1_S1600000x4x16_12_0_0_1
        (broadcastInDim Cert.ReferenceIdeal.S100000x4x16 ![] Cert.ReferenceIdeal.Gen.bcast_S_S100000x4x16 (constant (F := Ideal) Cert.ReferenceIdeal.S_ .f32 0x00000000#32))
        (broadcastInDim Cert.ReferenceIdeal.S1600000x1 ![0] Cert.ReferenceIdeal.Gen.bcast_S1600000_S1600000x1_0 trg)
        upd (ix3 n a b)
      = ∑ e ∈ Finset.univ.filter (fun e => ft e = n), upd (ix3 e a b) := by
  rw [scatterAdd_ideal]
  rw [Cert.GNN.Lib.scatterAdd_rows3 Cert.ReferenceIdeal.scatter_S100000x4x16_S1600000x1_S1600000x4x16_12_0_0_1
    rfl rfl rfl rfl _ _ _ ft (fun e => (congrArg BitVec.toInt (col_apply _ trg e)).trans (hft e)) n a b]
  rw [zero_apply, zero_add]

/-- The other program's message of edge e at head q div 16, feature q mod 16: the same product. -/
private theorem heads_message (h : Cert.KernelIdeal.S100000x64.Idx → EReal) (attn : Cert.KernelIdeal.S1600000x4.Idx → EReal)
    (src : IVec Cert.KernelIdeal.S1600000 32)
    (fs : Fin 1600000 → Fin 100000) (hfs : ∀ e : Fin 1600000, (src (ix1 e)).toInt = ((fs e).val : Int))
    (e : Fin 1600000) (q : Fin 64) :
    mulf (F := Ideal) (φ := .f32) (Host.gather Cert.ReferenceIdeal.gather_S100000x4x16_S1600000x1_S1600000x4x16_12_0_n_n_0_1_1416
            (shapeCast Cert.ReferenceIdeal.S100000x4x16 h Cert.ReferenceIdeal.Gen.shapeCasts_S100000x64_S100000x4x16)
            (broadcastInDim Cert.ReferenceIdeal.S1600000x1 ![0] Cert.ReferenceIdeal.Gen.bcast_S1600000_S1600000x1_0 src))
          (broadcastInDim Cert.ReferenceIdeal.S1600000x4x16 ![0, 1, 2] Cert.ReferenceIdeal.Gen.bcast_S1600000x4x1_S1600000x4x16_0_1_2
            (broadcastInDim Cert.ReferenceIdeal.S1600000x4x1 ![0, 1] Cert.ReferenceIdeal.Gen.bcast_S1600000x4_S1600000x4x1_0_1 attn))
        (ix3 e (⟨q.val / 16, by omega⟩ : Fin 4) (⟨q.val % 16, by omega⟩ : Fin 16))
      = h (ix2 (fs e) q) * attn (ix2 e (⟨q.val / 16, by omega⟩ : Fin 4)) := by
  rw [mulf_apply, Cert.GNN.Lib.gather_rows3 Cert.ReferenceIdeal.gather_S100000x4x16_S1600000x1_S1600000x4x16_12_0_n_n_0_1_1416
    rfl rfl rfl rfl rfl rfl rfl _ _ fs (fun e => (congrArg BitVec.toInt (col_apply _ src e)).trans (hfs e)) e _ _,
    unflatten_apply, heads_apply]

/-! ## The two sums -/

/-- Messages summed by target node over 64 flat columns, and over 4 heads of 16 features then flattened, agree
    when every source and target word is a node number. -/
theorem flat_eq_heads (h : Cert.KernelIdeal.S100000x64.Idx → EReal) (attn : Cert.KernelIdeal.S1600000x4.Idx → EReal)
    (src trg : IVec Cert.KernelIdeal.S1600000 32)
    (hs : ∀ e, 0 ≤ (src e).toInt ∧ (src e).toInt < 100000) (ht : ∀ e, 0 ≤ (trg e).toInt ∧ (trg e).toInt < 100000) :
    Cert.KernelIdeal.Edge.nodeSum64 (F := Ideal) trg
        (mulf (Host.gather Cert.KernelIdeal.gather_S100000x64_S1600000x1_S1600000x64_1_0_n_n_0_1_164 h (Cert.KernelIdeal.TakeRows.column src))
          (Cert.KernelIdeal.Edge.perFeature (F := Ideal) attn))
      = shapeCast Cert.ReferenceIdeal.S100000x64
          (Host.scatterAdd (F := Ideal) Cert.ReferenceIdeal.scatter_S100000x4x16_S1600000x1_S1600000x4x16_12_0_0_1
            (broadcastInDim Cert.ReferenceIdeal.S100000x4x16 ![] Cert.ReferenceIdeal.Gen.bcast_S_S100000x4x16 (constant (F := Ideal) Cert.ReferenceIdeal.S_ .f32 0x00000000#32))
            (broadcastInDim Cert.ReferenceIdeal.S1600000x1 ![0] Cert.ReferenceIdeal.Gen.bcast_S1600000_S1600000x1_0 trg)
            (mulf (Host.gather Cert.ReferenceIdeal.gather_S100000x4x16_S1600000x1_S1600000x4x16_12_0_n_n_0_1_1416
                    (shapeCast Cert.ReferenceIdeal.S100000x4x16 h Cert.ReferenceIdeal.Gen.shapeCasts_S100000x64_S100000x4x16)
                    (broadcastInDim Cert.ReferenceIdeal.S1600000x1 ![0] Cert.ReferenceIdeal.Gen.bcast_S1600000_S1600000x1_0 src))
                  (broadcastInDim Cert.ReferenceIdeal.S1600000x4x16 ![0, 1, 2] Cert.ReferenceIdeal.Gen.bcast_S1600000x4x1_S1600000x4x16_0_1_2
                    (broadcastInDim Cert.ReferenceIdeal.S1600000x4x1 ![0, 1] Cert.ReferenceIdeal.Gen.bcast_S1600000x4_S1600000x4x1_0_1 attn))))
          Cert.ReferenceIdeal.Gen.shapeCasts_S100000x4x16_S100000x64 := by
  -- every source and target word is a node number
  obtain ⟨fs, hfs⟩ := words_as_nodes src hs
  obtain ⟨ft, hft⟩ := words_as_nodes trg ht
  funext i
  obtain ⟨n, q, rfl⟩ : ∃ (n : Fin 100000) (q : Fin 64), i = ix2 n q := ⟨i 0, i 1, eq_ix2 i⟩
  -- both sides are the sum, over the edges into n, of the source's feature q times the weight of head q div 16
  trans ∑ e ∈ Finset.univ.filter (fun e => ft e = n), h (ix2 (fs e) q) * attn (ix2 e (⟨q.val / 16, by omega⟩ : Fin 4))
  · -- flat rows
    rw [nodeSum64_apply trg _ ft hft n q]
    exact Finset.sum_congr rfl fun e _ => flat_message h attn src fs hfs e q
  · -- heads of 16, flattened at the end
    symm
    rw [flatten_apply, headSum_apply trg _ ft hft n _ _]
    exact Finset.sum_congr rfl fun e _ => heads_message h attn src fs hfs e q

end Cert.SumByTarget

end
-- ==== Proof.RefResult.lean ====
/-
  The reference program's result is the kernel program's aggregation of the reference's own first stages.

  When every index word lies in [0, 100000) no word is negative, so the reference's "add 100000 to a negative word"
  leaves the words as they are and a row lookup is the plain gather of the rows the words name. The reference then
  forms, per edge and head, the score el[src] + er[trg], its leaky ReLU, the exponential of its difference from the
  global maximum, the sums of those exponentials by target node, and the quotient of each exponential by its
  target's sum plus 1e-16: operation by operation these are the kernel program's stages of the same names, applied
  to the same operands.
-/
import proofs.«419565_j82154134438199_3_alg».proof.Proof.Gen.ReferenceIdeal.Read
import proofs.«419565_j82154134438199_3_alg».proof.Proof.EdgeStages
import proofs.«419565_j82154134438199_3_alg».proof.Proof.SumByTarget

noncomputable section

namespace Cert.ReferenceIdeal.RefResult

open Idealize.ShloMosaic Cert.ReferenceIdeal.Read

/-! ## The index words are not wrapped

Each of the reference's four "negative word gets 100000 added" selects returns its operand when no word is negative. -/

theorem words_v12 (x4 : IVec Cert.KernelIdeal.S1600000 32) (h4 : ∀ e, 0 ≤ (x4 e).toInt ∧ (x4 e).toInt < 100000) :
    val_main_v12 (F := Ideal) x4 = x4 := by
  unfold val_main_v12 val_main_v9 val_main_v11 val_main_v8 val_main_v10 val_main_c val_main_c_1
  exact Cert.KernelIdeal.TakeRows.wrapped_of_nonneg x4 fun e => (h4 e).1

theorem words_v49 (x4 : IVec Cert.KernelIdeal.S1600000 32) (h4 : ∀ e, 0 ≤ (x4 e).toInt ∧ (x4 e).toInt < 100000) :
    val_main_v49 (F := Ideal) x4 = x4 := by
  unfold val_main_v49 val_main_v46 val_main_v48 val_main_v45 val_main_v47 val_main_c_11 val_main_c_12
  exact Cert.KernelIdeal.TakeRows.wrapped_of_nonneg x4 fun e => (h4 e).1

theorem words_v19 (x5 : IVec Cert.KernelIdeal.S1600000 32) (h5 : ∀ e, 0 ≤ (x5 e).toInt ∧ (x5 e).toInt < 100000) :
    val_main_v19 (F := Ideal) x5 = x5 := by
  unfold val_main_v19 val_main_v16 val_main_v18 val_main_v15 val_main_v17 val_main_c_2 val_main_c_3
  exact Cert.KernelIdeal.TakeRows.wrapped_of_nonneg x5 fun e => (h5 e).1

theorem words_v39 (x5 : IVec Cert.KernelIdeal.S1600000 32) (h5 : ∀ e, 0 ≤ (x5 e).toInt ∧ (x5 e).toInt < 100000) :
    val_main_v39 (F := Ideal) x5 = x5 := by
  unfold val_main_v39 val_main_v36 val_main_v38 val_main_v35 val_main_v37 val_main_c_8 val_main_c_9
  exact Cert.KernelIdeal.TakeRows.wrapped_of_nonneg x5 fun e => (h5 e).1

/-! ## The attention weights, stage by stage -/

/-- The edge scores: el at the source plus er at the target. -/
theorem scores_eq (x0 : Cert.KernelIdeal.S100000x128.Idx → EReal) (x1 : Cert.KernelIdeal.S128x64.Idx → EReal)
    (x2 x3 : Cert.KernelIdeal.S1x4x16.Idx → EReal) (x4 x5 : IVec Cert.KernelIdeal.S1600000 32)
    (h4 : ∀ e, 0 ≤ (x4 e).toInt ∧ (x4 e).toInt < 100000) (h5 : ∀ e, 0 ≤ (x5 e).toInt ∧ (x5 e).toInt < 100000) :
    val_main_v22 (F := Ideal) x0 x1 x2 x3 x4 x5
      = addf (Cert.KernelIdeal.TakeRows.take4 (F := Ideal) (val_main_v4 (F := Ideal) x0 x1 x2) x4)
          (Cert.KernelIdeal.TakeRows.take4 (F := Ideal) (val_main_v7 (F := Ideal) x0 x1 x3) x5) := by
  rw [Cert.KernelIdeal.TakeRows.take4_eq_gather _ _ h4, Cert.KernelIdeal.TakeRows.take4_eq_gather _ _ h5]
  unfold val_main_v22 val_main_v14 val_main_v21 val_main_v13 val_main_v20
  rw [words_v12 x4 h4, words_v19 x5 h5]
  rfl

/-- Their leaky ReLU. -/
theorem leaky_eq (x0 : Cert.KernelIdeal.S100000x128.Idx → EReal) (x1 : Cert.KernelIdeal.S128x64.Idx → EReal)
    (x2 x3 : Cert.KernelIdeal.S1x4x16.Idx → EReal) (x4 x5 : IVec Cert.KernelIdeal.S1600000 32) :
    val_main_v27 (F := Ideal) x0 x1 x2 x3 x4 x5
      = Cert.KernelIdeal.Edge.leaky (F := Ideal) (val_main_v22 (F := Ideal) x0 x1 x2 x3 x4 x5) := by
  unfold val_main_v27 val_main_v24 val_main_v26 val_main_v23 val_main_v25 val_main_cst_4 val_main_cst_5
  rfl

/-- The exponentials of the differences from the global maximum. -/
theorem exp_eq (x0 : Cert.KernelIdeal.S100000x128.Idx → EReal) (x1 : Cert.KernelIdeal.S128x64.Idx → EReal)
    (x2 x3 : Cert.KernelIdeal.S1x4x16.Idx → EReal) (x4 x5 : IVec Cert.KernelIdeal.S1600000 32) :
    val_main_v31 (F := Ideal) x0 x1 x2 x3 x4 x5
      = Cert.KernelIdeal.Edge.shiftedExp (F := Ideal) (val_main_v27 (F := Ideal) x0 x1 x2 x3 x4 x5) := by
  unfold val_main_v31 val_main_v30 val_main_v29 val_main_v28 val_main_cst_6
  rfl

/-- The exponentials summed by target node. -/
theorem sums_eq (x0 : Cert.KernelIdeal.S100000x128.Idx → EReal) (x1 : Cert.KernelIdeal.S128x64.Idx → EReal)
    (x2 x3 : Cert.KernelIdeal.S1x4x16.Idx → EReal) (x4 x5 : IVec Cert.KernelIdeal.S1600000 32) :
    val_main_v34 (F := Ideal) x0 x1 x2 x3 x4 x5
      = Cert.KernelIdeal.Edge.nodeSum4 (F := Ideal) x5 (val_main_v31 (F := Ideal) x0 x1 x2 x3 x4 x5) := by
  unfold val_main_v34 val_main_v32 val_main_v33 val_main_cst_7
  rfl

/-- Each edge's target sum. -/
theorem denom_eq (x0 : Cert.KernelIdeal.S100000x128.Idx → EReal) (x1 : Cert.KernelIdeal.S128x64.Idx → EReal)
    (x2 x3 : Cert.KernelIdeal.S1x4x16.Idx → EReal) (x4 x5 : IVec Cert.KernelIdeal.S1600000 32)
    (h5 : ∀ e, 0 ≤ (x5 e).toInt ∧ (x5 e).toInt < 100000) :
    val_main_v41 (F := Ideal) x0 x1 x2 x3 x4 x5
      = Cert.KernelIdeal.TakeRows.take4 (F := Ideal) (val_main_v34 (F := Ideal) x0 x1 x2 x3 x4 x5) x5 := by
  rw [Cert.KernelIdeal.TakeRows.take4_eq_gather _ _ h5]
  unfold val_main_v41 val_main_v40
  rw [words_v39 x5 h5]
  rfl

/-- The quotient. -/
theorem quotient_eq (x0 : Cert.KernelIdeal.S100000x128.Idx → EReal) (x1 : Cert.KernelIdeal.S128x64.Idx → EReal)
    (x2 x3 : Cert.KernelIdeal.S1x4x16.Idx → EReal) (x4 x5 : IVec Cert.KernelIdeal.S1600000 32) :
    val_main_v44 (F := Ideal) x0 x1 x2 x3 x4 x5
      = Cert.KernelIdeal.Edge.normalised (F := Ideal) (val_main_v31 (F := Ideal) x0 x1 x2 x3 x4 x5)
          (val_main_v41 (F := Ideal) x0 x1 x2 x3 x4 x5) := by
  unfold val_main_v44 val_main_v43 val_main_v42 val_main_cst_10
  rfl

theorem attention_eq (x0 : Cert.KernelIdeal.S100000x128.Idx → EReal) (x1 : Cert.KernelIdeal.S128x64.Idx → EReal)
    (x2 x3 : Cert.KernelIdeal.S1x4x16.Idx → EReal) (x4 x5 : IVec Cert.KernelIdeal.S1600000 32)
    (h4 : ∀ e, 0 ≤ (x4 e).toInt ∧ (x4 e).toInt < 100000) (h5 : ∀ e, 0 ≤ (x5 e).toInt ∧ (x5 e).toInt < 100000) :
    val_main_v44 (F := Ideal) x0 x1 x2 x3 x4 x5
      = Cert.KernelIdeal.Edge.attention (F := Ideal) (val_main_v4 (F := Ideal) x0 x1 x2) (val_main_v7 (F := Ideal) x0 x1 x3) x4 x5 := by
  unfold Cert.KernelIdeal.Edge.attention Cert.KernelIdeal.Edge.edgeExp
  rw [← scores_eq x0 x1 x2 x3 x4 x5 h4 h5, ← leaky_eq, ← exp_eq, ← sums_eq, ← denom_eq x0 x1 x2 x3 x4 x5 h5]
  exact quotient_eq x0 x1 x2 x3 x4 x5

/-! ## The result -/

/-- The reference's last stage: the sources' projected features, viewed as 100000 x 4 x 16 and gathered by source,
    times the attention weights repeated over each head's 16 features, summed by target node and viewed again as
    100000 x 64. -/
theorem last_stage_eq (x0 : Cert.KernelIdeal.S100000x128.Idx → EReal) (x1 : Cert.KernelIdeal.S128x64.Idx → EReal)
    (x2 x3 : Cert.KernelIdeal.S1x4x16.Idx → EReal) (x4 x5 : IVec Cert.KernelIdeal.S1600000 32)
    (h4 : ∀ e, 0 ≤ (x4 e).toInt ∧ (x4 e).toInt < 100000) :
    val_main_v58 (F := Ideal) x0 x1 x2 x3 x4 x5
      = shapeCast Cert.ReferenceIdeal.S100000x64 (Host.scatterAdd (F := Ideal) Cert.ReferenceIdeal.scatter_S100000x4x16_S1600000x1_S1600000x4x16_12_0_0_1 (broadcastInDim Cert.ReferenceIdeal.S100000x4x16 ![] Cert.ReferenceIdeal.Gen.bcast_S_S100000x4x16 (constant (F := Ideal) Cert.ReferenceIdeal.S_ .f32 0x00000000#32)) (broadcastInDim Cert.ReferenceIdeal.S1600000x1 ![0] Cert.ReferenceIdeal.Gen.bcast_S1600000_S1600000x1_0 x5) (mulf (Host.gather Cert.ReferenceIdeal.gather_S100000x4x16_S1600000x1_S1600000x4x16_12_0_n_n_0_1_1416 (shapeCast Cert.ReferenceIdeal.S100000x4x16 (val_main_v0 (F := Ideal) x0 x1) Cert.ReferenceIdeal.Gen.shapeCasts_S100000x64_S100000x4x16) (broadcastInDim Cert.ReferenceIdeal.S1600000x1 ![0] Cert.ReferenceIdeal.Gen.bcast_S1600000_S1600000x1_0 x4)) (broadcastInDim Cert.ReferenceIdeal.S1600000x4x16 ![0, 1, 2] Cert.ReferenceIdeal.Gen.bcast_S1600000x4x1_S1600000x4x16_0_1_2 (broadcastInDim Cert.ReferenceIdeal.S1600000x4x1 ![0, 1] Cert.ReferenceIdeal.Gen.bcast_S1600000x4_S1600000x4x1_0_1 (val_main_v44 (F := Ideal) x0 x1 x2 x3 x4 x5))))) Cert.ReferenceIdeal.Gen.shapeCasts_S100000x4x16_S100000x64 := by
  unfold val_main_v58 val_main_v57 val_main_v54 val_main_v51 val_main_v50 val_main_v53 val_main_v52 val_main_v55 val_main_v56 val_main_v1 val_main_cst_13
  rw [words_v49 x4 h4]

theorem result_eq (x0 : Cert.KernelIdeal.S100000x128.Idx → EReal) (x1 : Cert.KernelIdeal.S128x64.Idx → EReal)
    (x2 x3 : Cert.KernelIdeal.S1x4x16.Idx → EReal) (x4 x5 : IVec Cert.KernelIdeal.S1600000 32)
    (h4 : ∀ e, 0 ≤ (x4 e).toInt ∧ (x4 e).toInt < 100000) (h5 : ∀ e, 0 ≤ (x5 e).toInt ∧ (x5 e).toInt < 100000) :
    val_main_v58 (F := Ideal) x0 x1 x2 x3 x4 x5
      = Cert.KernelIdeal.Edge.aggregate (F := Ideal) (val_main_v0 (F := Ideal) x0 x1) (val_main_v4 (F := Ideal) x0 x1 x2) (val_main_v7 (F := Ideal) x0 x1 x3) x4 x5 := by
  unfold Cert.KernelIdeal.Edge.aggregate
  rw [Cert.KernelIdeal.TakeRows.take64_eq_gather _ _ h4, ← attention_eq x0 x1 x2 x3 x4 x5 h4 h5]
  exact (last_stage_eq x0 x1 x2 x3 x4 x5 h4).trans (Cert.SumByTarget.flat_eq_heads (val_main_v0 (F := Ideal) x0 x1) (val_main_v44 (F := Ideal) x0 x1 x2 x3 x4 x5) x4 x5 h4 h5).symm

end Cert.ReferenceIdeal.RefResult

end
-- ==== Proof.KernelValue.lean ====
/-
  The kernel program's run with its result named: under the index range every weakly fair execution ends with
  the result buffer at the reference's own result function of the launch contents, and the arguments unchanged.

  The result buffer holds the aggregation of the three arrays the pallas_call leaves (TailValue); those arrays
  are the projected features and the two heads' logits of the arguments (Arrays); these are the reference
  program's first stages (RefLogits), and the aggregation of those is the reference's result (RefResult).
-/
import proofs.«419565_j82154134438199_3_alg».proof.Proof.TailValue
import proofs.«419565_j82154134438199_3_alg».proof.Proof.Arrays
import proofs.«419565_j82154134438199_3_alg».proof.Proof.RefLogits
import proofs.«419565_j82154134438199_3_alg».proof.Proof.RefResult

set_option maxRecDepth 16384

noncomputable section

namespace Cert.KernelIdeal.KernelValue

open Cert.KernelIdeal Cert.KernelIdeal.Gen Cert.KernelIdeal.HostLines Cert.KernelIdeal.BodyRun
open Cert.KernelIdeal.TakeRows Cert.KernelIdeal.Edge Cert.KernelIdeal.Spec
open Idealize.ShloMosaic Idealize.ShloMosaic.TcCoe Idealize.SL.Sem Idealize.ShloMosaic.StableHlo

variable (m : (ℓ : Loc nD τ sig) → Buf (Elt Ideal) ℓ) (ρ : Dev nD → PrngReg)

/-- The flattened left attention vector the region finds: the first reshape's value of the argument. -/
theorem V_main_v0 (c : Dev nD) :
    V m c main_v0 = shapeCast S1x64 (m ((c : Thread nD τ).loc main_arg2)) shapeCasts_S1x4x16_S1x64 := by
  show StableHlo.after (List.flatten [hostOps0 (F := Ideal)]) (fun b => m (c, b)) (Proc.devRef .tc main_v0) = _
  simp only [List.flatten_cons, List.flatten_nil, List.append_nil, hostOps0]
  after_results
  rfl

/-- The flattened right attention vector likewise. -/
theorem V_main_v1 (c : Dev nD) :
    V m c main_v1 = shapeCast S1x64 (m ((c : Thread nD τ).loc main_arg3)) shapeCasts_S1x4x16_S1x64 := by
  show StableHlo.after (List.flatten [hostOps0 (F := Ideal)]) (fun b => m (c, b)) (Proc.devRef .tc main_v1) = _
  simp only [List.flatten_cons, List.flatten_nil, List.append_nil, hostOps0]
  after_results
  rfl

/-- The reference's result function of the kernel program's launch contents. -/
abbrev expected (c : Dev nD) : S100000x64.Idx → EReal :=
  Cert.ReferenceIdeal.Read.val_main_v58 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

/-- What the result buffer holds after the operations that follow the call, when every index word is in range. -/
theorem result_expected (c : Dev nD)
    (h4 : ∀ e, 0 ≤ ((m ((c : Thread nD τ).loc main_arg4) : IVec S1600000 32) e).toInt ∧ ((m ((c : Thread nD τ).loc main_arg4) : IVec S1600000 32) e).toInt < 100000)
    (h5 : ∀ e, 0 ≤ ((m ((c : Thread nD τ).loc main_arg5) : IVec S1600000 32) e).toInt ∧ ((m ((c : Thread nD τ).loc main_arg5) : IVec S1600000 32) e).toInt < 100000) :
    Pipeline.afterTail₀ cfgs (dats m) 0 (V0 m) tailOps c main_v28 = expected m c := by
  rw [TailValue.result m c, Arrays.final4 m c, Arrays.final5 m c, Arrays.final6 m c,
    V_arg m c main_arg0 (by decide), V_arg m c main_arg1 (by decide), V_main_v0 m c, V_main_v1 m c,
    Cert.ReferenceIdeal.RefLogits.projected_eq, Cert.ReferenceIdeal.RefLogits.logits_left_eq, Cert.ReferenceIdeal.RefLogits.logits_right_eq]
  exact (Cert.ReferenceIdeal.RefResult.result_eq _ _ _ _ _ _ h4 h5).symm

/-- The run, read: the result at the reference's function of the launch contents, the arguments unchanged. -/
theorem run_value
    (hr : ∀ c : Dev nD, (∀ e, 0 ≤ ((m ((c : Thread nD τ).loc main_arg4) : IVec S1600000 32) e).toInt ∧ ((m ((c : Thread nD τ).loc main_arg4) : IVec S1600000 32) e).toInt < 100000)
      ∧ (∀ e, 0 ≤ ((m ((c : Thread nD τ).loc main_arg5) : IVec S1600000 32) e).toInt ∧ ((m ((c : Thread nD τ).loc main_arg5) : IVec S1600000 32) e).toInt < 100000)) :
    θ_run defs (onTc (τ := τ) (main (F := Ideal))) ⟨m, fun _ => 0, ρ⟩ (fun r => ∀ c : Dev nD,
      r.2.mem ((c.tc : Thread nD τ).loc main_v28) = expected m c ∧ ArgsKept m r c) :=
  (θ_run defs _ _).mono (fun r h c =>
    ⟨((h c).2 main_v28 (Pipeline.mem_restRefs_of main_v28 (by decide) (by decide))).trans (result_expected m c (hr c).1 (hr c).2),
     args_kept m (dats m) (A_eq m) r h c⟩) (run_main m ρ)

end Cert.KernelIdeal.KernelValue

end
-- ==== Proof.IndexRange.lean ====
/-
  The printed precondition read back at the two index inputs. The precondition's last two conjuncts are
  "and over every edge e of (0 ≤ w[e] and w[e] < 100000)" for the source words and for the target words;
  when the whole predicate is 1, every edge's source and target word, read signed, lies in [0, 100000).
-/
import proofs.«419565_j82154134438199_3_alg».proof.Pre_finite_inputs
import Idealize.ShloMosaic.Lib.ReduceAll
import Idealize.ShloMosaic.Lib.StableHlo.Predicate
import Idealize.ShloMosaic.Lib.ValueIdx

noncomputable section

namespace Cert.IndexRange

open Idealize.ShloMosaic

/-- One conjunct of the predicate: if the and-reduction over all positions of
    "x ≥ 0 and x < 100000" (both bounds broadcast scalars) is 1, every word of x is in [0, 100000). -/
private theorem range_of_all [Cert.Pre_finite_inputs.Facts] (x : IVec Cert.Pre_finite_inputs.S1600000 32)
    (init : IVec Cert.Pre_finite_inputs.S_ 1) (j : Cert.Pre_finite_inputs.S_.Idx)
    (h : Host.reduce IntOp.andi
          (andi
            (cmpi .sge x (broadcastInDim Cert.Pre_finite_inputs.S1600000 ![]
              Cert.Pre_finite_inputs.Facts.bcast_S_S1600000 (constantI Cert.Pre_finite_inputs.S_ 32 0#32)))
            (cmpi .slt x (broadcastInDim Cert.Pre_finite_inputs.S1600000 ![]
              Cert.Pre_finite_inputs.Facts.bcast_S_S1600000 (constantI Cert.Pre_finite_inputs.S_ 32 100000#32))))
          init Cert.Pre_finite_inputs.Facts.reducesTo_S1600000_S_d0 Cert.Pre_finite_inputs.Facts.h_S_ j = 1#1)
    (e : Cert.Pre_finite_inputs.S1600000.Idx) : 0 ≤ (x e).toInt ∧ (x e).toInt < 100000 := by
  -- the result shape is the scalar shape: one index, so every position reduces into it
  haveI : Subsingleton Cert.Pre_finite_inputs.S_.Idx := ⟨fun a b => funext fun d => d.elim0⟩
  have he := Host.reduce_andi_all _ init _ _ j h e
  obtain ⟨h1, h2⟩ := IntOp.andi_eq_one.1 he
  -- a broadcast scalar constant reads the constant at every position
  have h1' : (0#32 : BitVec 32).toInt ≤ (x e).toInt := IntOp.cmpi_sge.1 h1
  have h2' : (x e).toInt < (100000#32 : BitVec 32).toInt := IntOp.cmpi_slt.1 h2
  have c0 : (0#32 : BitVec 32).toInt = 0 := by decide
  have c1 : (100000#32 : BitVec 32).toInt = 100000 := by decide
  rw [c0] at h1'
  rw [c1] at h2'
  exact ⟨h1', h2'⟩

/-- Under the precondition every edge's source word and target word lies in [0, 100000). -/
theorem words_in_range [Cert.Pre_finite_inputs.Facts] {F : FTy → Type} [FloatOps F]
    (a0 : FVec F Cert.Pre_finite_inputs.S100000x128 .f32) (a1 : FVec F Cert.Pre_finite_inputs.S128x64 .f32)
    (a2 a3 : FVec F Cert.Pre_finite_inputs.S1x4x16 .f32) (a4 a5 : IVec Cert.Pre_finite_inputs.S1600000 32)
    (h : Cert.Pre_finite_inputs.fn (F := F) a0 a1 a2 a3 a4 a5 = fun _ => 1#1) :
    (∀ e : Cert.Pre_finite_inputs.S1600000.Idx, 0 ≤ (a4 e).toInt ∧ (a4 e).toInt < 100000)
      ∧ (∀ e : Cert.Pre_finite_inputs.S1600000.Idx, 0 ≤ (a5 e).toInt ∧ (a5 e).toInt < 100000) := by
  -- the predicate is a scalar: read it at its one index
  have h0 := congrFun h ValueIdx.ix0
  dsimp only [Cert.Pre_finite_inputs.fn, Cert.Pre_finite_inputs.fn_part1] at h0
  -- the outermost "and" splits off the target-word conjunct, the next one the source-word conjunct
  obtain ⟨h25, h31⟩ := IntOp.andi_eq_one.1 h0
  obtain ⟨-, h24⟩ := IntOp.andi_eq_one.1 h25
  exact ⟨fun e => range_of_all a4 _ _ h24 e, fun e => range_of_all a5 _ _ h31 e⟩

/-- The same fact as two maps from edges to node numbers: each word's signed value is the number. -/
theorem words_as_fin [Cert.Pre_finite_inputs.Facts] {F : FTy → Type} [FloatOps F]
    (a0 : FVec F Cert.Pre_finite_inputs.S100000x128 .f32) (a1 : FVec F Cert.Pre_finite_inputs.S128x64 .f32)
    (a2 a3 : FVec F Cert.Pre_finite_inputs.S1x4x16 .f32) (a4 a5 : IVec Cert.Pre_finite_inputs.S1600000 32)
    (h : Cert.Pre_finite_inputs.fn (F := F) a0 a1 a2 a3 a4 a5 = fun _ => 1#1) :
    ∃ f4 f5 : Fin 1600000 → Fin 100000,
      (∀ e : Fin 1600000, (a4 (ValueIdx.ix1 e)).toInt = ((f4 e).val : Int))
        ∧ (∀ e : Fin 1600000, (a5 (ValueIdx.ix1 e)).toInt = ((f5 e).val : Int)) := by
  obtain ⟨h4, h5⟩ := words_in_range a0 a1 a2 a3 a4 a5 h
  refine ⟨fun e => ⟨(a4 (ValueIdx.ix1 e)).toInt.toNat, ?_⟩, fun e => ⟨(a5 (ValueIdx.ix1 e)).toInt.toNat, ?_⟩, ?_, ?_⟩
  · have := h4 (ValueIdx.ix1 e); omega
  · have := h5 (ValueIdx.ix1 e); omega
  · intro e; have := h4 (ValueIdx.ix1 e); show _ = ((Int.toNat _ : Nat) : Int); omega
  · intro e; have := h5 (ValueIdx.ix1 e); show _ = ((Int.toNat _ : Nat) : Int); omega

end Cert.IndexRange

end
-- ==== Proof.RefStages.lean ====
/-
  The reference program's result, stage by stage: the run of its host operations read back as a pure
  term of the argument arrays, and that term read at an index.
-/
import proofs.«419565_j82154134438199_3_alg».proof.Proof.Gen.ReferenceIdeal.Read
-- ==== Proof.lean ====
/-
  The certificate of a graph-attention layer: a pallas_call computing the projected node features h = feat · W and
  the per-head attention logits el, er, followed on the host by the edge softmax by target node and the weighted
  aggregation of source features, against the plain jnp reference.

  Over the extended reals the two programs compute the same function when every edge's source and target index lies
  in [0, 100000): the call's three arrays are the reference's first stages index by index (the same sums in the
  same grouping: no distributivity is used, and the float inputs' finiteness is never opened); the kernel program's
  row lookups fill rows whose index is out of range where the reference's clamp, and inside the range both are the
  plain gather; the rest of the host chain is then the same composition, and summing the messages by target node
  over 64 flat columns is summing them over 4 heads of 16 features and flattening.

  The three frame conjuncts: each program runs to the end without a fault and leaves its arguments unchanged — for
  the two kernel programs by the pipeline's launch theorem with the 120 later host operations run from the region's
  exit, for the reference by its run. The idealization rewrote nothing, so the preserves conjunct is trivial.
-/
import proofs.«419565_j82154134438199_3_alg».proof.Defs
import proofs.«419565_j82154134438199_3_alg».proof.Proof.Gen.Kernel
import proofs.«419565_j82154134438199_3_alg».proof.Proof.Gen.KernelIdeal
import proofs.«419565_j82154134438199_3_alg».proof.Proof.Gen.ReferenceIdeal
import proofs.«419565_j82154134438199_3_alg».proof.Proof.Gen.Pre_finite_inputs
import proofs.«419565_j82154134438199_3_alg».proof.Proof.BodyRun
import proofs.«419565_j82154134438199_3_alg».proof.Proof.BodyRunKernel
import proofs.«419565_j82154134438199_3_alg».proof.Proof.KernelValue
import proofs.«419565_j82154134438199_3_alg».proof.Proof.IndexRange
import proofs.«419565_j82154134438199_3_alg».proof.Proof.RefStages
import Idealize.ShloMosaic.Adequacy
import Idealize.ShloMosaic.Init

noncomputable section

namespace Cert.Proof

open Idealize.ShloMosaic Idealize.SL.Sem

theorem frame_kernel : Cert.frame_Kernel := fun m ρ _ => Cert.Kernel.BodyRun.frame m ρ

theorem frame_kernelIdeal : Cert.frame_KernelIdeal := fun m ρ _ => Cert.KernelIdeal.BodyRun.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- Both idealized programs end with the reference's result function of the launch contents: the kernel program by
    its value run under the index range the precondition states, the reference by its generated run, the two
    memories agreeing on the arguments. -/
theorem algebraic : Cert.algebraic_KernelIdeal_ReferenceIdeal := by
  intro m ρ m' ρ' hpre hagree
  have hr := fun c => Cert.IndexRange.words_in_range _ _ _ _ _ _ (hpre c)
  refine ⟨fun c => Cert.KernelIdeal.KernelValue.expected m c, Cert.KernelIdeal.KernelValue.run_value m ρ hr, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
